-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S2x32x4096 : Shape := ⟨3, ![2, 32, 4096]⟩
abbrev S2x16384x4096 : Shape := ⟨3, ![2, 16384, 4096]⟩
abbrev S2x16384 : Shape := ⟨2, ![2, 16384]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S2x32x4096 : S_.BroadcastsInDim S2x32x4096 (![] : Fin 0 → Fin S2x32x4096.rank)
  reducesTo_S2x32x4096_S_d0_1_2 : S2x32x4096.ReducesTo [0, 1, 2] S_
  bcast_S_S2x16384x4096 : S_.BroadcastsInDim S2x16384x4096 (![] : Fin 0 → Fin S2x16384x4096.rank)
  reducesTo_S2x16384x4096_S_d0_1_2 : S2x16384x4096.ReducesTo [0, 1, 2] S_
  bcast_S_S2x16384 : S_.BroadcastsInDim S2x16384 (![] : Fin 0 → Fin S2x16384.rank)
  reducesTo_S2x16384_S_d0_1 : S2x16384.ReducesTo [0, 1] S_

variable [Facts]

def fn_part1 {F : FTy → Type} [FloatOps F] (main_arg4 : FVec F S2x16384x4096 .f32) (main_arg5 : FVec F S2x16384 .f32) (main_arg6 : FVec F S2x16384 .f32) (main_v13 : IVec S_ 1) (main_v16 : IVec S2x16384x4096 1) : IVec S_ 1 :=
  let main_c_5 : IVec S_ 1 := constantI S_ 1 1#1
  let main_v17 : IVec S_ 1 := (fun x v => Host.reduce IntOp.andi x v reducesTo_S2x16384x4096_S_d0_1_2 h_S_) main_v16 main_c_5
  let main_v18 : IVec S_ 1 := andi main_v13 main_v17
  let main_v19 : FVec F S2x16384x4096 .f32 := Host.absf main_arg4
  let main_cst_6 : FVec F S_ .f32 := constant S_ .f32 0x7F800000#32
  let main_v20 : FVec F S2x16384x4096 .f32 := broadcastInDim S2x16384x4096 ![] bcast_S_S2x16384x4096 main_cst_6
  let main_v21 : IVec S2x16384x4096 1 := cmpf .olt main_v19 main_v20
  let main_c_7 : IVec S_ 1 := constantI S_ 1 1#1
  let main_v22 : IVec S_ 1 := (fun x v => Host.reduce IntOp.andi x v reducesTo_S2x16384x4096_S_d0_1_2 h_S_) main_v21 main_c_7
  let main_v23 : IVec S_ 1 := andi main_v18 main_v22
  let main_v24 : FVec F S2x16384 .f32 := Host.absf main_arg5
  let main_cst_8 : FVec F S_ .f32 := constant S_ .f32 0x7F800000#32
  let main_v25 : FVec F S2x16384 .f32 := broadcastInDim S2x16384 ![] bcast_S_S2x16384 main_cst_8
  let main_v26 : IVec S2x16384 1 := cmpf .olt main_v24 main_v25
  let main_c_9 : IVec S_ 1 := constantI S_ 1 1#1
  let main_v27 : IVec S_ 1 := (fun x v => Host.reduce IntOp.andi x v reducesTo_S2x16384_S_d0_1 h_S_) main_v26 main_c_9
  let main_v28 : IVec S_ 1 := andi main_v23 main_v27
  let main_v29 : FVec F S2x16384 .f32 := Host.absf main_arg6
  let main_cst_10 : FVec F S_ .f32 := constant S_ .f32 0x7F800000#32
  let main_v30 : FVec F S2x16384 .f32 := broadcastInDim S2x16384 ![] bcast_S_S2x16384 main_cst_10
  let main_v31 : IVec S2x16384 1 := cmpf .olt main_v29 main_v30
  let main_c_11 : IVec S_ 1 := constantI S_ 1 1#1
  let main_v32 : IVec S_ 1 := (fun x v => Host.reduce IntOp.andi x v reducesTo_S2x16384_S_d0_1 h_S_) main_v31 main_c_11
  let main_v33 : IVec S_ 1 := andi main_v28 main_v32
  main_v33

def fn {F : FTy → Type} [FloatOps F] (main_arg0 : FVec F S32x4096 .f32) (main_arg1 : FVec F S2x32x4096 .f32) (main_arg2 : FVec F S2x32x4096 .f32) (main_arg3 : FVec F S2x16384x4096 .f32) (main_arg4 : FVec F S2x16384x4096 .f32) (main_arg5 : FVec F S2x16384 .f32) (main_arg6 : FVec F S2x16384 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S2x32x4096 .f32 := Host.absf main_arg1
  let main_cst_0 : FVec F S_ .f32 := constant S_ .f32 0x7F800000#32
  let main_v5 : FVec F S2x32x4096 .f32 := broadcastInDim S2x32x4096 ![] bcast_S_S2x32x4096 main_cst_0
  let main_v6 : IVec S2x32x4096 1 := cmpf .olt main_v4 main_v5
  let main_c_1 : IVec S_ 1 := constantI S_ 1 1#1
  let main_v7 : IVec S_ 1 := (fun x v => Host.reduce IntOp.andi x v reducesTo_S2x32x4096_S_d0_1_2 h_S_) main_v6 main_c_1
  let main_v8 : IVec S_ 1 := andi main_v3 main_v7
  let main_v9 : FVec F S2x32x4096 .f32 := Host.absf main_arg2
  let main_cst_2 : FVec F S_ .f32 := constant S_ .f32 0x7F800000#32
  let main_v10 : FVec F S2x32x4096 .f32 := broadcastInDim S2x32x4096 ![] bcast_S_S2x32x4096 main_cst_2
  let main_v11 : IVec S2x32x4096 1 := cmpf .olt main_v9 main_v10
  let main_c_3 : IVec S_ 1 := constantI S_ 1 1#1
  let main_v12 : IVec S_ 1 := (fun x v => Host.reduce IntOp.andi x v reducesTo_S2x32x4096_S_d0_1_2 h_S_) main_v11 main_c_3
  let main_v13 : IVec S_ 1 := andi main_v8 main_v12
  let main_v14 : FVec F S2x16384x4096 .f32 := Host.absf main_arg3
  let main_cst_4 : FVec F S_ .f32 := constant S_ .f32 0x7F800000#32
  let main_v15 : FVec F S2x16384x4096 .f32 := broadcastInDim S2x16384x4096 ![] bcast_S_S2x16384x4096 main_cst_4
  let main_v16 : IVec S2x16384x4096 1 := cmpf .olt main_v14 main_v15
  fn_part1 (F := F) main_arg4 main_arg5 main_arg6 main_v13 main_v16
-- ==== Kernel.lean ====
abbrev S32x4096 : Shape := ⟨2, ![32, 4096]⟩
abbrev S2x32x4096 : Shape := ⟨3, ![2, 32, 4096]⟩
abbrev S2x16384x4096 : Shape := ⟨3, ![2, 16384, 4096]⟩
abbrev S2x16384 : Shape := ⟨2, ![2, 16384]⟩
abbrev S1x32x4096 : Shape := ⟨3, ![1, 32, 4096]⟩
abbrev S1x16384x4096 : Shape := ⟨3, ![1, 16384, 4096]⟩
abbrev S16384x4096 : Shape := ⟨2, ![16384, 4096]⟩
abbrev S1x16384 : Shape := ⟨2, ![1, 16384]⟩
abbrev S16384 : Shape := ⟨1, ![16384]⟩
abbrev S256x4096 : Shape := ⟨2, ![256, 4096]⟩
abbrev S1x256 : Shape := ⟨2, ![1, 256]⟩
abbrev S32x16384 : Shape := ⟨2, ![32, 16384]⟩
abbrev S32x256 : Shape := ⟨2, ![32, 256]⟩
abbrev S1x2x32x4096 : Shape := ⟨4, ![1, 2, 32, 4096]⟩
abbrev S2x2x32x4096 : Shape := ⟨4, ![2, 2, 32, 4096]⟩

abbrev nBuf : Space → Nat
  | .hbm => 48
  | .vmem => 28
  | .smem => 0
  | _ => 0

abbrev bufTy : (tb : Table) → Fin (tcTables nBuf tb) → BufTy
  | .hbm, ⟨0, _⟩ => ⟨S32x4096, .f32⟩
  | .hbm, ⟨1, _⟩ => ⟨S2x32x4096, .f32⟩
  | .hbm, ⟨2, _⟩ => ⟨S2x32x4096, .f32⟩
  | .hbm, ⟨3, _⟩ => ⟨S2x16384x4096, .f32⟩
  | .hbm, ⟨4, _⟩ => ⟨S2x16384x4096, .f32⟩
  | .hbm, ⟨5, _⟩ => ⟨S2x16384, .f32⟩
  | .hbm, ⟨6, _⟩ => ⟨S2x16384, .f32⟩
  | .hbm, ⟨7, _⟩ => ⟨S1x32x4096, .f32⟩
  | .hbm, ⟨8, _⟩ => ⟨S32x4096, .f32⟩
  | .hbm, ⟨9, _⟩ => ⟨S1x32x4096, .f32⟩
  | .hbm, ⟨10, _⟩ => ⟨S32x4096, .f32⟩
  | .hbm, ⟨11, _⟩ => ⟨S1x16384x4096, .f32⟩
  | .hbm, ⟨12, _⟩ => ⟨S16384x4096, .f32⟩
  | .hbm, ⟨13, _⟩ => ⟨S1x16384x4096, .f32⟩
  | .hbm, ⟨14, _⟩ => ⟨S16384x4096, .f32⟩
  | .hbm, ⟨15, _⟩ => ⟨S1x16384, .f32⟩
  | .hbm, ⟨16, _⟩ => ⟨S16384, .f32⟩
  | .hbm, ⟨17, _⟩ => ⟨S1x16384, .f32⟩
  | .hbm, ⟨18, _⟩ => ⟨S16384, .f32⟩
  | .hbm, ⟨19, _⟩ => ⟨S1x16384, .f32⟩
  | .hbm, ⟨20, _⟩ => ⟨S1x16384, .f32⟩
  | .hbm, ⟨21, _⟩ => ⟨S32x4096, .f32⟩
  | .hbm, ⟨22, _⟩ => ⟨S32x4096, .f32⟩
  | .hbm, ⟨23, _⟩ => ⟨S1x32x4096, .f32⟩
  | .hbm, ⟨24, _⟩ => ⟨S32x4096, .f32⟩
  | .hbm, ⟨25, _⟩ => ⟨S1x32x4096, .f32⟩
  | .hbm, ⟨26, _⟩ => ⟨S32x4096, .f32⟩
  | .hbm, ⟨27, _⟩ => ⟨S1x16384x4096, .f32⟩
  | .hbm, ⟨28, _⟩ => ⟨S16384x4096, .f32⟩
  | .hbm, ⟨29, _⟩ => ⟨S1x16384x4096, .f32⟩
  | .hbm, ⟨30, _⟩ => ⟨S16384x4096, .f32⟩
  | .hbm, ⟨31, _⟩ => ⟨S1x16384, .f32⟩
  | .hbm, ⟨32, _⟩ => ⟨S16384, .f32⟩
  | .hbm, ⟨33, _⟩ => ⟨S1x16384, .f32⟩
  | .hbm, ⟨34, _⟩ => ⟨S16384, .f32⟩
  | .hbm, ⟨35, _⟩ => ⟨S1x16384, .f32⟩
  | .hbm, ⟨36, _⟩ => ⟨S1x16384, .f32⟩
  | .hbm, ⟨37, _⟩ => ⟨S32x4096, .f32⟩
  | .hbm, ⟨38, _⟩ => ⟨S32x4096, .f32⟩
  | .hbm, ⟨39, _⟩ => ⟨S1x32x4096, .f32⟩
  | .hbm, ⟨40, _⟩ => ⟨S1x32x4096, .f32⟩
  | .hbm, ⟨41, _⟩ => ⟨S2x32x4096, .f32⟩
  | .hbm, ⟨42, _⟩ => ⟨S1x32x4096, .f32⟩
  | .hbm, ⟨43, _⟩ => ⟨S1x32x4096, .f32⟩
  | .hbm, ⟨44, _⟩ => ⟨S2x32x4096, .f32⟩
  | .hbm, ⟨45, _⟩ => ⟨S1x2x32x4096, .f32⟩
  | .hbm, ⟨46, _⟩ => ⟨S1x2x32x4096, .f32⟩
  | .hbm, ⟨47, _⟩ => ⟨S2x2x32x4096, .f32⟩
  | .local _ .vmem, ⟨0, _⟩ => ⟨S32x4096, .f32⟩
  | .local _ .vmem, ⟨1, _⟩ => ⟨S32x4096, .f32⟩
  | .local _ .vmem, ⟨2, _⟩ => ⟨S32x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S32x4096, .f32⟩
  | .local _ .vmem, ⟨12, _⟩ => ⟨S32x4096, .f32⟩
  | .local _ .vmem, ⟨13, _⟩ => ⟨S32x16384, .f32⟩
  | .local _ .vmem, ⟨14, _⟩ => ⟨S32x4096, .f32⟩
  | .local _ .vmem, ⟨15, _⟩ => ⟨S32x4096, .f32⟩
  | .local _ .vmem, ⟨16, _⟩ => ⟨S32x4096, .f32⟩
  | .local _ .vmem, ⟨17, _⟩ => ⟨S256x4096, .f32⟩
  | .local _ .vmem, ⟨18, _⟩ => ⟨S256x4096, .f32⟩
  | .local _ .vmem, ⟨19, _⟩ => ⟨S256x4096, .f32⟩
  | .local _ .vmem, ⟨20, _⟩ => ⟨S256x4096, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S32x4096, .f32⟩
  | .local _ .vmem, ⟨26, _⟩ => ⟨S32x4096, .f32⟩
  | .local _ .vmem, ⟨27, _⟩ => ⟨S32x16384, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29_0 : Ref sig .tc := ⟨.hbm, 37, rfl⟩
abbrev main_v29_1 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg8_0 : Ref sig .tc := ⟨.vmem, 26, rfl⟩
abbrev cc1_scratch0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc1_sem0_0 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem8_0 : DmaSem sig := 25

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c256_i32 : BitVec 32 := 256#32
  let v22 : BitVec 32 := Scalar.muli arg0 c256_i32
  v22
def k0_off1 (i : grid0.Coords) : Fin 2 → Nat :=
  let c0_12 : Index := 0#32
  let arg0 : BitVec 32 := BitVec.ofNat 32 (i 0).val
  let c256_i32 : BitVec 32 := 256#32
  let v22 : BitVec 32 := Scalar.muli arg0 c256_i32
  let v23 : BitVec 32 := v22
  let v24 : Index := Scalar.indexCast v23
  ![0, v24.toNat]
def k0_cond1 (i : grid0.Coords) : BitVec 1 :=
  let arg0 : BitVec 32 := BitVec.ofNat 32 (i 0).val
  let c63_i32 : BitVec 32 := 63#32
  let v28 : BitVec 1 := Scalar.cmpi .eq arg0 c63_i32
  let v29 : BitVec 32 := Scalar.extui v28
  let c0_i32 : BitVec 32 := 0#32
  let v30 : BitVec 1 := Scalar.cmpi .ne v29 c0_i32
  v30

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![64], ![false]⟩

def k1_mult1 (i : grid1.Coords) : BitVec 32 :=
  let arg0 : BitVec 32 := BitVec.ofNat 32 (i 0).val
  let c256_i32 : BitVec 32 := 256#32
  let v23 : BitVec 32 := Scalar.muli arg0 c256_i32
  v23
def k1_off1 (i : grid1.Coords) : Fin 2 → Nat :=
  let c0_12 : Index := 0#32
  let arg0 : BitVec 32 := BitVec.ofNat 32 (i 0).val
  let c256_i32 : BitVec 32 := 256#32
  let v23 : BitVec 32 := Scalar.muli arg0 c256_i32
  let v24 : BitVec 32 := v23
  let v25 : Index := Scalar.indexCast v24
  ![0, v25.toNat]
def k1_cond1 (i : grid1.Coords) : BitVec 1 :=
  let arg0 : BitVec 32 := BitVec.ofNat 32 (i 0).val
  let c63_i32 : BitVec 32 := 63#32
  let v29 : BitVec 1 := Scalar.cmpi .eq arg0 c63_i32
  let v30 : BitVec 32 := Scalar.extui v29
  let c0_i32 : BitVec 32 := 0#32
  let v31 : BitVec 1 := Scalar.cmpi .ne v30 c0_i32
  v31

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S32x4096 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S32x4096 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

class Facts₀ : Prop where
  slices_S2x32x4096_S1x32x4096_0_0_0 : S2x32x4096.Slices ![0, 0, 0] S1x32x4096
  shapeCasts_S1x32x4096_S32x4096 : S1x32x4096.ShapeCasts S32x4096
  slices_S2x16384x4096_S1x16384x4096_0_0_0 : S2x16384x4096.Slices ![0, 0, 0] S1x16384x4096
  shapeCasts_S1x16384x4096_S16384x4096 : S1x16384x4096.ShapeCasts S16384x4096
  slices_S2x16384_S1x16384_0_0 : S2x16384.Slices ![0, 0] S1x16384
  shapeCasts_S1x16384_S16384 : S1x16384.ShapeCasts S16384
  shapeCasts_S16384_S1x16384 : S16384.ShapeCasts S1x16384
  inb_S32x4096_S32x4096_0_0 : ∀ a, (![0, 0] : Fin 2 → Nat) a + S32x4096.size a ≤ S32x4096.size a
  h_S32x4096 : 0 < S32x4096.numel
  bitsLt_bf16_f32 : FTy.bits .bf16 < FTy.bits .f32
  shapeCasts_S32x4096_S32x4096 : S32x4096.ShapeCasts S32x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S32x256 : S1x256.Broadcasts S32x256
  h_S32x256 : 0 < S32x256.numel
  shapeCasts_S32x256_S32x256 : S32x256.ShapeCasts S32x256
  inb_S32x16384_S32x16384_0_0 : ∀ a, (![0, 0] : Fin 2 → Nat) a + S32x16384.size a ≤ S32x16384.size a
  h_S32x16384 : 0 < S32x16384.numel
  slices_S32x16384_o0_0_S32x4096 : S32x16384.Slices ![0, 0] S32x4096
  slices_S32x16384_o0_4096_S32x4096 : S32x16384.Slices ![0, 4096] S32x4096
  slices_S32x16384_o0_8192_S32x4096 : S32x16384.Slices ![0, 8192] S32x4096
  slices_S32x16384_o0_12288_S32x4096 : S32x16384.Slices ![0, 12288] S32x4096
  slices_S2x32x4096_S1x32x4096_1_0_0 : S2x32x4096.Slices ![1, 0, 0] S1x32x4096
  slices_S2x16384x4096_S1x16384x4096_1_0_0 : S2x16384x4096.Slices ![1, 0, 0] S1x16384x4096
  slices_S2x16384_S1x16384_1_0 : S2x16384.Slices ![1, 0] S1x16384
  bcast_S32x4096_S1x32x4096_1_2 : S32x4096.BroadcastsInDim S1x32x4096 (![1, 2] : Fin 2 → Fin S1x32x4096.rank)
  concatenates_S1x32x4096_S1x32x4096_S2x32x4096_d0 : Shape.Concatenates [S1x32x4096, S1x32x4096] S2x32x4096 0
  bcast_S2x32x4096_S1x2x32x4096_1_2_3 : S2x32x4096.BroadcastsInDim S1x2x32x4096 (![1, 2, 3] : Fin 3 → Fin S1x2x32x4096.rank)
  concatenates_S1x2x32x4096_S1x2x32x4096_S2x2x32x4096_d0 : Shape.Concatenates [S1x2x32x4096, S1x2x32x4096] S2x2x32x4096 0
  dot_S32x4096_S256x4096_S32x256_1_1_0_0_n_n_wf : DotDims.WF S32x4096 S256x4096 S32x256 [1] [1] [0] [0] [] []
  hrank0 : 0 < grid0.rank
  k0_mult1_dvd : ∀ i : grid0.Coords, 128 ∣ (k0_mult1 i).toNat
  k0_off1_inb : ∀ i : grid0.Coords, ∀ a, (k0_off1 i) a + S32x256.size a ≤ S32x16384.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S32x4096.size a
  hwx0_0 : ∀ i : grid0.Coords, EltTy.bits .f32 = 32 ∨ (Rect.block (s := S32x4096) S32x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x4096.size a ≤ S32x4096.size a
  hwx0_1 : ∀ i : grid0.Coords, EltTy.bits .f32 = 32 ∨ (Rect.block (s := S32x4096) S32x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x4096.size a ≤ S32x4096.size a
  hwx0_2 : ∀ i : grid0.Coords, EltTy.bits .f32 = 32 ∨ (Rect.block (s := S32x4096) S32x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S16384x4096.size a
  hwx0_3 : ∀ i : grid0.Coords, EltTy.bits .f32 = 32 ∨ (Rect.block (s := S16384x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S16384x4096.size a
  hwx0_4 : ∀ i : grid0.Coords, EltTy.bits .f32 = 32 ∨ (Rect.block (s := S16384x4096) S256x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x16384.size a
  hwx0_5 : ∀ i : grid0.Coords, EltTy.bits .f32 = 32 ∨ (Rect.block (s := S1x16384) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x16384.size a
  hwx0_6 : ∀ i : grid0.Coords, EltTy.bits .f32 = 32 ∨ (Rect.block (s := S1x16384) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x4096.size a ≤ S32x4096.size a
  hwx0_7 : ∀ i : grid0.Coords, EltTy.bits .f32 = 32 ∨ (Rect.block (s := S32x4096) S32x4096.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x4096.size a ≤ S32x4096.size a
  hwx0_8 : ∀ i : grid0.Coords, EltTy.bits .f32 = 32 ∨ (Rect.block (s := S32x4096) S32x4096.size (cc0_transform_8 i) (hinb0_8 i)).WholeWords (EltTy.packing .f32)
  hrank1 : 0 < grid1.rank
  k1_mult1_dvd : ∀ i : grid1.Coords, 128 ∣ (k1_mult1 i).toNat
  k1_off1_inb : ∀ i : grid1.Coords, ∀ a, (k1_off1 i) a + S32x256.size a ≤ S32x16384.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x4096.size a ≤ S32x4096.size a
  hwx1_0 : ∀ i : grid1.Coords, EltTy.bits .f32 = 32 ∨ (Rect.block (s := S32x4096) S32x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x4096.size a ≤ S32x4096.size a
  hwx1_1 : ∀ i : grid1.Coords, EltTy.bits .f32 = 32 ∨ (Rect.block (s := S32x4096) S32x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x4096.size a ≤ S32x4096.size a
  hwx1_2 : ∀ i : grid1.Coords, EltTy.bits .f32 = 32 ∨ (Rect.block (s := S32x4096) S32x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S16384x4096.size a
  hwx1_3 : ∀ i : grid1.Coords, EltTy.bits .f32 = 32 ∨ (Rect.block (s := S16384x4096) S256x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x4096.size a ≤ S16384x4096.size a
  hwx1_4 : ∀ i : grid1.Coords, EltTy.bits .f32 = 32 ∨ (Rect.block (s := S16384x4096) S256x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x16384.size a
  hwx1_5 : ∀ i : grid1.Coords, EltTy.bits .f32 = 32 ∨ (Rect.block (s := S1x16384) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x16384.size a
  hwx1_6 : ∀ i : grid1.Coords, EltTy.bits .f32 = 32 ∨ (Rect.block (s := S1x16384) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x4096.size a ≤ S32x4096.size a
  hwx1_7 : ∀ i : grid1.Coords, EltTy.bits .f32 = 32 ∨ (Rect.block (s := S32x4096) S32x4096.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S32x4096.size a ≤ S32x4096.size a
  hwx1_8 : ∀ i : grid1.Coords, EltTy.bits .f32 = 32 ∨ (Rect.block (s := S32x4096) S32x4096.size (cc1_transform_8 i) (hinb1_8 i)).WholeWords (EltTy.packing .f32)

variable [Facts₀]

def dot_S32x4096_S256x4096_S32x256_1_1_0_0_n_n : DotDims S32x4096 S256x4096 S32x256 where
  lhsContracting := [1]
  rhsContracting := [1]
  lhsNonContracting := [0]
  rhsNonContracting := [0]
  lhsBatch := []
  rhsBatch := []
  wf := dot_S32x4096_S256x4096_S32x256_1_1_0_0_n_n_wf

abbrev win0_0 : Pipeline.Window sig grid0 :=
  Pipeline.Window.ofSpec (Memref.whole main_arg0) S32x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S32x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S256x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14_0) S32x4096.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14_1) S32x4096.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond1 i == 1#1) | 8 => fun i => !(k0_cond1 i == 1#1) | ⟨_ + 9, h⟩ => absurd h (Nat.not_lt.2 (Nat.le_add_left _ _))

abbrev win1_0 : Pipeline.Window sig grid1 :=
  Pipeline.Window.ofSpec (Memref.whole main_v14_0) S32x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v16) S32x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S32x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S256x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v22) S256x4096.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v28) S1x256.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v29_0) S32x4096.size cc1_transform_7 reads1_7 true true 1 stage1_7 sem1_7
    hrank1 hreads1_7 hinb1_7 nbuf1_7 (Memref.isWhole_whole _) hwx1_7 hstage1_7

abbrev win1_8 : Pipeline.Window sig grid1 :=
  Pipeline.Window.ofSpec (Memref.whole main_v29_1) S32x4096.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun i => !(k1_cond1 i == 1#1) | 8 => fun i => !(k1_cond1 i == 1#1) | ⟨_ + 9, h⟩ => absurd h (Nat.not_lt.2 (Nat.le_add_left _ _))

class Facts : Prop extends Facts₀ where

variable [Facts]
-- ==== ReferenceIdeal.lean ====
abbrev S32x4096 : Shape := ⟨2, ![32, 4096]⟩
abbrev S2x32x4096 : Shape := ⟨3, ![2, 32, 4096]⟩
abbrev S2x16384x4096 : Shape := ⟨3, ![2, 16384, 4096]⟩
abbrev S2x16384 : Shape := ⟨2, ![2, 16384]⟩
abbrev S1x32x4096 : Shape := ⟨3, ![1, 32, 4096]⟩
abbrev S1x16384x4096 : Shape := ⟨3, ![1, 16384, 4096]⟩
abbrev S16384x4096 : Shape := ⟨2, ![16384, 4096]⟩
abbrev S1x16384 : Shape := ⟨2, ![1, 16384]⟩
abbrev S16384 : Shape := ⟨1, ![16384]⟩
abbrev S4096x16384 : Shape := ⟨2, ![4096, 16384]⟩
abbrev S32x16384 : Shape := ⟨2, ![32, 16384]⟩
abbrev S_ : Shape := ⟨0, ![]⟩
abbrev S1x2x32x4096 : Shape := ⟨4, ![1, 2, 32, 4096]⟩
abbrev S2x2x32x4096 : Shape := ⟨4, ![2, 2, 32, 4096]⟩

abbrev nBuf : Space → Nat
  | .hbm => 130
  | .vmem => 0
  | .smem => 0
  | _ => 0

abbrev hbmTy0_0 (i : Nat) : BufTy := match i % 128 with
  | 0 => ⟨S32x4096, .f32⟩
  | 1 => ⟨S2x32x4096, .f32⟩
  | 2 => ⟨S2x32x4096, .f32⟩
  | 3 => ⟨S2x16384x4096, .f32⟩
  | 4 => ⟨S2x16384x4096, .f32⟩
  | 5 => ⟨S2x16384, .f32⟩
  | 6 => ⟨S2x16384, .f32⟩
  | 7 => ⟨S1x32x4096, .f32⟩
  | 8 => ⟨S32x4096, .f32⟩
  | 9 => ⟨S1x32x4096, .f32⟩
  | 10 => ⟨S32x4096, .f32⟩
  | 11 => ⟨S1x16384x4096, .f32⟩
  | 12 => ⟨S16384x4096, .f32⟩
  | 13 => ⟨S1x16384x4096, .f32⟩
  | 14 => ⟨S16384x4096, .f32⟩
  | 15 => ⟨S1x16384, .f32⟩
  | 16 => ⟨S16384, .f32⟩
  | 17 => ⟨S1x16384, .f32⟩
  | 18 => ⟨S16384, .f32⟩
  | 19 => ⟨S4096x16384, .f32⟩
  | 20 => ⟨S32x16384, .f32⟩
  | 21 => ⟨S1x16384, .f32⟩
  | 22 => ⟨S32x16384, .f32⟩
  | 23 => ⟨S32x16384, .f32⟩
  | 24 => ⟨S4096x16384, .f32⟩
  | 25 => ⟨S32x16384, .f32⟩
  | 26 => ⟨S32x16384, .f32⟩
  | 27 => ⟨S1x16384, .f32⟩
  | 28 => ⟨S32x16384, .f32⟩
  | 29 => ⟨S32x16384, .f32⟩
  | 30 => ⟨S32x4096, .f32⟩
  | 31 => ⟨S32x4096, .f32⟩
  | 32 => ⟨S32x4096, .f32⟩
  | 33 => ⟨S32x4096, .f32⟩
  | 34 => ⟨S32x4096, .f32⟩
  | 35 => ⟨S32x4096, .f32⟩
  | 36 => ⟨S_, .f32⟩
  | 37 => ⟨S32x4096, .f32⟩
  | 38 => ⟨S32x4096, .f32⟩
  | 39 => ⟨S_, .f32⟩
  | 40 => ⟨S32x4096, .f32⟩
  | 41 => ⟨S32x4096, .f32⟩
  | 42 => ⟨S32x4096, .f32⟩
  | 43 => ⟨S32x4096, .f32⟩
  | 44 => ⟨S32x4096, .f32⟩
  | 45 => ⟨S_, .f32⟩
  | 46 => ⟨S32x4096, .f32⟩
  | 47 => ⟨S32x4096, .f32⟩
  | 48 => ⟨S_, .f32⟩
  | 49 => ⟨S32x4096, .f32⟩
  | 50 => ⟨S32x4096, .f32⟩
  | 51 => ⟨S32x4096, .f32⟩
  | 52 => ⟨S32x4096, .f32⟩
  | 53 => ⟨S32x4096, .f32⟩
  | 54 => ⟨S32x4096, .f32⟩
  | 55 => ⟨S32x4096, .f32⟩
  | 56 => ⟨S_, .f32⟩
  | 57 => ⟨S32x4096, .f32⟩
  | 58 => ⟨S32x4096, .f32⟩
  | 59 => ⟨S_, .f32⟩
  | 60 => ⟨S32x4096, .f32⟩
  | 61 => ⟨S32x4096, .f32⟩
  | 62 => ⟨S32x4096, .f32⟩
  | 63 => ⟨S32x4096, .f32⟩
  | 64 => ⟨S1x32x4096, .f32⟩
  | 65 => ⟨S32x4096, .f32⟩
  | 66 => ⟨S1x32x4096, .f32⟩
  | 67 => ⟨S32x4096, .f32⟩
  | 68 => ⟨S1x16384x4096, .f32⟩
  | 69 => ⟨S16384x4096, .f32⟩
  | 70 => ⟨S1x16384x4096, .f32⟩
  | 71 => ⟨S16384x4096, .f32⟩
  | 72 => ⟨S1x16384, .f32⟩
  | 73 => ⟨S16384, .f32⟩
  | 74 => ⟨S1x16384, .f32⟩
  | 75 => ⟨S16384, .f32⟩
  | 76 => ⟨S4096x16384, .f32⟩
  | 77 => ⟨S32x16384, .f32⟩
  | 78 => ⟨S1x16384, .f32⟩
  | 79 => ⟨S32x16384, .f32⟩
  | 80 => ⟨S32x16384, .f32⟩
  | 81 => ⟨S4096x16384, .f32⟩
  | 82 => ⟨S32x16384, .f32⟩
  | 83 => ⟨S32x16384, .f32⟩
  | 84 => ⟨S1x16384, .f32⟩
  | 85 => ⟨S32x16384, .f32⟩
  | 86 => ⟨S32x16384, .f32⟩
  | 87 => ⟨S32x4096, .f32⟩
  | 88 => ⟨S32x4096, .f32⟩
  | 89 => ⟨S32x4096, .f32⟩
  | 90 => ⟨S32x4096, .f32⟩
  | 91 => ⟨S32x4096, .f32⟩
  | 92 => ⟨S32x4096, .f32⟩
  | 93 => ⟨S_, .f32⟩
  | 94 => ⟨S32x4096, .f32⟩
  | 95 => ⟨S32x4096, .f32⟩
  | 96 => ⟨S_, .f32⟩
  | 97 => ⟨S32x4096, .f32⟩
  | 98 => ⟨S32x4096, .f32⟩
  | 99 => ⟨S32x4096, .f32⟩
  | 100 => ⟨S32x4096, .f32⟩
  | 101 => ⟨S32x4096, .f32⟩
  | 102 => ⟨S_, .f32⟩
  | 103 => ⟨S32x4096, .f32⟩
  | 104 => ⟨S32x4096, .f32⟩
  | 105 => ⟨S_, .f32⟩
  | 106 => ⟨S32x4096, .f32⟩
  | 107 => ⟨S32x4096, .f32⟩
  | 108 => ⟨S32x4096, .f32⟩
  | 109 => ⟨S32x4096, .f32⟩
  | 110 => ⟨S32x4096, .f32⟩
  | 111 => ⟨S32x4096, .f32⟩
  | 112 => ⟨S32x4096, .f32⟩
  | 113 => ⟨S_, .f32⟩
  | 114 => ⟨S32x4096, .f32⟩
  | 115 => ⟨S32x4096, .f32⟩
  | 116 => ⟨S_, .f32⟩
  | 117 => ⟨S32x4096, .f32⟩
  | 118 => ⟨S32x4096, .f32⟩
  | 119 => ⟨S32x4096, .f32⟩
  | 120 => ⟨S32x4096, .f32⟩
  | 121 => ⟨S1x32x4096, .f32⟩
  | 122 => ⟨S1x32x4096, .f32⟩
  | 123 => ⟨S2x32x4096, .f32⟩
  | 124 => ⟨S1x32x4096, .f32⟩
  | 125 => ⟨S1x32x4096, .f32⟩
  | 126 => ⟨S2x32x4096, .f32⟩
  | 127 => ⟨S1x2x32x4096, .f32⟩
  | _ => ⟨S32x4096, .f32⟩

abbrev hbmTy0_1 (i : Nat) : BufTy := match i % 128 with
  | 0 => ⟨S1x2x32x4096, .f32⟩
  | 1 => ⟨S2x2x32x4096, .f32⟩
  | _ => ⟨S32x4096, .f32⟩

abbrev hbmTy (i : Nat) : BufTy := match i / 128 with
  | 0 => hbmTy0_0 i
  | 1 => hbmTy0_1 i
  | _ => ⟨S32x4096, .f32⟩

abbrev bufTy : (tb : Table) → Fin (tcTables nBuf tb) → BufTy
  | .hbm, ⟨i, _⟩ => hbmTy i
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst : Ref sig .tc := ⟨.hbm, 36, rfl⟩
abbrev main_v29 : Ref sig .tc := ⟨.hbm, 37, rfl⟩
abbrev main_v30 : Ref sig .tc := ⟨.hbm, 38, rfl⟩
abbrev main_cst_0 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_1 : Ref sig .tc := ⟨.hbm, 45, rfl⟩
abbrev main_v36 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_3 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_cst_5 : Ref sig .tc := ⟨.hbm, 93, rfl⟩
abbrev main_v80 : Ref sig .tc := ⟨.hbm, 94, rfl⟩
abbrev main_v81 : Ref sig .tc := ⟨.hbm, 95, rfl⟩
abbrev main_cst_6 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_cst_7 : Ref sig .tc := ⟨.hbm, 102, rfl⟩
abbrev main_v87 : Ref sig .tc := ⟨.hbm, 103, rfl⟩
abbrev main_v88 : Ref sig .tc := ⟨.hbm, 104, rfl⟩
abbrev main_cst_8 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_cst_9 : Ref sig .tc := ⟨.hbm, 113, rfl⟩
abbrev main_v96 : Ref sig .tc := ⟨.hbm, 114, rfl⟩
abbrev main_v97 : Ref sig .tc := ⟨.hbm, 115, rfl⟩
abbrev main_cst_10 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩

abbrev nD : Nat := 1
abbrev τ : Topo := Topo.v7x

variable {F : FTy → Type} [FloatOps F]

class Facts₀ : Prop where
  slices_S2x32x4096_S1x32x4096_0_0_0 : S2x32x4096.Slices ![0, 0, 0] S1x32x4096
  shapeCasts_S1x32x4096_S32x4096 : S1x32x4096.ShapeCasts S32x4096
  slices_S2x16384x4096_S1x16384x4096_0_0_0 : S2x16384x4096.Slices ![0, 0, 0] S1x16384x4096
  shapeCasts_S1x16384x4096_S16384x4096 : S1x16384x4096.ShapeCasts S16384x4096
  slices_S2x16384_S1x16384_0_0 : S2x16384.Slices ![0, 0] S1x16384
  shapeCasts_S1x16384_S16384 : S1x16384.ShapeCasts S16384
  transposes_S16384x4096_S4096x16384_1_0 : S16384x4096.Transposes [1, 0] S4096x16384
  bcast_S16384_S1x16384_1 : S16384.BroadcastsInDim S1x16384 (![1] : Fin 1 → Fin S1x16384.rank)
  bcast_S1x16384_S32x16384_0_1 : S1x16384.BroadcastsInDim S32x16384 (![0, 1] : Fin 2 → Fin S32x16384.rank)
  slices_S32x16384_S32x4096_0_0 : S32x16384.Slices ![0, 0] S32x4096
  slices_S32x16384_S32x4096_0_4096 : S32x16384.Slices ![0, 4096] S32x4096
  slices_S32x16384_S32x4096_0_8192 : S32x16384.Slices ![0, 8192] S32x4096
  slices_S32x16384_S32x4096_0_12288 : S32x16384.Slices ![0, 12288] S32x4096
  bcast_S_S32x4096 : S_.BroadcastsInDim S32x4096 (![] : Fin 0 → Fin S32x4096.rank)
  slices_S2x32x4096_S1x32x4096_1_0_0 : S2x32x4096.Slices ![1, 0, 0] S1x32x4096
  slices_S2x16384x4096_S1x16384x4096_1_0_0 : S2x16384x4096.Slices ![1, 0, 0] S1x16384x4096
  slices_S2x16384_S1x16384_1_0 : S2x16384.Slices ![1, 0] S1x16384
  bcast_S32x4096_S1x32x4096_1_2 : S32x4096.BroadcastsInDim S1x32x4096 (![1, 2] : Fin 2 → Fin S1x32x4096.rank)
  concatenates_S1x32x4096_S1x32x4096_S2x32x4096_d0 : Shape.Concatenates [S1x32x4096, S1x32x4096] S2x32x4096 0
  bcast_S2x32x4096_S1x2x32x4096_1_2_3 : S2x32x4096.BroadcastsInDim S1x2x32x4096 (![1, 2, 3] : Fin 3 → Fin S1x2x32x4096.rank)
  concatenates_S1x2x32x4096_S1x2x32x4096_S2x2x32x4096_d0 : Shape.Concatenates [S1x2x32x4096, S1x2x32x4096] S2x2x32x4096 0
  dot_S32x4096_S4096x16384_S32x16384_1_0_0_1_n_n_wf : DotDims.WF S32x4096 S4096x16384 S32x16384 [1] [0] [0] [1] [] []

variable [Facts₀]

def dot_S32x4096_S4096x16384_S32x16384_1_0_0_1_n_n : DotDims S32x4096 S4096x16384 S32x16384 where
  lhsContracting := [1]
  rhsContracting := [0]
  lhsNonContracting := [0]
  rhsNonContracting := [1]
  lhsBatch := []
  rhsBatch := []
  wf := dot_S32x4096_S4096x16384_S32x16384_1_0_0_1_n_n_wf

class Facts : Prop extends Facts₀ where

variable [Facts]
-- ==== Proof.K.Run0A.lean ====
/-
  Region 0's kernel body at a grid point that is not the last: it loads the resident activations and the point's
  weight and bias tiles, and stores one 32x256 tile of gate pre-activations into the carried scratch at the point's
  column offset. Nothing else is touched.
-/
import proofs.«127548_j17918603559185_1_alg».proof.Proof.Gen.Kernel.Launch
import proofs.«127548_j17918603559185_1_alg».proof.Proof.Gen.Kernel.Skeleton
import proofs.«127548_j17918603559185_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a whole-buffer access, spelt as a function. -/
theorem hzz0 : (![0, 0] : Fin 2 → ℕ) = fun _ => 0 := by
  funext a; match a with | ⟨0, _⟩ => rfl | ⟨1, _⟩ => rfl

set_option maxHeartbeats 4000000 in
/-- The body where the closing branch is not taken: the tile's store is the one piece the scratch gains. -/
noncomputable def kernelRun0_A (c : Dev nD) (i : grid0.Coords) (arg1 : Memref sig .tc .vmem S32x4096 .f32) (harg1 : arg1.IsWhole) (arg2 : Memref sig .tc .vmem S32x4096 .f32) (harg2 : arg2.IsWhole) (arg3 : Memref sig .tc .vmem S32x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S32x16384 .f32) (harg10 : arg10.IsWhole) (hc : ¬ k0_cond1 i = 1#1)
    (x0 x1 : Vec F S32x4096 .f32) (x3 x4 : Vec F S256x4096 .f32) (x5 x6 : Vec F S1x256 .f32) (xs : Vec F S32x16384 .f32) :
    { LS : List (View.Piece (Elt F) S32x16384 .f32) //
      ∀ (E : Set ℕ) (K : PUnit → sProp 𝕄),
        iprop(owns (c : Thread nD τ) arg1 fullShare x0 ∗ owns (c : Thread nD τ) arg2 fullShare x1 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg10 fullShare xs
            ∗ (iprop(owns (c : Thread nD τ) arg1 fullShare x0 ∗ owns (c : Thread nD τ) arg2 fullShare x1 ∗ owns (c : Thread nD τ) arg4 fullShare x3 ∗ owns (c : Thread nD τ) arg5 fullShare x4 ∗ owns (c : Thread nD τ) arg6 fullShare x5 ∗ owns (c : Thread nD τ) arg7 fullShare x6
                ∗ (arg10.view.loc (c : Thread nD τ) ↦[arg10.view.set]{fullShare} arg10.view.writes (Elt F) (harg10.unread xs) LS)) -∗ K ⟨⟩))
          ⊢ wp frame (wpE (defs₀ (F := F)) Variants.none c none) E (cc0__lstm_layer_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__lstm_layer_kernel_eq_skeleton]; unfold cc0__lstm_layer_kernel_skel
    unfold owns
    iintro ⟨⟨%f0, %hf0, H0⟩, ⟨%f1, %hf1, H1⟩, ⟨%f3, %hf3, H3⟩, ⟨%f4, %hf4, H4⟩, ⟨%f5, %hf5, H5⟩, ⟨%f6, %hf6, H6⟩, ⟨%fs, %hfs, HS⟩, Hk⟩
    obtain rfl := harg1.eq_unread hf0; obtain rfl := harg2.eq_unread hf1
    obtain rfl := harg4.eq_unread hf3; obtain rfl := harg5.eq_unread hf4; obtain rfl := harg6.eq_unread hf5; obtain rfl := harg7.eq_unread hf6
    obtain rfl := harg10.eq_unread hfs
    sl_exec (disch := exact hc)
    sl_step
    iapply Hk
    isplitl [H0]; · iexists _; isplitr; · ipureintro; exact harg1.read_unread _
                    iexact H0
    isplitl [H1]; · iexists _; isplitr; · ipureintro; exact harg2.read_unread _
                    iexact H1
    isplitl [H3]; · iexists _; isplitr; · ipureintro; exact harg4.read_unread _
                    iexact H3
    isplitl [H4]; · iexists _; isplitr; · ipureintro; exact harg5.read_unread _
                    iexact H4
    isplitl [H5]; · iexists _; isplitr; · ipureintro; exact harg6.read_unread _
                    iexact H5
    isplitl [H6]; · iexists _; isplitr; · ipureintro; exact harg7.read_unread _
                    iexact H6
    iexact HS

/-- The one piece: the tile's payload through the rectangle of 256 columns at the point's offset. -/
theorem LS0_A (c : Dev nD) (i : grid0.Coords) (arg1 : Memref sig .tc .vmem S32x4096 .f32) (harg1 : arg1.IsWhole) (arg2 : Memref sig .tc .vmem S32x4096 .f32) (harg2 : arg2.IsWhole) (arg3 : Memref sig .tc .vmem S32x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S32x16384 .f32) (harg10 : arg10.IsWhole) (hc : ¬ k0_cond1 i = 1#1)
    (x0 x1 : Vec F S32x4096 .f32) (x3 x4 : Vec F S256x4096 .f32) (x5 x6 : Vec F S1x256 .f32) (xs : Vec F S32x16384 .f32) :
    (kernelRun0_A c i arg1 harg1 arg2 harg2 arg3 harg3 arg4 harg4 arg5 harg5 arg6 harg6 arg7 harg7 arg8 harg8 arg9 harg9 arg10 harg10 hc x0 x1 x3 x4 x5 x6 xs).1
      = [⟨Rect.unit (s := S32x16384) (k0_off1 i) S32x256.size (k0_off1_inb i), k0_pay1 x0 x1 x3 x4 x5 x6⟩] := by
  unfold kernelRun0_A; dsimp only; sl_unfold_words
  simp only [View.readAt_eq_ld, harg1.read_unread, harg2.read_unread, harg4.read_unread, harg5.read_unread, harg6.read_unread, harg7.read_unread,
    View.ld_unit_zero (S := S32x4096) hzz0, View.ld_unit_zero (S := S256x4096) hzz0, View.ld_unit_zero (S := S1x256) hzz0]

end Cert.Kernel.Body

end
-- ==== Proof.K.Run0B.lean ====
/-
  Region 0's kernel body at the last grid point: after the last tile of gate pre-activations is stored, the whole
  scratch is read back, the cell update is computed from its four column quarters and the previous cell state, and the
  new hidden and cell states are stored whole into the two output buffers.
-/
import proofs.«127548_j17918603559185_1_alg».proof.Proof.Gen.Kernel.Launch
import proofs.«127548_j17918603559185_1_alg».proof.Proof.K.Run0A
import proofs.«127548_j17918603559185_1_alg».proof.Proof.Gen.Kernel.Skeleton
import proofs.«127548_j17918603559185_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body where the closing branch is taken: the scratch gains the last tile; each output gets one whole store. -/
noncomputable def kernelRun0_B (c : Dev nD) (i : grid0.Coords) (arg1 : Memref sig .tc .vmem S32x4096 .f32) (harg1 : arg1.IsWhole) (arg2 : Memref sig .tc .vmem S32x4096 .f32) (harg2 : arg2.IsWhole) (arg3 : Memref sig .tc .vmem S32x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S32x16384 .f32) (harg10 : arg10.IsWhole) (hc : k0_cond1 i = 1#1)
    (x0 x1 x2 : Vec F S32x4096 .f32) (x3 x4 : Vec F S256x4096 .f32) (x5 x6 : Vec F S1x256 .f32) (xs : Vec F S32x16384 .f32) :
    Σ' (L8 : List (View.Piece (Elt F) S32x4096 .f32)) (L9 : List (View.Piece (Elt F) S32x4096 .f32)), { LS : List (View.Piece (Elt F) S32x16384 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ (∃ d, owns (c : Thread nD τ) arg9 fullShare d) ∗ owns (c : Thread nD τ) arg10 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)
                ∗ (arg10.view.loc (c : Thread nD τ) ↦[arg10.view.set]{fullShare} arg10.view.writes (Elt F) (harg10.unread xs) LS)) -∗ K ⟨⟩))
          ⊢ wp frame (wpE (defs₀ (F := F)) Variants.none c none) E (cc0__lstm_layer_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__lstm_layer_kernel_eq_skeleton]; unfold cc0__lstm_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%d9, %f9, -, H9⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5; obtain rfl := harg7.eq_unread hf6
    obtain rfl := harg10.eq_unread hfs
    sl_exec (disch := exact hc)
    sl_step
    iapply Hk
    isplitl [H0]; · iexists _; isplitr; · ipureintro; exact harg1.read_unread _
                    iexact H0
    isplitl [H1]; · iexists _; isplitr; · ipureintro; exact harg2.read_unread _
                    iexact H1
    isplitl [H2]; · iexists _; isplitr; · ipureintro; exact harg3.read_unread _
                    iexact H2
    isplitl [H3]; · iexists _; isplitr; · ipureintro; exact harg4.read_unread _
                    iexact H3
    isplitl [H4]; · iexists _; isplitr; · ipureintro; exact harg5.read_unread _
                    iexact H4
    isplitl [H5]; · iexists _; isplitr; · ipureintro; exact harg6.read_unread _
                    iexact H5
    isplitl [H6]; · iexists _; isplitr; · ipureintro; exact harg7.read_unread _
                    iexact H6
    isplitl [H8]; · iexists _; iexact H8
    isplitl [H9]; · iexists _; iexact H9
    iexact HS

/-- The scratch's one piece, as at every other point. -/
theorem LS0_B (c : Dev nD) (i : grid0.Coords) (arg1 : Memref sig .tc .vmem S32x4096 .f32) (harg1 : arg1.IsWhole) (arg2 : Memref sig .tc .vmem S32x4096 .f32) (harg2 : arg2.IsWhole) (arg3 : Memref sig .tc .vmem S32x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S32x16384 .f32) (harg10 : arg10.IsWhole) (hc : k0_cond1 i = 1#1)
    (x0 x1 x2 : Vec F S32x4096 .f32) (x3 x4 : Vec F S256x4096 .f32) (x5 x6 : Vec F S1x256 .f32) (xs : Vec F S32x16384 .f32) :
    (kernelRun0_B c i arg1 harg1 arg2 harg2 arg3 harg3 arg4 harg4 arg5 harg5 arg6 harg6 arg7 harg7 arg8 harg8 arg9 harg9 arg10 harg10 hc x0 x1 x2 x3 x4 x5 x6 xs).2.2.1
      = [⟨Rect.unit (s := S32x16384) (k0_off1 i) S32x256.size (k0_off1_inb i), k0_pay1 x0 x1 x3 x4 x5 x6⟩] := by
  unfold kernelRun0_B; dsimp only; sl_unfold_words
  simp only [View.readAt_eq_ld, harg1.read_unread, harg2.read_unread, harg4.read_unread, harg5.read_unread, harg6.read_unread, harg7.read_unread,
    View.ld_unit_zero (S := S32x4096) hzz0, View.ld_unit_zero (S := S256x4096) hzz0, View.ld_unit_zero (S := S1x256) hzz0]

/-- The new hidden state's one piece: the output gate's logistic times tanh of the new cell state, over the scratch as
    the last store left it and the previous cell state. -/
theorem L80_B (c : Dev nD) (i : grid0.Coords) (arg1 : Memref sig .tc .vmem S32x4096 .f32) (harg1 : arg1.IsWhole) (arg2 : Memref sig .tc .vmem S32x4096 .f32) (harg2 : arg2.IsWhole) (arg3 : Memref sig .tc .vmem S32x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S32x16384 .f32) (harg10 : arg10.IsWhole) (hc : k0_cond1 i = 1#1)
    (x0 x1 x2 : Vec F S32x4096 .f32) (x3 x4 : Vec F S256x4096 .f32) (x5 x6 : Vec F S1x256 .f32) (xs : Vec F S32x16384 .f32) :
    (kernelRun0_B c i arg1 harg1 arg2 harg2 arg3 harg3 arg4 harg4 arg5 harg5 arg6 harg6 arg7 harg7 arg8 harg8 arg9 harg9 arg10 harg10 hc x0 x1 x2 x3 x4 x5 x6 xs).1
      = [⟨Rect.unit (s := S32x4096) ![0, 0] S32x4096.size inb_S32x4096_S32x4096_0_0,
          k0_pay3 (arg10.view.read (Elt F) (arg10.view.writes (Elt F) (harg10.unread xs)
            [⟨Rect.unit (s := S32x16384) (k0_off1 i) S32x256.size (k0_off1_inb i), k0_pay1 x0 x1 x3 x4 x5 x6⟩])) x2⟩] := by
  unfold kernelRun0_B; dsimp only; sl_unfold_words
  simp only [View.readAt_eq_ld, harg1.read_unread, harg2.read_unread, harg3.read_unread, harg4.read_unread, harg5.read_unread, harg6.read_unread, harg7.read_unread,
    View.ld_unit_zero (S := S32x4096) hzz0, View.ld_unit_zero (S := S256x4096) hzz0, View.ld_unit_zero (S := S1x256) hzz0, View.ld_unit_zero (S := S32x16384) hzz0]

/-- The new cell state's one piece. -/
theorem L90_B (c : Dev nD) (i : grid0.Coords) (arg1 : Memref sig .tc .vmem S32x4096 .f32) (harg1 : arg1.IsWhole) (arg2 : Memref sig .tc .vmem S32x4096 .f32) (harg2 : arg2.IsWhole) (arg3 : Memref sig .tc .vmem S32x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S32x16384 .f32) (harg10 : arg10.IsWhole) (hc : k0_cond1 i = 1#1)
    (x0 x1 x2 : Vec F S32x4096 .f32) (x3 x4 : Vec F S256x4096 .f32) (x5 x6 : Vec F S1x256 .f32) (xs : Vec F S32x16384 .f32) :
    (kernelRun0_B c i arg1 harg1 arg2 harg2 arg3 harg3 arg4 harg4 arg5 harg5 arg6 harg6 arg7 harg7 arg8 harg8 arg9 harg9 arg10 harg10 hc x0 x1 x2 x3 x4 x5 x6 xs).2.1
      = [⟨Rect.unit (s := S32x4096) ![0, 0] S32x4096.size inb_S32x4096_S32x4096_0_0,
          k0_pay2 (arg10.view.read (Elt F) (arg10.view.writes (Elt F) (harg10.unread xs)
            [⟨Rect.unit (s := S32x16384) (k0_off1 i) S32x256.size (k0_off1_inb i), k0_pay1 x0 x1 x3 x4 x5 x6⟩])) x2⟩] := by
  unfold kernelRun0_B; dsimp only; sl_unfold_words
  simp only [View.readAt_eq_ld, harg1.read_unread, harg2.read_unread, harg3.read_unread, harg4.read_unread, harg5.read_unread, harg6.read_unread, harg7.read_unread,
    View.ld_unit_zero (S := S32x4096) hzz0, View.ld_unit_zero (S := S256x4096) hzz0, View.ld_unit_zero (S := S1x256) hzz0, View.ld_unit_zero (S := S32x16384) hzz0]

end Cert.Kernel.Body

end
-- ==== Proof.K.Body0.lean ====
/-
  Region 0 (one LSTM cell as a pipelined kernel over 64 grid points) at the buffer contents `V` it is entered from.
  Point `t` computes the 32x256 tile `t` of the gate pre-activations from the resident activations and the point's
  256 rows of each weight matrix and 256 entries of each bias row, and stores it at columns [256 t, 256 t + 256) of a
  scratch that is carried from point to point; the last point reads the whole scratch back and stores the new hidden
  and cell states, which are written back once, after that point. So the scratch agrees with ONE array, the gate
  pre-activations read tile by tile, on the columns stored so far; after the last point on all of them.
-/
import proofs.«127548_j17918603559185_1_alg».proof.Proof.Gen.Kernel.Launch
import proofs.«127548_j17918603559185_1_alg».proof.Proof.K.Run0B
import Idealize.ShloMosaic.Lib.ValueIdx
import proofs.«127548_j17918603559185_1_alg».proof.Proof.Gen.Kernel.Skeleton
import proofs.«127548_j17918603559185_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx (ix2)

/-! ## Two facts about stores through one view -/

section Stores

variable {sig' : RefSig} {κ' : Kind} {sp' : Space} {Val : EltTy → Type}

/-- What one store through the whole shape leaves is its payload. -/
theorem read_store_whole0 {S : Shape} {e : EltTy} (v : View sig' κ' sp' S e) (f : v.ty.Contents Val) {off : Fin S.rank → ℕ}
    (h : off = fun _ => 0) (inb : ∀ a, off a + S.size a ≤ S.size a) (w : S.Idx → Val e) :
    v.read Val (v.writes Val f [⟨Rect.unit off S.size inb, w⟩]) = w := by
  subst h; funext y
  have e := View.read_writes_cons_emb v f (Rect.whole S) w [] y
  rw [Rect.emb_whole_apply] at e
  exact e

/-- A buffer that agrees with `G` on the columns below `256 n` agrees with it on the columns below `256 (n + 1)` once
    the tile of `G` at columns [256 n, 256 n + 256) is stored there. -/
theorem agree_store0 (v : View sig' κ' sp' S32x16384 .f32) (f : v.ty.Contents Val) (G : S32x16384.Idx → Val .f32) (n : ℕ)
    (off : Fin S32x16384.rank → ℕ) (hoff : off = ![0, 256 * n]) (inb : ∀ a, off a + S32x256.size a ≤ S32x16384.size a)
    (w : S32x256.Idx → Val .f32)
    (hf : ∀ y : S32x16384.Idx, (y 1).val < 256 * n → v.read Val f y = G y)
    (hw : ∀ x : S32x256.Idx, w x = G ((Rect.unit (s := S32x16384) off S32x256.size inb).emb x)) :
    ∀ y : S32x16384.Idx, (y 1).val < 256 * (n + 1) →
      v.read Val (v.writes Val f [⟨Rect.unit (s := S32x16384) off S32x256.size inb, w⟩]) y = G y := by
  intro y hy
  by_cases hm : y ∈ (Rect.unit (s := S32x16384) off S32x256.size inb).set
  · obtain ⟨x, rfl⟩ := (Rect.unit (s := S32x16384) off S32x256.size inb).exists_idx_of_mem hm
    rw [show (Rect.unit (s := S32x16384) off S32x256.size inb).idx x = (Rect.unit (s := S32x16384) off S32x256.size inb).emb x from rfl,
      View.read_writes_cons_emb]
    exact hw x
  · rw [View.read_writes_apply_of_forall_not_mem v f y _ (by
      intro p hp; rw [List.mem_singleton] at hp; subst hp; exact hm)]
    apply hf
    by_contra hlt
    apply hm
    rw [Rect.mem_set_unit]; subst hoff
    have h0 : (y 0).val < 32 := (y 0).isLt
    intro a
    match a with
    | ⟨0, _⟩ => exact ⟨Nat.zero_le _, (by show (y 0).val < 0 + 32; omega)⟩
    | ⟨1, _⟩ => exact ⟨(by show 256 * n ≤ (y 1).val; omega), (by show (y 1).val < 256 * n + 256; omega)⟩

end Stores

/-! ## The region at the entry contents `V` -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: unfetched, its block
    index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The scratch the kernel carries between points. -/
abbrev scM0 : Memref sig .tc .vmem S32x16384 .f32 := Memref.whole cc0_scratch0

/-- The core's other scoped buffers, which this region does not open. -/
abbrev restS0 (c : Dev nD) : sProp 𝕄 :=
  Pipeline.scopedRestBut (Ix := Unit) (Name := ℕ) (U := UR sig nD τ) (Lvl := ℕ) (Val := Elt F) spec0 c [cc0_scratch0]

theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ restS0 c) :=
  Pipeline.scopedRest_split_of_list spec0 c [cc0_scratch0] (by decide) (by decide)

/-- The invariant the launch hands the region, with the scratch split out as a memref owned at some contents. -/
theorem PhiA0_eq (c : Dev nD) :
    (Pipeline.ΦA spec0 c : sProp 𝕄)
      = iprop(((∃ d, owns (c : Thread nD τ) scM0 fullShare d) ∗ restS0 (F := F) c) ∗ (∃ r, prngReg c r)) := by
  unfold Pipeline.ΦA; rw [scopedRest0_split]; simp only [scM0, owns_whole]; try rfl

/-! ## The gate pre-activations, tile by tile -/

/-- The grid point whose tile holds column `y 1`. -/
def tileOf0 (y : S32x16384.Idx) : Fin cfg0.N := ⟨(y 1).val / 256, by
  have h : (y 1).val < 16384 := (y 1).isLt
  show _ < grid0.N; rw [N_0]; omega⟩

/-- The column's place inside its tile. -/
def inTile0 (y : S32x16384.Idx) : S32x256.Idx :=
  ix2 (⟨(y 0).val, (y 0).isLt⟩ : Fin 32) (⟨(y 1).val % 256, Nat.mod_lt _ (by norm_num)⟩ : Fin 256)

/-- The blocks a point's body reads, at their literal types. -/
abbrev xb0 (c : Dev nD) (t : Fin cfg0.N) : Vec F S32x4096 .f32 := iblk0 V c 0 t
abbrev hb0 (c : Dev nD) (t : Fin cfg0.N) : Vec F S32x4096 .f32 := iblk0 V c 1 t
abbrev cb0 (c : Dev nD) (t : Fin cfg0.N) : Vec F S32x4096 .f32 := iblk0 V c 2 t
abbrev wb0 (c : Dev nD) (t : Fin cfg0.N) : Vec F S256x4096 .f32 := iblk0 V c 3 t
abbrev vb0 (c : Dev nD) (t : Fin cfg0.N) : Vec F S256x4096 .f32 := iblk0 V c 4 t
abbrev b50 (c : Dev nD) (t : Fin cfg0.N) : Vec F S1x256 .f32 := iblk0 V c 5 t
abbrev b60 (c : Dev nD) (t : Fin cfg0.N) : Vec F S1x256 .f32 := iblk0 V c 6 t

/-- Tile `t`: what point `t`'s body stores into the scratch. -/
abbrev tile0 (c : Dev nD) (t : Fin cfg0.N) : Vec F S32x256 .f32 :=
  k0_pay1 (xb0 V c t) (hb0 V c t) (wb0 V c t) (vb0 V c t) (b50 V c t) (b60 V c t)

/-- The whole array of gate pre-activations: column `n` is column `n mod 256` of tile `n / 256`. -/
def gates0 (c : Dev nD) : Vec F S32x16384 .f32 := fun y => tile0 V c (tileOf0 y) (inTile0 y)

/-- An element of tile `t`'s rectangle is in tile `t`, at its own place. -/
theorem tile_emb0 (t : Fin cfg0.N) (off : Fin S32x16384.rank → ℕ) (hoff : off = ![0, 256 * t.val])
    (inb : ∀ a, off a + S32x256.size a ≤ S32x16384.size a) (x : S32x256.Idx) :
    tileOf0 ((Rect.unit (s := S32x16384) off S32x256.size inb).emb x) = t
      ∧ inTile0 ((Rect.unit (s := S32x16384) off S32x256.size inb).emb x) = x := by
  subst hoff
  have h1 : (x 1).val < 256 := (x 1).isLt
  refine ⟨Fin.ext ?_, funext fun a => ?_⟩
  · show (256 * t.val + 1 * (x 1).val) / 256 = t.val
    omega
  · match a with
    | ⟨0, _⟩ => exact Fin.ext (show 0 + 1 * (x 0).val = (x 0).val by omega)
    | ⟨1, _⟩ => exact Fin.ext (show (256 * t.val + 1 * (x 1).val) % 256 = (x 1).val by omega)

theorem gates_emb0 (c : Dev nD) (t : Fin cfg0.N) (off : Fin S32x16384.rank → ℕ) (hoff : off = ![0, 256 * t.val])
    (inb : ∀ a, off a + S32x256.size a ≤ S32x16384.size a) (x : S32x256.Idx) :
    tile0 V c t x = gates0 V c ((Rect.unit (s := S32x16384) off S32x256.size inb).emb x) := by
  obtain ⟨h1, h2⟩ := tile_emb0 t off hoff inb x
  unfold gates0; rw [h1, h2]

/-- The scratch agrees with the gate pre-activations on the columns below `256 n`. -/
def agree0 (c : Dev nD) (n : ℕ) (s : Vec F S32x16384 .f32) : Prop :=
  ∀ y : S32x16384.Idx, (y 1).val < 256 * n → s y = gates0 V c y

/-- The region's invariant before point `n`: the scratch at contents that agree with the gate pre-activations on the
    columns the earlier points stored, the other scoped buffers and the generator register untouched. -/
def PhiS0 (c : Dev nD) (n : ℕ) : sProp 𝕄 :=
  iprop(((∃ s, owns (c : Thread nD τ) scM0 fullShare s ∗ ⌜agree0 V c n s⌝) ∗ restS0 (F := F) c) ∗ (∃ r, prngReg c r))

/-! ## The proof data -/

/-- After the body at any point each input's buffer holds its block; the outputs' buffers, stored only at the last
    point and written back only after it, hold the cell update of the whole gate array and the previous cell state. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => k0_pay3 (gates0 V c) (cb0 V c t)
    | ⟨8, _⟩ => k0_pay2 (gates0 V c) (cb0 V c t)
  Φ t := PhiS0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = k0_pay3 (gates0 V c) (cb0 V c t) := by dsimp only [dat0]
theorem after0_8 (c : Dev nD) (t : Fin cfg0.N) : (dat0 V c).after 8 t = k0_pay2 (gates0 V c) (cb0 V c t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The grid's closed forms -/

/-- The closing branch is taken at the last point only. -/
theorem hcond0 : ∀ t : Fin cfg0.N, k0_cond1 (grid0.coords t) = 1#1 ↔ t.val = 63 :=
  (by decide +kernel : ∀ t : Fin grid0.N, k0_cond1 (grid0.coords t) = 1#1 ↔ t.val = 63)
/-- The grid is one axis: a point's coordinate is its position. -/
theorem coord0 : ∀ t : Fin cfg0.N, ((grid0.coords t) 0).val = t.val :=
  (by decide +kernel : ∀ t : Fin grid0.N, ((grid0.coords t) 0).val = t.val)
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem idleAt0_7 : ∀ t : Fin cfg0.N, ¬ k0_cond1 (grid0.coords t) = 1#1 → cfg0.idle 7 (grid0.coords t) = true := by decide +kernel
theorem idleAt0_8 : ∀ t : Fin cfg0.N, ¬ k0_cond1 (grid0.coords t) = 1#1 → cfg0.idle 8 (grid0.coords t) = true := by decide +kernel
theorem noFlush0_7 : ∀ t : Fin cfg0.N, ¬ k0_cond1 (grid0.coords t) = 1#1 → (cfg0.win 7).flush t = false := by decide +kernel
theorem noFlush0_8 : ∀ t : Fin cfg0.N, ¬ k0_cond1 (grid0.coords t) = 1#1 → (cfg0.win 8).flush t = false := by decide +kernel
theorem liveAt0_7 : ∀ t : Fin cfg0.N, k0_cond1 (grid0.coords t) = 1#1 → cfg0.idle 7 (grid0.coords t) = false := by decide +kernel
theorem liveAt0_8 : ∀ t : Fin cfg0.N, k0_cond1 (grid0.coords t) = 1#1 → cfg0.idle 8 (grid0.coords t) = false := by decide +kernel

/-- The tile's column offset at point `t`. -/
theorem off0_eq (t : Fin cfg0.N) : k0_off1 (grid0.coords t) = ![0, 256 * t.val] := by
  rw [k0_off1_eq, coord0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

/-- The scratch after point `t`'s store agrees with the gate array one tile further. -/
theorem agree_step0 (c : Dev nD) (t : Fin cfg0.N) (s : Vec F S32x16384 .f32) (hs : agree0 V c t.val s) :
    agree0 V c (t.val + 1) ((scM0).view.read (Elt F) ((scM0).view.writes (Elt F) ((Memref.isWhole_whole cc0_scratch0).unread s)
      [⟨Rect.unit (s := S32x16384) (k0_off1 (grid0.coords t)) S32x256.size (k0_off1_inb (grid0.coords t)), tile0 V c t⟩])) :=
  agree_store0 (scM0).view _ (gates0 V c) t.val _ (off0_eq t) _ _
    (fun y hy => by rw [(Memref.isWhole_whole cc0_scratch0).read_unread]; exact hs y hy)
    (fun x => gates_emb0 V c t _ (off0_eq t) _ x)

/-! ### The point's run, every argument named -/

abbrev ms0_0 (t : Fin cfg0.N) : Memref sig .tc .vmem S32x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x4096 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x4096 .f32 := win0_8.stage (cfg0.slots t 8)
abbrev hs0_8 (t : Fin cfg0.N) : (ms0_8 t).IsWhole := hstage0_8 ((cfg0.slots t 8).cast nbuf0_8)
abbrev hsc0 : (scM0).IsWhole := Memref.isWhole_whole cc0_scratch0

/-- The body's run at a point before the last, on the point's staging memrefs, input blocks and the scratch at `s`. -/
abbrev rA0 (c : Dev nD) (t : Fin cfg0.N) (hc : ¬ k0_cond1 (grid0.coords t) = 1#1) (s : Vec F S32x16384 .f32) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 hsc0 hc (xb0 V c t) (hb0 V c t) (wb0 V c t) (vb0 V c t) (b50 V c t) (b60 V c t) s
/-- The body's run at the last point. -/
abbrev rB0 (c : Dev nD) (t : Fin cfg0.N) (hc : k0_cond1 (grid0.coords t) = 1#1) (s : Vec F S32x16384 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 hsc0 hc (xb0 V c t) (hb0 V c t) (cb0 V c t) (wb0 V c t) (vb0 V c t) (b50 V c t) (b60 V c t) s

theorem rA0_LS (c : Dev nD) (t : Fin cfg0.N) (hc : ¬ k0_cond1 (grid0.coords t) = 1#1) (s : Vec F S32x16384 .f32) :
    (rA0 V c t hc s).1 = [⟨Rect.unit (s := S32x16384) (k0_off1 (grid0.coords t)) S32x256.size (k0_off1_inb (grid0.coords t)), tile0 V c t⟩] :=
  LS0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 hsc0 hc (xb0 V c t) (hb0 V c t) (wb0 V c t) (vb0 V c t) (b50 V c t) (b60 V c t) s
theorem rB0_LS (c : Dev nD) (t : Fin cfg0.N) (hc : k0_cond1 (grid0.coords t) = 1#1) (s : Vec F S32x16384 .f32) :
    (rB0 V c t hc s).2.2.1 = [⟨Rect.unit (s := S32x16384) (k0_off1 (grid0.coords t)) S32x256.size (k0_off1_inb (grid0.coords t)), tile0 V c t⟩] :=
  LS0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 hsc0 hc (xb0 V c t) (hb0 V c t) (cb0 V c t) (wb0 V c t) (vb0 V c t) (b50 V c t) (b60 V c t) s
theorem rB0_L8 (c : Dev nD) (t : Fin cfg0.N) (hc : k0_cond1 (grid0.coords t) = 1#1) (s : Vec F S32x16384 .f32) :
    (rB0 V c t hc s).1 = [⟨Rect.unit (s := S32x4096) ![0, 0] S32x4096.size inb_S32x4096_S32x4096_0_0,
      k0_pay3 ((scM0).view.read (Elt F) ((scM0).view.writes (Elt F) (hsc0.unread s) [⟨Rect.unit (s := S32x16384) (k0_off1 (grid0.coords t)) S32x256.size (k0_off1_inb (grid0.coords t)), tile0 V c t⟩])) (cb0 V c t)⟩] :=
  L80_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 hsc0 hc (xb0 V c t) (hb0 V c t) (cb0 V c t) (wb0 V c t) (vb0 V c t) (b50 V c t) (b60 V c t) s
theorem rB0_L9 (c : Dev nD) (t : Fin cfg0.N) (hc : k0_cond1 (grid0.coords t) = 1#1) (s : Vec F S32x16384 .f32) :
    (rB0 V c t hc s).2.1 = [⟨Rect.unit (s := S32x4096) ![0, 0] S32x4096.size inb_S32x4096_S32x4096_0_0,
      k0_pay2 ((scM0).view.read (Elt F) ((scM0).view.writes (Elt F) (hsc0.unread s) [⟨Rect.unit (s := S32x16384) (k0_off1 (grid0.coords t)) S32x256.size (k0_off1_inb (grid0.coords t)), tile0 V c t⟩])) (cb0 V c t)⟩] :=
  L90_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 hsc0 hc (xb0 V c t) (hb0 V c t) (cb0 V c t) (wb0 V c t) (vb0 V c t) (b50 V c t) (b60 V c t) s

/-- The scratch after the point's store agrees with the gate array one tile further. -/
theorem rA0_scr (c : Dev nD) (t : Fin cfg0.N) (hc : ¬ k0_cond1 (grid0.coords t) = 1#1) (s : Vec F S32x16384 .f32) (hs : agree0 V c t.val s) :
    agree0 V c (t.val + 1) ((scM0).view.read (Elt F) ((scM0).view.writes (Elt F) (hsc0.unread s) (rA0 V c t hc s).1)) := by
  rw [rA0_LS V c t hc s]; exact agree_step0 V c t s hs
theorem rB0_scr (c : Dev nD) (t : Fin cfg0.N) (hc : k0_cond1 (grid0.coords t) = 1#1) (s : Vec F S32x16384 .f32) (hs : agree0 V c t.val s) :
    agree0 V c (t.val + 1) ((scM0).view.read (Elt F) ((scM0).view.writes (Elt F) (hsc0.unread s) (rB0 V c t hc s).2.2.1)) := by
  rw [rB0_LS V c t hc s]; exact agree_step0 V c t s hs

/-- After the last point's store the scratch is the whole gate array. -/
theorem full0 (c : Dev nD) (t : Fin cfg0.N) (ht : t.val = 63) (s : Vec F S32x16384 .f32) (hs : agree0 V c t.val s) :
    (scM0).view.read (Elt F) ((scM0).view.writes (Elt F) (hsc0.unread s) [⟨Rect.unit (s := S32x16384) (k0_off1 (grid0.coords t)) S32x256.size (k0_off1_inb (grid0.coords t)), tile0 V c t⟩]) = gates0 V c :=
  funext fun y => agree_step0 V c t s hs y (by have h : (y 1).val < 16384 := (y 1).isLt; omega)

/-- What the last point leaves in the new hidden state's buffer, whatever it held. -/
theorem rB0_out7 (c : Dev nD) (t : Fin cfg0.N) (hc : k0_cond1 (grid0.coords t) = 1#1) (s : Vec F S32x16384 .f32) (hs : agree0 V c t.val s)
    (f : (ms0_7 t).view.ty.Contents (Elt F)) :
    (ms0_7 t).view.read (Elt F) ((ms0_7 t).view.writes (Elt F) f (rB0 V c t hc s).1) = k0_pay3 (gates0 V c) (cb0 V c t) := by
  rw [rB0_L8 V c t hc s, read_store_whole0 _ _ hzz0, full0 V c t ((hcond0 t).mp hc) s hs]
/-- And in the new cell state's. -/
theorem rB0_out8 (c : Dev nD) (t : Fin cfg0.N) (hc : k0_cond1 (grid0.coords t) = 1#1) (s : Vec F S32x16384 .f32) (hs : agree0 V c t.val s)
    (f : (ms0_8 t).view.ty.Contents (Elt F)) :
    (ms0_8 t).view.read (Elt F) ((ms0_8 t).view.writes (Elt F) f (rB0 V c t hc s).2.1) = k0_pay2 (gates0 V c) (cb0 V c t) := by
  rw [rB0_L9 V c t hc s, read_store_whole0 _ _ hzz0, full0 V c t ((hcond0 t).mp hc) s hs]

/-! ### The body at a point -/

set_option maxHeartbeats 1000000 in
/-- At the last point. -/
theorem sound_body0_last (c : Dev nD) (t : Fin cfg0.N) (hc : k0_cond1 (grid0.coords t) = 1#1) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) from rfl, show (dat0 V c).Φ t.castSucc = PhiS0 V c t.val from rfl]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  rw [show (dat0 V c).leavesExact 5 t = owns (c : Thread nD τ) (st0_5 t) fullShare ((dat0 V c).after 5 t) from by
    unfold Dat.leavesExact; rw [liveAt0_5 t], after0_5]
  rw [show (dat0 V c).leavesExact 6 t = owns (c : Thread nD τ) (st0_6 t) fullShare ((dat0 V c).after 6 t) from by
    unfold Dat.leavesExact; rw [liveAt0_6 t], after0_6]
  rw [show (dat0 V c).leavesExact 7 t = owns (c : Thread nD τ) (st0_7 t) fullShare ((dat0 V c).after 7 t) from by
    unfold Dat.leavesExact; rw [liveAt0_7 t hc], after0_7]
  rw [show (dat0 V c).leavesExact 8 t = owns (c : Thread nD τ) (st0_8 t) fullShare ((dat0 V c).after 8 t) from by
    unfold Dat.leavesExact; rw [liveAt0_8 t hc], after0_8]
  unfold PhiS0
  iintro ⟨⟨⟨⟨%s, HS, %hs⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((rB0 V c t hc s).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS]; · iexact HS
  iintro ⟨H0, H1, H2, H3, H4, H5, H6, ⟨%f7, H7⟩, ⟨%f8, H8⟩, HS⟩
  isplitl [HS Hrest Hg]
  · isplitl [HS Hrest]
    · isplitl [HS]
      · iexists ((scM0).view.read (Elt F) ((scM0).view.writes (Elt F) (hsc0.unread s) (rB0 V c t hc s).2.2.1)); isplitl [HS]
        · unfold owns; iexists ((scM0).view.writes (Elt F) (hsc0.unread s) (rB0 V c t hc s).2.2.1); isplitr; · ipureintro; rfl
          iexact HS
        · ipureintro; exact rB0_scr V c t hc s hs
      · iexact Hrest
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact rB0_out7 V c t hc s hs f7
  · unfold owns; iexists _; isplitr
    swap; · iexact H8
    ipureintro; exact rB0_out8 V c t hc s hs f8

set_option maxHeartbeats 1000000 in
/-- At any earlier point. -/
theorem sound_body0_mid (c : Dev nD) (t : Fin cfg0.N) (hc : ¬ k0_cond1 (grid0.coords t) = 1#1) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) from rfl, show (dat0 V c).Φ t.castSucc = PhiS0 V c t.val from rfl]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  rw [show (dat0 V c).leavesExact 5 t = owns (c : Thread nD τ) (st0_5 t) fullShare ((dat0 V c).after 5 t) from by
    unfold Dat.leavesExact; rw [liveAt0_5 t], after0_5]
  rw [show (dat0 V c).leavesExact 6 t = owns (c : Thread nD τ) (st0_6 t) fullShare ((dat0 V c).after 6 t) from by
    unfold Dat.leavesExact; rw [liveAt0_6 t], after0_6]
  rw [Dat.leavesExact_idle (dat0 V c) 7 t (idleAt0_7 t hc) (noFlush0_7 t hc)]
  rw [Dat.leavesExact_idle (dat0 V c) 8 t (idleAt0_8 t hc) (noFlush0_8 t hc)]
  unfold PhiS0
  iintro ⟨⟨⟨⟨%s, HS, %hs⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((rA0 V c t hc s).2 Set.univ _)
  isplitl [H0]; · iexact H0
  isplitl [H1]; · iexact H1
  isplitl [H3]; · iexact H3
  isplitl [H4]; · iexact H4
  isplitl [H5]; · iexact H5
  isplitl [H6]; · iexact H6
  isplitl [HS]; · iexact HS
  iintro ⟨H0, H1, H3, H4, H5, H6, HS⟩
  isplitl [HS Hrest Hg]
  · isplitl [HS Hrest]
    · isplitl [HS]
      · iexists ((scM0).view.read (Elt F) ((scM0).view.writes (Elt F) (hsc0.unread s) (rA0 V c t hc s).1)); isplitl [HS]
        · unfold owns; iexists ((scM0).view.writes (Elt F) (hsc0.unread s) (rA0 V c t hc s).1); isplitr; · ipureintro; rfl
          iexact HS
        · ipureintro; exact rA0_scr V c t hc s hs
      · iexact Hrest
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iexists _; iexact H8

theorem sound_body0 (c : Dev nD) (t : Fin cfg0.N) :
    bodyPre0 V c t ⊢ wp frame (wpE (defs₀ (F := F)) Variants.none c none) Set.univ (bodyAt0 t) (fun _ => bodyPost0 V c t) := by
  by_cases hc : k0_cond1 (grid0.coords t) = 1#1
  · exact sound_body0_last V c t hc
  · exact sound_body0_mid V c t hc

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Entry and exit -/

/-- What the launch hands the region is the invariant before the first point: no column is stored yet. -/
theorem hin0 (c : Dev nD) : (Pipeline.ΦA spec0 c : sProp 𝕄) ⊢ (dat0 V c).Φ 0 := by
  rw [show (dat0 V c).Φ 0 = PhiS0 V c 0 from rfl, PhiA0_eq]; unfold PhiS0
  iintro ⟨⟨⟨%d, HS⟩, Hrest⟩, Hg⟩
  isplitl [HS Hrest]
  · isplitl [HS]
    · iexists d; isplitl [HS]; · iexact HS
      ipureintro; intro y hy; exact absurd hy (by omega)
    · iexact Hrest
  · iexact Hg

/-- After the last point the invariant gives the launch's back: the scratch's contents are forgotten. -/
theorem hout0 (c : Dev nD) : (dat0 V c).Φ (Fin.last cfg0.N) ⊢ (Pipeline.ΦA spec0 c : sProp 𝕄) := by
  rw [show (dat0 V c).Φ (Fin.last cfg0.N) = PhiS0 V c (Fin.last cfg0.N).val from rfl, PhiA0_eq]; unfold PhiS0
  iintro ⟨⟨⟨%s, HS, -⟩, Hrest⟩, Hg⟩
  isplitl [HS Hrest]
  · isplitl [HS]
    · iexists s; iexact HS
    · iexact Hrest
  · iexact Hg

end Cert.Kernel.Body

end
-- ==== Proof.K.Run1A.lean ====
/-
  Region 1's kernel body at a grid point that is not the last: it loads the resident activations and the point's
  weight and bias tiles, and stores one 32x256 tile of gate pre-activations into the carried scratch at the point's
  column offset. Nothing else is touched.
-/
import proofs.«127548_j17918603559185_1_alg».proof.Proof.Gen.Kernel.Launch
import proofs.«127548_j17918603559185_1_alg».proof.Proof.Gen.Kernel.Skeleton
import proofs.«127548_j17918603559185_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a whole-buffer access, spelt as a function. -/
theorem hzz1 : (![0, 0] : Fin 2 → ℕ) = fun _ => 0 := by
  funext a; match a with | ⟨0, _⟩ => rfl | ⟨1, _⟩ => rfl

set_option maxHeartbeats 4000000 in
/-- The body where the closing branch is not taken: the tile's store is the one piece the scratch gains. -/
noncomputable def kernelRun1_A (c : Dev nD) (i : grid1.Coords) (arg1 : Memref sig .tc .vmem S32x4096 .f32) (harg1 : arg1.IsWhole) (arg2 : Memref sig .tc .vmem S32x4096 .f32) (harg2 : arg2.IsWhole) (arg3 : Memref sig .tc .vmem S32x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S32x16384 .f32) (harg10 : arg10.IsWhole) (hc : ¬ k1_cond1 i = 1#1)
    (x0 x1 : Vec F S32x4096 .f32) (x3 x4 : Vec F S256x4096 .f32) (x5 x6 : Vec F S1x256 .f32) (xs : Vec F S32x16384 .f32) :
    { LS : List (View.Piece (Elt F) S32x16384 .f32) //
      ∀ (E : Set ℕ) (K : PUnit → sProp 𝕄),
        iprop(owns (c : Thread nD τ) arg1 fullShare x0 ∗ owns (c : Thread nD τ) arg2 fullShare x1 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg10 fullShare xs
            ∗ (iprop(owns (c : Thread nD τ) arg1 fullShare x0 ∗ owns (c : Thread nD τ) arg2 fullShare x1 ∗ owns (c : Thread nD τ) arg4 fullShare x3 ∗ owns (c : Thread nD τ) arg5 fullShare x4 ∗ owns (c : Thread nD τ) arg6 fullShare x5 ∗ owns (c : Thread nD τ) arg7 fullShare x6
                ∗ (arg10.view.loc (c : Thread nD τ) ↦[arg10.view.set]{fullShare} arg10.view.writes (Elt F) (harg10.unread xs) LS)) -∗ K ⟨⟩))
          ⊢ wp frame (wpE (defs₀ (F := F)) Variants.none c none) E (cc1__lstm_layer_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc1__lstm_layer_kernel_eq_skeleton]; unfold cc1__lstm_layer_kernel_skel
    unfold owns
    iintro ⟨⟨%f0, %hf0, H0⟩, ⟨%f1, %hf1, H1⟩, ⟨%f3, %hf3, H3⟩, ⟨%f4, %hf4, H4⟩, ⟨%f5, %hf5, H5⟩, ⟨%f6, %hf6, H6⟩, ⟨%fs, %hfs, HS⟩, Hk⟩
    obtain rfl := harg1.eq_unread hf0; obtain rfl := harg2.eq_unread hf1
    obtain rfl := harg4.eq_unread hf3; obtain rfl := harg5.eq_unread hf4; obtain rfl := harg6.eq_unread hf5; obtain rfl := harg7.eq_unread hf6
    obtain rfl := harg10.eq_unread hfs
    sl_exec (disch := exact hc)
    sl_step
    iapply Hk
    isplitl [H0]; · iexists _; isplitr; · ipureintro; exact harg1.read_unread _
                    iexact H0
    isplitl [H1]; · iexists _; isplitr; · ipureintro; exact harg2.read_unread _
                    iexact H1
    isplitl [H3]; · iexists _; isplitr; · ipureintro; exact harg4.read_unread _
                    iexact H3
    isplitl [H4]; · iexists _; isplitr; · ipureintro; exact harg5.read_unread _
                    iexact H4
    isplitl [H5]; · iexists _; isplitr; · ipureintro; exact harg6.read_unread _
                    iexact H5
    isplitl [H6]; · iexists _; isplitr; · ipureintro; exact harg7.read_unread _
                    iexact H6
    iexact HS

/-- The one piece: the tile's payload through the rectangle of 256 columns at the point's offset. -/
theorem LS1_A (c : Dev nD) (i : grid1.Coords) (arg1 : Memref sig .tc .vmem S32x4096 .f32) (harg1 : arg1.IsWhole) (arg2 : Memref sig .tc .vmem S32x4096 .f32) (harg2 : arg2.IsWhole) (arg3 : Memref sig .tc .vmem S32x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S32x16384 .f32) (harg10 : arg10.IsWhole) (hc : ¬ k1_cond1 i = 1#1)
    (x0 x1 : Vec F S32x4096 .f32) (x3 x4 : Vec F S256x4096 .f32) (x5 x6 : Vec F S1x256 .f32) (xs : Vec F S32x16384 .f32) :
    (kernelRun1_A c i arg1 harg1 arg2 harg2 arg3 harg3 arg4 harg4 arg5 harg5 arg6 harg6 arg7 harg7 arg8 harg8 arg9 harg9 arg10 harg10 hc x0 x1 x3 x4 x5 x6 xs).1
      = [⟨Rect.unit (s := S32x16384) (k1_off1 i) S32x256.size (k1_off1_inb i), k1_pay1 x0 x1 x3 x4 x5 x6⟩] := by
  unfold kernelRun1_A; dsimp only; sl_unfold_words
  simp only [View.readAt_eq_ld, harg1.read_unread, harg2.read_unread, harg4.read_unread, harg5.read_unread, harg6.read_unread, harg7.read_unread,
    View.ld_unit_zero (S := S32x4096) hzz1, View.ld_unit_zero (S := S256x4096) hzz1, View.ld_unit_zero (S := S1x256) hzz1]

end Cert.Kernel.Body

end
-- ==== Proof.K.Run1B.lean ====
/-
  Region 1's kernel body at the last grid point: after the last tile of gate pre-activations is stored, the whole
  scratch is read back, the cell update is computed from its four column quarters and the previous cell state, and the
  new hidden and cell states are stored whole into the two output buffers.
-/
import proofs.«127548_j17918603559185_1_alg».proof.Proof.Gen.Kernel.Launch
import proofs.«127548_j17918603559185_1_alg».proof.Proof.K.Run1A
import proofs.«127548_j17918603559185_1_alg».proof.Proof.Gen.Kernel.Skeleton
import proofs.«127548_j17918603559185_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body where the closing branch is taken: the scratch gains the last tile; each output gets one whole store. -/
noncomputable def kernelRun1_B (c : Dev nD) (i : grid1.Coords) (arg1 : Memref sig .tc .vmem S32x4096 .f32) (harg1 : arg1.IsWhole) (arg2 : Memref sig .tc .vmem S32x4096 .f32) (harg2 : arg2.IsWhole) (arg3 : Memref sig .tc .vmem S32x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S32x16384 .f32) (harg10 : arg10.IsWhole) (hc : k1_cond1 i = 1#1)
    (x0 x1 x2 : Vec F S32x4096 .f32) (x3 x4 : Vec F S256x4096 .f32) (x5 x6 : Vec F S1x256 .f32) (xs : Vec F S32x16384 .f32) :
    Σ' (L8 : List (View.Piece (Elt F) S32x4096 .f32)) (L9 : List (View.Piece (Elt F) S32x4096 .f32)), { LS : List (View.Piece (Elt F) S32x16384 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ (∃ d, owns (c : Thread nD τ) arg9 fullShare d) ∗ owns (c : Thread nD τ) arg10 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)
                ∗ (arg10.view.loc (c : Thread nD τ) ↦[arg10.view.set]{fullShare} arg10.view.writes (Elt F) (harg10.unread xs) LS)) -∗ K ⟨⟩))
          ⊢ wp frame (wpE (defs₀ (F := F)) Variants.none c none) E (cc1__lstm_layer_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc1__lstm_layer_kernel_eq_skeleton]; unfold cc1__lstm_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%d9, %f9, -, H9⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5; obtain rfl := harg7.eq_unread hf6
    obtain rfl := harg10.eq_unread hfs
    sl_exec (disch := exact hc)
    sl_step
    iapply Hk
    isplitl [H0]; · iexists _; isplitr; · ipureintro; exact harg1.read_unread _
                    iexact H0
    isplitl [H1]; · iexists _; isplitr; · ipureintro; exact harg2.read_unread _
                    iexact H1
    isplitl [H2]; · iexists _; isplitr; · ipureintro; exact harg3.read_unread _
                    iexact H2
    isplitl [H3]; · iexists _; isplitr; · ipureintro; exact harg4.read_unread _
                    iexact H3
    isplitl [H4]; · iexists _; isplitr; · ipureintro; exact harg5.read_unread _
                    iexact H4
    isplitl [H5]; · iexists _; isplitr; · ipureintro; exact harg6.read_unread _
                    iexact H5
    isplitl [H6]; · iexists _; isplitr; · ipureintro; exact harg7.read_unread _
                    iexact H6
    isplitl [H8]; · iexists _; iexact H8
    isplitl [H9]; · iexists _; iexact H9
    iexact HS

/-- The scratch's one piece, as at every other point. -/
theorem LS1_B (c : Dev nD) (i : grid1.Coords) (arg1 : Memref sig .tc .vmem S32x4096 .f32) (harg1 : arg1.IsWhole) (arg2 : Memref sig .tc .vmem S32x4096 .f32) (harg2 : arg2.IsWhole) (arg3 : Memref sig .tc .vmem S32x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S32x16384 .f32) (harg10 : arg10.IsWhole) (hc : k1_cond1 i = 1#1)
    (x0 x1 x2 : Vec F S32x4096 .f32) (x3 x4 : Vec F S256x4096 .f32) (x5 x6 : Vec F S1x256 .f32) (xs : Vec F S32x16384 .f32) :
    (kernelRun1_B c i arg1 harg1 arg2 harg2 arg3 harg3 arg4 harg4 arg5 harg5 arg6 harg6 arg7 harg7 arg8 harg8 arg9 harg9 arg10 harg10 hc x0 x1 x2 x3 x4 x5 x6 xs).2.2.1
      = [⟨Rect.unit (s := S32x16384) (k1_off1 i) S32x256.size (k1_off1_inb i), k1_pay1 x0 x1 x3 x4 x5 x6⟩] := by
  unfold kernelRun1_B; dsimp only; sl_unfold_words
  simp only [View.readAt_eq_ld, harg1.read_unread, harg2.read_unread, harg4.read_unread, harg5.read_unread, harg6.read_unread, harg7.read_unread,
    View.ld_unit_zero (S := S32x4096) hzz1, View.ld_unit_zero (S := S256x4096) hzz1, View.ld_unit_zero (S := S1x256) hzz1]

/-- The new hidden state's one piece: the output gate's logistic times tanh of the new cell state, over the scratch as
    the last store left it and the previous cell state. -/
theorem L81_B (c : Dev nD) (i : grid1.Coords) (arg1 : Memref sig .tc .vmem S32x4096 .f32) (harg1 : arg1.IsWhole) (arg2 : Memref sig .tc .vmem S32x4096 .f32) (harg2 : arg2.IsWhole) (arg3 : Memref sig .tc .vmem S32x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S32x16384 .f32) (harg10 : arg10.IsWhole) (hc : k1_cond1 i = 1#1)
    (x0 x1 x2 : Vec F S32x4096 .f32) (x3 x4 : Vec F S256x4096 .f32) (x5 x6 : Vec F S1x256 .f32) (xs : Vec F S32x16384 .f32) :
    (kernelRun1_B c i arg1 harg1 arg2 harg2 arg3 harg3 arg4 harg4 arg5 harg5 arg6 harg6 arg7 harg7 arg8 harg8 arg9 harg9 arg10 harg10 hc x0 x1 x2 x3 x4 x5 x6 xs).1
      = [⟨Rect.unit (s := S32x4096) ![0, 0] S32x4096.size inb_S32x4096_S32x4096_0_0,
          k1_pay3 (arg10.view.read (Elt F) (arg10.view.writes (Elt F) (harg10.unread xs)
            [⟨Rect.unit (s := S32x16384) (k1_off1 i) S32x256.size (k1_off1_inb i), k1_pay1 x0 x1 x3 x4 x5 x6⟩])) x2⟩] := by
  unfold kernelRun1_B; dsimp only; sl_unfold_words
  simp only [View.readAt_eq_ld, harg1.read_unread, harg2.read_unread, harg3.read_unread, harg4.read_unread, harg5.read_unread, harg6.read_unread, harg7.read_unread,
    View.ld_unit_zero (S := S32x4096) hzz1, View.ld_unit_zero (S := S256x4096) hzz1, View.ld_unit_zero (S := S1x256) hzz1, View.ld_unit_zero (S := S32x16384) hzz1]

/-- The new cell state's one piece. -/
theorem L91_B (c : Dev nD) (i : grid1.Coords) (arg1 : Memref sig .tc .vmem S32x4096 .f32) (harg1 : arg1.IsWhole) (arg2 : Memref sig .tc .vmem S32x4096 .f32) (harg2 : arg2.IsWhole) (arg3 : Memref sig .tc .vmem S32x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S32x16384 .f32) (harg10 : arg10.IsWhole) (hc : k1_cond1 i = 1#1)
    (x0 x1 x2 : Vec F S32x4096 .f32) (x3 x4 : Vec F S256x4096 .f32) (x5 x6 : Vec F S1x256 .f32) (xs : Vec F S32x16384 .f32) :
    (kernelRun1_B c i arg1 harg1 arg2 harg2 arg3 harg3 arg4 harg4 arg5 harg5 arg6 harg6 arg7 harg7 arg8 harg8 arg9 harg9 arg10 harg10 hc x0 x1 x2 x3 x4 x5 x6 xs).2.1
      = [⟨Rect.unit (s := S32x4096) ![0, 0] S32x4096.size inb_S32x4096_S32x4096_0_0,
          k1_pay2 (arg10.view.read (Elt F) (arg10.view.writes (Elt F) (harg10.unread xs)
            [⟨Rect.unit (s := S32x16384) (k1_off1 i) S32x256.size (k1_off1_inb i), k1_pay1 x0 x1 x3 x4 x5 x6⟩])) x2⟩] := by
  unfold kernelRun1_B; dsimp only; sl_unfold_words
  simp only [View.readAt_eq_ld, harg1.read_unread, harg2.read_unread, harg3.read_unread, harg4.read_unread, harg5.read_unread, harg6.read_unread, harg7.read_unread,
    View.ld_unit_zero (S := S32x4096) hzz1, View.ld_unit_zero (S := S256x4096) hzz1, View.ld_unit_zero (S := S1x256) hzz1, View.ld_unit_zero (S := S32x16384) hzz1]

end Cert.Kernel.Body

end
-- ==== Proof.K.Body1.lean ====
/-
  Region 1 (one LSTM cell as a pipelined kernel over 64 grid points) at the buffer contents `V` it is entered from.
  Point `t` computes the 32x256 tile `t` of the gate pre-activations from the resident activations and the point's
  256 rows of each weight matrix and 256 entries of each bias row, and stores it at columns [256 t, 256 t + 256) of a
  scratch that is carried from point to point; the last point reads the whole scratch back and stores the new hidden
  and cell states, which are written back once, after that point. So the scratch agrees with ONE array, the gate
  pre-activations read tile by tile, on the columns stored so far; after the last point on all of them.
-/
import proofs.«127548_j17918603559185_1_alg».proof.Proof.Gen.Kernel.Launch
import proofs.«127548_j17918603559185_1_alg».proof.Proof.K.Run1B
import Idealize.ShloMosaic.Lib.ValueIdx
import proofs.«127548_j17918603559185_1_alg».proof.Proof.Gen.Kernel.Skeleton
import proofs.«127548_j17918603559185_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx (ix2)

/-! ## Two facts about stores through one view -/

section Stores

variable {sig' : RefSig} {κ' : Kind} {sp' : Space} {Val : EltTy → Type}

/-- What one store through the whole shape leaves is its payload. -/
theorem read_store_whole1 {S : Shape} {e : EltTy} (v : View sig' κ' sp' S e) (f : v.ty.Contents Val) {off : Fin S.rank → ℕ}
    (h : off = fun _ => 0) (inb : ∀ a, off a + S.size a ≤ S.size a) (w : S.Idx → Val e) :
    v.read Val (v.writes Val f [⟨Rect.unit off S.size inb, w⟩]) = w := by
  subst h; funext y
  have e := View.read_writes_cons_emb v f (Rect.whole S) w [] y
  rw [Rect.emb_whole_apply] at e
  exact e

/-- A buffer that agrees with `G` on the columns below `256 n` agrees with it on the columns below `256 (n + 1)` once
    the tile of `G` at columns [256 n, 256 n + 256) is stored there. -/
theorem agree_store1 (v : View sig' κ' sp' S32x16384 .f32) (f : v.ty.Contents Val) (G : S32x16384.Idx → Val .f32) (n : ℕ)
    (off : Fin S32x16384.rank → ℕ) (hoff : off = ![0, 256 * n]) (inb : ∀ a, off a + S32x256.size a ≤ S32x16384.size a)
    (w : S32x256.Idx → Val .f32)
    (hf : ∀ y : S32x16384.Idx, (y 1).val < 256 * n → v.read Val f y = G y)
    (hw : ∀ x : S32x256.Idx, w x = G ((Rect.unit (s := S32x16384) off S32x256.size inb).emb x)) :
    ∀ y : S32x16384.Idx, (y 1).val < 256 * (n + 1) →
      v.read Val (v.writes Val f [⟨Rect.unit (s := S32x16384) off S32x256.size inb, w⟩]) y = G y := by
  intro y hy
  by_cases hm : y ∈ (Rect.unit (s := S32x16384) off S32x256.size inb).set
  · obtain ⟨x, rfl⟩ := (Rect.unit (s := S32x16384) off S32x256.size inb).exists_idx_of_mem hm
    rw [show (Rect.unit (s := S32x16384) off S32x256.size inb).idx x = (Rect.unit (s := S32x16384) off S32x256.size inb).emb x from rfl,
      View.read_writes_cons_emb]
    exact hw x
  · rw [View.read_writes_apply_of_forall_not_mem v f y _ (by
      intro p hp; rw [List.mem_singleton] at hp; subst hp; exact hm)]
    apply hf
    by_contra hlt
    apply hm
    rw [Rect.mem_set_unit]; subst hoff
    have h0 : (y 0).val < 32 := (y 0).isLt
    intro a
    match a with
    | ⟨0, _⟩ => exact ⟨Nat.zero_le _, (by show (y 0).val < 0 + 32; omega)⟩
    | ⟨1, _⟩ => exact ⟨(by show 256 * n ≤ (y 1).val; omega), (by show (y 1).val < 256 * n + 256; omega)⟩

end Stores

/-! ## The region at the entry contents `V` -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: unfetched, its block
    index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The scratch the kernel carries between points. -/
abbrev scM1 : Memref sig .tc .vmem S32x16384 .f32 := Memref.whole cc1_scratch0

/-- The core's other scoped buffers, which this region does not open. -/
abbrev restS1 (c : Dev nD) : sProp 𝕄 :=
  Pipeline.scopedRestBut (Ix := Unit) (Name := ℕ) (U := UR sig nD τ) (Lvl := ℕ) (Val := Elt F) spec1 c [cc1_scratch0]

theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ restS1 c) :=
  Pipeline.scopedRest_split_of_list spec1 c [cc1_scratch0] (by decide) (by decide)

/-- The invariant the launch hands the region, with the scratch split out as a memref owned at some contents. -/
theorem PhiA1_eq (c : Dev nD) :
    (Pipeline.ΦA spec1 c : sProp 𝕄)
      = iprop(((∃ d, owns (c : Thread nD τ) scM1 fullShare d) ∗ restS1 (F := F) c) ∗ (∃ r, prngReg c r)) := by
  unfold Pipeline.ΦA; rw [scopedRest1_split]; simp only [scM1, owns_whole]; try rfl

/-! ## The gate pre-activations, tile by tile -/

/-- The grid point whose tile holds column `y 1`. -/
def tileOf1 (y : S32x16384.Idx) : Fin cfg1.N := ⟨(y 1).val / 256, by
  have h : (y 1).val < 16384 := (y 1).isLt
  show _ < grid1.N; rw [N_1]; omega⟩

/-- The column's place inside its tile. -/
def inTile1 (y : S32x16384.Idx) : S32x256.Idx :=
  ix2 (⟨(y 0).val, (y 0).isLt⟩ : Fin 32) (⟨(y 1).val % 256, Nat.mod_lt _ (by norm_num)⟩ : Fin 256)

/-- The blocks a point's body reads, at their literal types. -/
abbrev xb1 (c : Dev nD) (t : Fin cfg1.N) : Vec F S32x4096 .f32 := iblk1 V c 0 t
abbrev hb1 (c : Dev nD) (t : Fin cfg1.N) : Vec F S32x4096 .f32 := iblk1 V c 1 t
abbrev cb1 (c : Dev nD) (t : Fin cfg1.N) : Vec F S32x4096 .f32 := iblk1 V c 2 t
abbrev wb1 (c : Dev nD) (t : Fin cfg1.N) : Vec F S256x4096 .f32 := iblk1 V c 3 t
abbrev vb1 (c : Dev nD) (t : Fin cfg1.N) : Vec F S256x4096 .f32 := iblk1 V c 4 t
abbrev b51 (c : Dev nD) (t : Fin cfg1.N) : Vec F S1x256 .f32 := iblk1 V c 5 t
abbrev b61 (c : Dev nD) (t : Fin cfg1.N) : Vec F S1x256 .f32 := iblk1 V c 6 t

/-- Tile `t`: what point `t`'s body stores into the scratch. -/
abbrev tile1 (c : Dev nD) (t : Fin cfg1.N) : Vec F S32x256 .f32 :=
  k1_pay1 (xb1 V c t) (hb1 V c t) (wb1 V c t) (vb1 V c t) (b51 V c t) (b61 V c t)

/-- The whole array of gate pre-activations: column `n` is column `n mod 256` of tile `n / 256`. -/
def gates1 (c : Dev nD) : Vec F S32x16384 .f32 := fun y => tile1 V c (tileOf1 y) (inTile1 y)

/-- An element of tile `t`'s rectangle is in tile `t`, at its own place. -/
theorem tile_emb1 (t : Fin cfg1.N) (off : Fin S32x16384.rank → ℕ) (hoff : off = ![0, 256 * t.val])
    (inb : ∀ a, off a + S32x256.size a ≤ S32x16384.size a) (x : S32x256.Idx) :
    tileOf1 ((Rect.unit (s := S32x16384) off S32x256.size inb).emb x) = t
      ∧ inTile1 ((Rect.unit (s := S32x16384) off S32x256.size inb).emb x) = x := by
  subst hoff
  have h1 : (x 1).val < 256 := (x 1).isLt
  refine ⟨Fin.ext ?_, funext fun a => ?_⟩
  · show (256 * t.val + 1 * (x 1).val) / 256 = t.val
    omega
  · match a with
    | ⟨0, _⟩ => exact Fin.ext (show 0 + 1 * (x 0).val = (x 0).val by omega)
    | ⟨1, _⟩ => exact Fin.ext (show (256 * t.val + 1 * (x 1).val) % 256 = (x 1).val by omega)

theorem gates_emb1 (c : Dev nD) (t : Fin cfg1.N) (off : Fin S32x16384.rank → ℕ) (hoff : off = ![0, 256 * t.val])
    (inb : ∀ a, off a + S32x256.size a ≤ S32x16384.size a) (x : S32x256.Idx) :
    tile1 V c t x = gates1 V c ((Rect.unit (s := S32x16384) off S32x256.size inb).emb x) := by
  obtain ⟨h1, h2⟩ := tile_emb1 t off hoff inb x
  unfold gates1; rw [h1, h2]

/-- The scratch agrees with the gate pre-activations on the columns below `256 n`. -/
def agree1 (c : Dev nD) (n : ℕ) (s : Vec F S32x16384 .f32) : Prop :=
  ∀ y : S32x16384.Idx, (y 1).val < 256 * n → s y = gates1 V c y

/-- The region's invariant before point `n`: the scratch at contents that agree with the gate pre-activations on the
    columns the earlier points stored, the other scoped buffers and the generator register untouched. -/
def PhiS1 (c : Dev nD) (n : ℕ) : sProp 𝕄 :=
  iprop(((∃ s, owns (c : Thread nD τ) scM1 fullShare s ∗ ⌜agree1 V c n s⌝) ∗ restS1 (F := F) c) ∗ (∃ r, prngReg c r))

/-! ## The proof data -/

/-- After the body at any point each input's buffer holds its block; the outputs' buffers, stored only at the last
    point and written back only after it, hold the cell update of the whole gate array and the previous cell state. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => k1_pay3 (gates1 V c) (cb1 V c t)
    | ⟨8, _⟩ => k1_pay2 (gates1 V c) (cb1 V c t)
  Φ t := PhiS1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = k1_pay3 (gates1 V c) (cb1 V c t) := by dsimp only [dat1]
theorem after1_8 (c : Dev nD) (t : Fin cfg1.N) : (dat1 V c).after 8 t = k1_pay2 (gates1 V c) (cb1 V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The grid's closed forms -/

/-- The closing branch is taken at the last point only. -/
theorem hcond1 : ∀ t : Fin cfg1.N, k1_cond1 (grid1.coords t) = 1#1 ↔ t.val = 63 :=
  (by decide +kernel : ∀ t : Fin grid1.N, k1_cond1 (grid1.coords t) = 1#1 ↔ t.val = 63)
/-- The grid is one axis: a point's coordinate is its position. -/
theorem coord1 : ∀ t : Fin cfg1.N, ((grid1.coords t) 0).val = t.val :=
  (by decide +kernel : ∀ t : Fin grid1.N, ((grid1.coords t) 0).val = t.val)
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem idleAt1_7 : ∀ t : Fin cfg1.N, ¬ k1_cond1 (grid1.coords t) = 1#1 → cfg1.idle 7 (grid1.coords t) = true := by decide +kernel
theorem idleAt1_8 : ∀ t : Fin cfg1.N, ¬ k1_cond1 (grid1.coords t) = 1#1 → cfg1.idle 8 (grid1.coords t) = true := by decide +kernel
theorem noFlush1_7 : ∀ t : Fin cfg1.N, ¬ k1_cond1 (grid1.coords t) = 1#1 → (cfg1.win 7).flush t = false := by decide +kernel
theorem noFlush1_8 : ∀ t : Fin cfg1.N, ¬ k1_cond1 (grid1.coords t) = 1#1 → (cfg1.win 8).flush t = false := by decide +kernel
theorem liveAt1_7 : ∀ t : Fin cfg1.N, k1_cond1 (grid1.coords t) = 1#1 → cfg1.idle 7 (grid1.coords t) = false := by decide +kernel
theorem liveAt1_8 : ∀ t : Fin cfg1.N, k1_cond1 (grid1.coords t) = 1#1 → cfg1.idle 8 (grid1.coords t) = false := by decide +kernel

/-- The tile's column offset at point `t`. -/
theorem off1_eq (t : Fin cfg1.N) : k1_off1 (grid1.coords t) = ![0, 256 * t.val] := by
  rw [k1_off1_eq, coord1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

/-- The scratch after point `t`'s store agrees with the gate array one tile further. -/
theorem agree_step1 (c : Dev nD) (t : Fin cfg1.N) (s : Vec F S32x16384 .f32) (hs : agree1 V c t.val s) :
    agree1 V c (t.val + 1) ((scM1).view.read (Elt F) ((scM1).view.writes (Elt F) ((Memref.isWhole_whole cc1_scratch0).unread s)
      [⟨Rect.unit (s := S32x16384) (k1_off1 (grid1.coords t)) S32x256.size (k1_off1_inb (grid1.coords t)), tile1 V c t⟩])) :=
  agree_store1 (scM1).view _ (gates1 V c) t.val _ (off1_eq t) _ _
    (fun y hy => by rw [(Memref.isWhole_whole cc1_scratch0).read_unread]; exact hs y hy)
    (fun x => gates_emb1 V c t _ (off1_eq t) _ x)

/-! ### The point's run, every argument named -/

abbrev ms1_0 (t : Fin cfg1.N) : Memref sig .tc .vmem S32x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x4096 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x4096 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S32x4096 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S32x4096 .f32 := win1_8.stage (cfg1.slots t 8)
abbrev hs1_8 (t : Fin cfg1.N) : (ms1_8 t).IsWhole := hstage1_8 ((cfg1.slots t 8).cast nbuf1_8)
abbrev hsc1 : (scM1).IsWhole := Memref.isWhole_whole cc1_scratch0

/-- The body's run at a point before the last, on the point's staging memrefs, input blocks and the scratch at `s`. -/
abbrev rA1 (c : Dev nD) (t : Fin cfg1.N) (hc : ¬ k1_cond1 (grid1.coords t) = 1#1) (s : Vec F S32x16384 .f32) :=
  kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 hsc1 hc (xb1 V c t) (hb1 V c t) (wb1 V c t) (vb1 V c t) (b51 V c t) (b61 V c t) s
/-- The body's run at the last point. -/
abbrev rB1 (c : Dev nD) (t : Fin cfg1.N) (hc : k1_cond1 (grid1.coords t) = 1#1) (s : Vec F S32x16384 .f32) :=
  kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 hsc1 hc (xb1 V c t) (hb1 V c t) (cb1 V c t) (wb1 V c t) (vb1 V c t) (b51 V c t) (b61 V c t) s

theorem rA1_LS (c : Dev nD) (t : Fin cfg1.N) (hc : ¬ k1_cond1 (grid1.coords t) = 1#1) (s : Vec F S32x16384 .f32) :
    (rA1 V c t hc s).1 = [⟨Rect.unit (s := S32x16384) (k1_off1 (grid1.coords t)) S32x256.size (k1_off1_inb (grid1.coords t)), tile1 V c t⟩] :=
  LS1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 hsc1 hc (xb1 V c t) (hb1 V c t) (wb1 V c t) (vb1 V c t) (b51 V c t) (b61 V c t) s
theorem rB1_LS (c : Dev nD) (t : Fin cfg1.N) (hc : k1_cond1 (grid1.coords t) = 1#1) (s : Vec F S32x16384 .f32) :
    (rB1 V c t hc s).2.2.1 = [⟨Rect.unit (s := S32x16384) (k1_off1 (grid1.coords t)) S32x256.size (k1_off1_inb (grid1.coords t)), tile1 V c t⟩] :=
  LS1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 hsc1 hc (xb1 V c t) (hb1 V c t) (cb1 V c t) (wb1 V c t) (vb1 V c t) (b51 V c t) (b61 V c t) s
theorem rB1_L8 (c : Dev nD) (t : Fin cfg1.N) (hc : k1_cond1 (grid1.coords t) = 1#1) (s : Vec F S32x16384 .f32) :
    (rB1 V c t hc s).1 = [⟨Rect.unit (s := S32x4096) ![0, 0] S32x4096.size inb_S32x4096_S32x4096_0_0,
      k1_pay3 ((scM1).view.read (Elt F) ((scM1).view.writes (Elt F) (hsc1.unread s) [⟨Rect.unit (s := S32x16384) (k1_off1 (grid1.coords t)) S32x256.size (k1_off1_inb (grid1.coords t)), tile1 V c t⟩])) (cb1 V c t)⟩] :=
  L81_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 hsc1 hc (xb1 V c t) (hb1 V c t) (cb1 V c t) (wb1 V c t) (vb1 V c t) (b51 V c t) (b61 V c t) s
theorem rB1_L9 (c : Dev nD) (t : Fin cfg1.N) (hc : k1_cond1 (grid1.coords t) = 1#1) (s : Vec F S32x16384 .f32) :
    (rB1 V c t hc s).2.1 = [⟨Rect.unit (s := S32x4096) ![0, 0] S32x4096.size inb_S32x4096_S32x4096_0_0,
      k1_pay2 ((scM1).view.read (Elt F) ((scM1).view.writes (Elt F) (hsc1.unread s) [⟨Rect.unit (s := S32x16384) (k1_off1 (grid1.coords t)) S32x256.size (k1_off1_inb (grid1.coords t)), tile1 V c t⟩])) (cb1 V c t)⟩] :=
  L91_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 hsc1 hc (xb1 V c t) (hb1 V c t) (cb1 V c t) (wb1 V c t) (vb1 V c t) (b51 V c t) (b61 V c t) s

/-- The scratch after the point's store agrees with the gate array one tile further. -/
theorem rA1_scr (c : Dev nD) (t : Fin cfg1.N) (hc : ¬ k1_cond1 (grid1.coords t) = 1#1) (s : Vec F S32x16384 .f32) (hs : agree1 V c t.val s) :
    agree1 V c (t.val + 1) ((scM1).view.read (Elt F) ((scM1).view.writes (Elt F) (hsc1.unread s) (rA1 V c t hc s).1)) := by
  rw [rA1_LS V c t hc s]; exact agree_step1 V c t s hs
theorem rB1_scr (c : Dev nD) (t : Fin cfg1.N) (hc : k1_cond1 (grid1.coords t) = 1#1) (s : Vec F S32x16384 .f32) (hs : agree1 V c t.val s) :
    agree1 V c (t.val + 1) ((scM1).view.read (Elt F) ((scM1).view.writes (Elt F) (hsc1.unread s) (rB1 V c t hc s).2.2.1)) := by
  rw [rB1_LS V c t hc s]; exact agree_step1 V c t s hs

/-- After the last point's store the scratch is the whole gate array. -/
theorem full1 (c : Dev nD) (t : Fin cfg1.N) (ht : t.val = 63) (s : Vec F S32x16384 .f32) (hs : agree1 V c t.val s) :
    (scM1).view.read (Elt F) ((scM1).view.writes (Elt F) (hsc1.unread s) [⟨Rect.unit (s := S32x16384) (k1_off1 (grid1.coords t)) S32x256.size (k1_off1_inb (grid1.coords t)), tile1 V c t⟩]) = gates1 V c :=
  funext fun y => agree_step1 V c t s hs y (by have h : (y 1).val < 16384 := (y 1).isLt; omega)

/-- What the last point leaves in the new hidden state's buffer, whatever it held. -/
theorem rB1_out7 (c : Dev nD) (t : Fin cfg1.N) (hc : k1_cond1 (grid1.coords t) = 1#1) (s : Vec F S32x16384 .f32) (hs : agree1 V c t.val s)
    (f : (ms1_7 t).view.ty.Contents (Elt F)) :
    (ms1_7 t).view.read (Elt F) ((ms1_7 t).view.writes (Elt F) f (rB1 V c t hc s).1) = k1_pay3 (gates1 V c) (cb1 V c t) := by
  rw [rB1_L8 V c t hc s, read_store_whole1 _ _ hzz1, full1 V c t ((hcond1 t).mp hc) s hs]
/-- And in the new cell state's. -/
theorem rB1_out8 (c : Dev nD) (t : Fin cfg1.N) (hc : k1_cond1 (grid1.coords t) = 1#1) (s : Vec F S32x16384 .f32) (hs : agree1 V c t.val s)
    (f : (ms1_8 t).view.ty.Contents (Elt F)) :
    (ms1_8 t).view.read (Elt F) ((ms1_8 t).view.writes (Elt F) f (rB1 V c t hc s).2.1) = k1_pay2 (gates1 V c) (cb1 V c t) := by
  rw [rB1_L9 V c t hc s, read_store_whole1 _ _ hzz1, full1 V c t ((hcond1 t).mp hc) s hs]

/-! ### The body at a point -/

set_option maxHeartbeats 1000000 in
/-- At the last point. -/
theorem sound_body1_last (c : Dev nD) (t : Fin cfg1.N) (hc : k1_cond1 (grid1.coords t) = 1#1) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) from rfl, show (dat1 V c).Φ t.castSucc = PhiS1 V c t.val from rfl]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  rw [show (dat1 V c).leavesExact 6 t = owns (c : Thread nD τ) (st1_6 t) fullShare ((dat1 V c).after 6 t) from by
    unfold Dat.leavesExact; rw [liveAt1_6 t], after1_6]
  rw [show (dat1 V c).leavesExact 7 t = owns (c : Thread nD τ) (st1_7 t) fullShare ((dat1 V c).after 7 t) from by
    unfold Dat.leavesExact; rw [liveAt1_7 t hc], after1_7]
  rw [show (dat1 V c).leavesExact 8 t = owns (c : Thread nD τ) (st1_8 t) fullShare ((dat1 V c).after 8 t) from by
    unfold Dat.leavesExact; rw [liveAt1_8 t hc], after1_8]
  unfold PhiS1
  iintro ⟨⟨⟨⟨%s, HS, %hs⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((rB1 V c t hc s).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS]; · iexact HS
  iintro ⟨H0, H1, H2, H3, H4, H5, H6, ⟨%f7, H7⟩, ⟨%f8, H8⟩, HS⟩
  isplitl [HS Hrest Hg]
  · isplitl [HS Hrest]
    · isplitl [HS]
      · iexists ((scM1).view.read (Elt F) ((scM1).view.writes (Elt F) (hsc1.unread s) (rB1 V c t hc s).2.2.1)); isplitl [HS]
        · unfold owns; iexists ((scM1).view.writes (Elt F) (hsc1.unread s) (rB1 V c t hc s).2.2.1); isplitr; · ipureintro; rfl
          iexact HS
        · ipureintro; exact rB1_scr V c t hc s hs
      · iexact Hrest
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact rB1_out7 V c t hc s hs f7
  · unfold owns; iexists _; isplitr
    swap; · iexact H8
    ipureintro; exact rB1_out8 V c t hc s hs f8

set_option maxHeartbeats 1000000 in
/-- At any earlier point. -/
theorem sound_body1_mid (c : Dev nD) (t : Fin cfg1.N) (hc : ¬ k1_cond1 (grid1.coords t) = 1#1) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) from rfl, show (dat1 V c).Φ t.castSucc = PhiS1 V c t.val from rfl]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  rw [show (dat1 V c).leavesExact 6 t = owns (c : Thread nD τ) (st1_6 t) fullShare ((dat1 V c).after 6 t) from by
    unfold Dat.leavesExact; rw [liveAt1_6 t], after1_6]
  rw [Dat.leavesExact_idle (dat1 V c) 7 t (idleAt1_7 t hc) (noFlush1_7 t hc)]
  rw [Dat.leavesExact_idle (dat1 V c) 8 t (idleAt1_8 t hc) (noFlush1_8 t hc)]
  unfold PhiS1
  iintro ⟨⟨⟨⟨%s, HS, %hs⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((rA1 V c t hc s).2 Set.univ _)
  isplitl [H0]; · iexact H0
  isplitl [H1]; · iexact H1
  isplitl [H3]; · iexact H3
  isplitl [H4]; · iexact H4
  isplitl [H5]; · iexact H5
  isplitl [H6]; · iexact H6
  isplitl [HS]; · iexact HS
  iintro ⟨H0, H1, H3, H4, H5, H6, HS⟩
  isplitl [HS Hrest Hg]
  · isplitl [HS Hrest]
    · isplitl [HS]
      · iexists ((scM1).view.read (Elt F) ((scM1).view.writes (Elt F) (hsc1.unread s) (rA1 V c t hc s).1)); isplitl [HS]
        · unfold owns; iexists ((scM1).view.writes (Elt F) (hsc1.unread s) (rA1 V c t hc s).1); isplitr; · ipureintro; rfl
          iexact HS
        · ipureintro; exact rA1_scr V c t hc s hs
      · iexact Hrest
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iexists _; iexact H8

theorem sound_body1 (c : Dev nD) (t : Fin cfg1.N) :
    bodyPre1 V c t ⊢ wp frame (wpE (defs₀ (F := F)) Variants.none c none) Set.univ (bodyAt1 t) (fun _ => bodyPost1 V c t) := by
  by_cases hc : k1_cond1 (grid1.coords t) = 1#1
  · exact sound_body1_last V c t hc
  · exact sound_body1_mid V c t hc

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Entry and exit -/

/-- What the launch hands the region is the invariant before the first point: no column is stored yet. -/
theorem hin1 (c : Dev nD) : (Pipeline.ΦA spec1 c : sProp 𝕄) ⊢ (dat1 V c).Φ 0 := by
  rw [show (dat1 V c).Φ 0 = PhiS1 V c 0 from rfl, PhiA1_eq]; unfold PhiS1
  iintro ⟨⟨⟨%d, HS⟩, Hrest⟩, Hg⟩
  isplitl [HS Hrest]
  · isplitl [HS]
    · iexists d; isplitl [HS]; · iexact HS
      ipureintro; intro y hy; exact absurd hy (by omega)
    · iexact Hrest
  · iexact Hg

/-- After the last point the invariant gives the launch's back: the scratch's contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val from rfl, PhiA1_eq]; unfold PhiS1
  iintro ⟨⟨⟨%s, HS, -⟩, Hrest⟩, Hg⟩
  isplitl [HS Hrest]
  · isplitl [HS]
    · iexists s; iexact HS
    · iexact Hrest
  · iexact Hg

end Cert.Kernel.Body

end
-- ==== Proof.K.Whole.lean ====
/-
  The whole run of @main: host operations that slice the per-layer arguments, the first cell's region, the same for
  the second layer, the second cell's region (its input the first's new hidden state), and the host operations that
  stack the four results. The buffer contents at every boundary are a fold from the launch memory; every weakly
  fair execution terminates with every unscoped buffer at the last boundary's contents.
-/
import proofs.«127548_j17918603559185_1_alg».proof.Proof.Gen.Kernel.Launch
import proofs.«127548_j17918603559185_1_alg».proof.Proof.Gen.Kernel.Regions
import proofs.«127548_j17918603559185_1_alg».proof.Proof.K.Body0
import proofs.«127548_j17918603559185_1_alg».proof.Proof.K.Body1
import proofs.«127548_j17918603559185_1_alg».proof.Proof.Gen.Kernel.Skeleton
import proofs.«127548_j17918603559185_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the first stretch of host operations (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second stretch (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the last stretch: the end. -/
abbrev W5 : Dev nD → Valuation τ sig (Elt F) := fun c => StableHlo.after hostOps2 (W4 m c)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (r := main_arg0) (by decide)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (r := main_arg1) (by decide)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (r := main_arg2) (by decide)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (r := main_arg3) (by decide)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl
theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (r := main_arg4) (by decide)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl
theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_writes_sub hostOps2 _ hostOps2_writes (r := main_arg5) (by decide)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl
theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_writes_sub hostOps2 _ hostOps2_writes (r := main_arg6) (by decide)
    _ = W3 m c (Proc.devRef .tc main_arg6) := W4_of_ne m c main_arg6 (by decide)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered with every unscoped buffer at the contents before it, left with the
    region's arrays at what its write-backs leave and every other buffer as entered. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m) c
    unfold Pipeline.ΦA at h
    rw [show (pdats m 0 c).Φ 0 = (dat0 (V1 m) c).Φ 0 from rfl]
    iintro ⟨Hp, -, Hr⟩
    iapply h
    isplitl [Hr]; · iexact Hr
    iexact Hp
  hout c := by
    rw [Pipeline.ownSems0_none]
    have h := hout0 (V1 m) c
    unfold Pipeline.ΦA at h
    rw [show (pdats m 0 c).Φ (Fin.last _) = (dat0 (V1 m) c).Φ (Fin.last cfg0.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with the
    region's arrays at what its write-backs leave and every other buffer as entered. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V3 m) c
    unfold Pipeline.ΦA at h
    rw [show (pdats m 1 c).Φ 0 = (dat1 (V3 m) c).Φ 0 from rfl]
    iintro ⟨Hp, -, Hr⟩
    iapply h
    isplitl [Hr]; · iexact Hr
    iexact Hp
  hout c := by
    rw [Pipeline.ownSems0_none]
    have h := hout1 (V3 m) c
    unfold Pipeline.ΦA at h
    rw [show (pdats m 1 c).Φ (Fin.last _) = (dat1 (V3 m) c).Φ (Fin.last cfg1.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- Every weakly fair execution of @main from memory `m` with zero counters terminates, nothing faulting, with every
    unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
    (h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c)⟩) (run_all m ρ)

end Cert.Kernel.Body

end
-- ==== Proof.KI.Run0A.lean ====
/-
  Region 0's kernel body at a grid point that is not the last: it loads the resident activations and the point's
  weight and bias tiles, and stores one 32x256 tile of gate pre-activations into the carried scratch at the point's
  column offset. Nothing else is touched.
-/
import proofs.«127548_j17918603559185_1_alg».proof.Proof.Gen.KernelIdeal.Launch
import proofs.«127548_j17918603559185_1_alg».proof.Proof.Gen.KernelIdeal.Skeleton
import proofs.«127548_j17918603559185_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a whole-buffer access, spelt as a function. -/
theorem hzz0 : (![0, 0] : Fin 2 → ℕ) = fun _ => 0 := by
  funext a; match a with | ⟨0, _⟩ => rfl | ⟨1, _⟩ => rfl

set_option maxHeartbeats 4000000 in
/-- The body where the closing branch is not taken: the tile's store is the one piece the scratch gains. -/
noncomputable def kernelRun0_A (c : Dev nD) (i : grid0.Coords) (arg1 : Memref sig .tc .vmem S32x4096 .f32) (harg1 : arg1.IsWhole) (arg2 : Memref sig .tc .vmem S32x4096 .f32) (harg2 : arg2.IsWhole) (arg3 : Memref sig .tc .vmem S32x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S32x16384 .f32) (harg10 : arg10.IsWhole) (hc : ¬ k0_cond1 i = 1#1)
    (x0 x1 : Vec F S32x4096 .f32) (x3 x4 : Vec F S256x4096 .f32) (x5 x6 : Vec F S1x256 .f32) (xs : Vec F S32x16384 .f32) :
    { LS : List (View.Piece (Elt F) S32x16384 .f32) //
      ∀ (E : Set ℕ) (K : PUnit → sProp 𝕄),
        iprop(owns (c : Thread nD τ) arg1 fullShare x0 ∗ owns (c : Thread nD τ) arg2 fullShare x1 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg10 fullShare xs
            ∗ (iprop(owns (c : Thread nD τ) arg1 fullShare x0 ∗ owns (c : Thread nD τ) arg2 fullShare x1 ∗ owns (c : Thread nD τ) arg4 fullShare x3 ∗ owns (c : Thread nD τ) arg5 fullShare x4 ∗ owns (c : Thread nD τ) arg6 fullShare x5 ∗ owns (c : Thread nD τ) arg7 fullShare x6
                ∗ (arg10.view.loc (c : Thread nD τ) ↦[arg10.view.set]{fullShare} arg10.view.writes (Elt F) (harg10.unread xs) LS)) -∗ K ⟨⟩))
          ⊢ wp frame (wpE (defs₀ (F := F)) Variants.none c none) E (cc0__lstm_layer_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__lstm_layer_kernel_eq_skeleton]; unfold cc0__lstm_layer_kernel_skel
    unfold owns
    iintro ⟨⟨%f0, %hf0, H0⟩, ⟨%f1, %hf1, H1⟩, ⟨%f3, %hf3, H3⟩, ⟨%f4, %hf4, H4⟩, ⟨%f5, %hf5, H5⟩, ⟨%f6, %hf6, H6⟩, ⟨%fs, %hfs, HS⟩, Hk⟩
    obtain rfl := harg1.eq_unread hf0; obtain rfl := harg2.eq_unread hf1
    obtain rfl := harg4.eq_unread hf3; obtain rfl := harg5.eq_unread hf4; obtain rfl := harg6.eq_unread hf5; obtain rfl := harg7.eq_unread hf6
    obtain rfl := harg10.eq_unread hfs
    sl_exec (disch := exact hc)
    sl_step
    iapply Hk
    isplitl [H0]; · iexists _; isplitr; · ipureintro; exact harg1.read_unread _
                    iexact H0
    isplitl [H1]; · iexists _; isplitr; · ipureintro; exact harg2.read_unread _
                    iexact H1
    isplitl [H3]; · iexists _; isplitr; · ipureintro; exact harg4.read_unread _
                    iexact H3
    isplitl [H4]; · iexists _; isplitr; · ipureintro; exact harg5.read_unread _
                    iexact H4
    isplitl [H5]; · iexists _; isplitr; · ipureintro; exact harg6.read_unread _
                    iexact H5
    isplitl [H6]; · iexists _; isplitr; · ipureintro; exact harg7.read_unread _
                    iexact H6
    iexact HS

/-- The one piece: the tile's payload through the rectangle of 256 columns at the point's offset. -/
theorem LS0_A (c : Dev nD) (i : grid0.Coords) (arg1 : Memref sig .tc .vmem S32x4096 .f32) (harg1 : arg1.IsWhole) (arg2 : Memref sig .tc .vmem S32x4096 .f32) (harg2 : arg2.IsWhole) (arg3 : Memref sig .tc .vmem S32x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S32x16384 .f32) (harg10 : arg10.IsWhole) (hc : ¬ k0_cond1 i = 1#1)
    (x0 x1 : Vec F S32x4096 .f32) (x3 x4 : Vec F S256x4096 .f32) (x5 x6 : Vec F S1x256 .f32) (xs : Vec F S32x16384 .f32) :
    (kernelRun0_A c i arg1 harg1 arg2 harg2 arg3 harg3 arg4 harg4 arg5 harg5 arg6 harg6 arg7 harg7 arg8 harg8 arg9 harg9 arg10 harg10 hc x0 x1 x3 x4 x5 x6 xs).1
      = [⟨Rect.unit (s := S32x16384) (k0_off1 i) S32x256.size (k0_off1_inb i), k0_pay1 x0 x1 x3 x4 x5 x6⟩] := by
  unfold kernelRun0_A; dsimp only; sl_unfold_words
  simp only [View.readAt_eq_ld, harg1.read_unread, harg2.read_unread, harg4.read_unread, harg5.read_unread, harg6.read_unread, harg7.read_unread,
    View.ld_unit_zero (S := S32x4096) hzz0, View.ld_unit_zero (S := S256x4096) hzz0, View.ld_unit_zero (S := S1x256) hzz0]

end Cert.KernelIdeal.Body

end
-- ==== Proof.KI.Run0B.lean ====
/-
  Region 0's kernel body at the last grid point: after the last tile of gate pre-activations is stored, the whole
  scratch is read back, the cell update is computed from its four column quarters and the previous cell state, and the
  new hidden and cell states are stored whole into the two output buffers.
-/
import proofs.«127548_j17918603559185_1_alg».proof.Proof.Gen.KernelIdeal.Launch
import proofs.«127548_j17918603559185_1_alg».proof.Proof.KI.Run0A
import proofs.«127548_j17918603559185_1_alg».proof.Proof.Gen.KernelIdeal.Skeleton
import proofs.«127548_j17918603559185_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body where the closing branch is taken: the scratch gains the last tile; each output gets one whole store. -/
noncomputable def kernelRun0_B (c : Dev nD) (i : grid0.Coords) (arg1 : Memref sig .tc .vmem S32x4096 .f32) (harg1 : arg1.IsWhole) (arg2 : Memref sig .tc .vmem S32x4096 .f32) (harg2 : arg2.IsWhole) (arg3 : Memref sig .tc .vmem S32x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S32x16384 .f32) (harg10 : arg10.IsWhole) (hc : k0_cond1 i = 1#1)
    (x0 x1 x2 : Vec F S32x4096 .f32) (x3 x4 : Vec F S256x4096 .f32) (x5 x6 : Vec F S1x256 .f32) (xs : Vec F S32x16384 .f32) :
    Σ' (L8 : List (View.Piece (Elt F) S32x4096 .f32)) (L9 : List (View.Piece (Elt F) S32x4096 .f32)), { LS : List (View.Piece (Elt F) S32x16384 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ (∃ d, owns (c : Thread nD τ) arg9 fullShare d) ∗ owns (c : Thread nD τ) arg10 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)
                ∗ (arg10.view.loc (c : Thread nD τ) ↦[arg10.view.set]{fullShare} arg10.view.writes (Elt F) (harg10.unread xs) LS)) -∗ K ⟨⟩))
          ⊢ wp frame (wpE (defs₀ (F := F)) Variants.none c none) E (cc0__lstm_layer_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__lstm_layer_kernel_eq_skeleton]; unfold cc0__lstm_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%d9, %f9, -, H9⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5; obtain rfl := harg7.eq_unread hf6
    obtain rfl := harg10.eq_unread hfs
    sl_exec (disch := exact hc)
    sl_step
    iapply Hk
    isplitl [H0]; · iexists _; isplitr; · ipureintro; exact harg1.read_unread _
                    iexact H0
    isplitl [H1]; · iexists _; isplitr; · ipureintro; exact harg2.read_unread _
                    iexact H1
    isplitl [H2]; · iexists _; isplitr; · ipureintro; exact harg3.read_unread _
                    iexact H2
    isplitl [H3]; · iexists _; isplitr; · ipureintro; exact harg4.read_unread _
                    iexact H3
    isplitl [H4]; · iexists _; isplitr; · ipureintro; exact harg5.read_unread _
                    iexact H4
    isplitl [H5]; · iexists _; isplitr; · ipureintro; exact harg6.read_unread _
                    iexact H5
    isplitl [H6]; · iexists _; isplitr; · ipureintro; exact harg7.read_unread _
                    iexact H6
    isplitl [H8]; · iexists _; iexact H8
    isplitl [H9]; · iexists _; iexact H9
    iexact HS

/-- The scratch's one piece, as at every other point. -/
theorem LS0_B (c : Dev nD) (i : grid0.Coords) (arg1 : Memref sig .tc .vmem S32x4096 .f32) (harg1 : arg1.IsWhole) (arg2 : Memref sig .tc .vmem S32x4096 .f32) (harg2 : arg2.IsWhole) (arg3 : Memref sig .tc .vmem S32x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S32x16384 .f32) (harg10 : arg10.IsWhole) (hc : k0_cond1 i = 1#1)
    (x0 x1 x2 : Vec F S32x4096 .f32) (x3 x4 : Vec F S256x4096 .f32) (x5 x6 : Vec F S1x256 .f32) (xs : Vec F S32x16384 .f32) :
    (kernelRun0_B c i arg1 harg1 arg2 harg2 arg3 harg3 arg4 harg4 arg5 harg5 arg6 harg6 arg7 harg7 arg8 harg8 arg9 harg9 arg10 harg10 hc x0 x1 x2 x3 x4 x5 x6 xs).2.2.1
      = [⟨Rect.unit (s := S32x16384) (k0_off1 i) S32x256.size (k0_off1_inb i), k0_pay1 x0 x1 x3 x4 x5 x6⟩] := by
  unfold kernelRun0_B; dsimp only; sl_unfold_words
  simp only [View.readAt_eq_ld, harg1.read_unread, harg2.read_unread, harg4.read_unread, harg5.read_unread, harg6.read_unread, harg7.read_unread,
    View.ld_unit_zero (S := S32x4096) hzz0, View.ld_unit_zero (S := S256x4096) hzz0, View.ld_unit_zero (S := S1x256) hzz0]

/-- The new hidden state's one piece: the output gate's logistic times tanh of the new cell state, over the scratch as
    the last store left it and the previous cell state. -/
theorem L80_B (c : Dev nD) (i : grid0.Coords) (arg1 : Memref sig .tc .vmem S32x4096 .f32) (harg1 : arg1.IsWhole) (arg2 : Memref sig .tc .vmem S32x4096 .f32) (harg2 : arg2.IsWhole) (arg3 : Memref sig .tc .vmem S32x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S32x16384 .f32) (harg10 : arg10.IsWhole) (hc : k0_cond1 i = 1#1)
    (x0 x1 x2 : Vec F S32x4096 .f32) (x3 x4 : Vec F S256x4096 .f32) (x5 x6 : Vec F S1x256 .f32) (xs : Vec F S32x16384 .f32) :
    (kernelRun0_B c i arg1 harg1 arg2 harg2 arg3 harg3 arg4 harg4 arg5 harg5 arg6 harg6 arg7 harg7 arg8 harg8 arg9 harg9 arg10 harg10 hc x0 x1 x2 x3 x4 x5 x6 xs).1
      = [⟨Rect.unit (s := S32x4096) ![0, 0] S32x4096.size inb_S32x4096_S32x4096_0_0,
          k0_pay3 (arg10.view.read (Elt F) (arg10.view.writes (Elt F) (harg10.unread xs)
            [⟨Rect.unit (s := S32x16384) (k0_off1 i) S32x256.size (k0_off1_inb i), k0_pay1 x0 x1 x3 x4 x5 x6⟩])) x2⟩] := by
  unfold kernelRun0_B; dsimp only; sl_unfold_words
  simp only [View.readAt_eq_ld, harg1.read_unread, harg2.read_unread, harg3.read_unread, harg4.read_unread, harg5.read_unread, harg6.read_unread, harg7.read_unread,
    View.ld_unit_zero (S := S32x4096) hzz0, View.ld_unit_zero (S := S256x4096) hzz0, View.ld_unit_zero (S := S1x256) hzz0, View.ld_unit_zero (S := S32x16384) hzz0]

/-- The new cell state's one piece. -/
theorem L90_B (c : Dev nD) (i : grid0.Coords) (arg1 : Memref sig .tc .vmem S32x4096 .f32) (harg1 : arg1.IsWhole) (arg2 : Memref sig .tc .vmem S32x4096 .f32) (harg2 : arg2.IsWhole) (arg3 : Memref sig .tc .vmem S32x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S32x16384 .f32) (harg10 : arg10.IsWhole) (hc : k0_cond1 i = 1#1)
    (x0 x1 x2 : Vec F S32x4096 .f32) (x3 x4 : Vec F S256x4096 .f32) (x5 x6 : Vec F S1x256 .f32) (xs : Vec F S32x16384 .f32) :
    (kernelRun0_B c i arg1 harg1 arg2 harg2 arg3 harg3 arg4 harg4 arg5 harg5 arg6 harg6 arg7 harg7 arg8 harg8 arg9 harg9 arg10 harg10 hc x0 x1 x2 x3 x4 x5 x6 xs).2.1
      = [⟨Rect.unit (s := S32x4096) ![0, 0] S32x4096.size inb_S32x4096_S32x4096_0_0,
          k0_pay2 (arg10.view.read (Elt F) (arg10.view.writes (Elt F) (harg10.unread xs)
            [⟨Rect.unit (s := S32x16384) (k0_off1 i) S32x256.size (k0_off1_inb i), k0_pay1 x0 x1 x3 x4 x5 x6⟩])) x2⟩] := by
  unfold kernelRun0_B; dsimp only; sl_unfold_words
  simp only [View.readAt_eq_ld, harg1.read_unread, harg2.read_unread, harg3.read_unread, harg4.read_unread, harg5.read_unread, harg6.read_unread, harg7.read_unread,
    View.ld_unit_zero (S := S32x4096) hzz0, View.ld_unit_zero (S := S256x4096) hzz0, View.ld_unit_zero (S := S1x256) hzz0, View.ld_unit_zero (S := S32x16384) hzz0]

end Cert.KernelIdeal.Body

end
-- ==== Proof.KI.Body0.lean ====
/-
  Region 0 (one LSTM cell as a pipelined kernel over 64 grid points) at the buffer contents `V` it is entered from.
  Point `t` computes the 32x256 tile `t` of the gate pre-activations from the resident activations and the point's
  256 rows of each weight matrix and 256 entries of each bias row, and stores it at columns [256 t, 256 t + 256) of a
  scratch that is carried from point to point; the last point reads the whole scratch back and stores the new hidden
  and cell states, which are written back once, after that point. So the scratch agrees with ONE array, the gate
  pre-activations read tile by tile, on the columns stored so far; after the last point on all of them.
-/
import proofs.«127548_j17918603559185_1_alg».proof.Proof.Gen.KernelIdeal.Launch
import proofs.«127548_j17918603559185_1_alg».proof.Proof.KI.Run0B
import Idealize.ShloMosaic.Lib.ValueIdx
import proofs.«127548_j17918603559185_1_alg».proof.Proof.Gen.KernelIdeal.Skeleton
import proofs.«127548_j17918603559185_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx (ix2)

/-! ## Two facts about stores through one view -/

section Stores

variable {sig' : RefSig} {κ' : Kind} {sp' : Space} {Val : EltTy → Type}

/-- What one store through the whole shape leaves is its payload. -/
theorem read_store_whole0 {S : Shape} {e : EltTy} (v : View sig' κ' sp' S e) (f : v.ty.Contents Val) {off : Fin S.rank → ℕ}
    (h : off = fun _ => 0) (inb : ∀ a, off a + S.size a ≤ S.size a) (w : S.Idx → Val e) :
    v.read Val (v.writes Val f [⟨Rect.unit off S.size inb, w⟩]) = w := by
  subst h; funext y
  have e := View.read_writes_cons_emb v f (Rect.whole S) w [] y
  rw [Rect.emb_whole_apply] at e
  exact e

/-- A buffer that agrees with `G` on the columns below `256 n` agrees with it on the columns below `256 (n + 1)` once
    the tile of `G` at columns [256 n, 256 n + 256) is stored there. -/
theorem agree_store0 (v : View sig' κ' sp' S32x16384 .f32) (f : v.ty.Contents Val) (G : S32x16384.Idx → Val .f32) (n : ℕ)
    (off : Fin S32x16384.rank → ℕ) (hoff : off = ![0, 256 * n]) (inb : ∀ a, off a + S32x256.size a ≤ S32x16384.size a)
    (w : S32x256.Idx → Val .f32)
    (hf : ∀ y : S32x16384.Idx, (y 1).val < 256 * n → v.read Val f y = G y)
    (hw : ∀ x : S32x256.Idx, w x = G ((Rect.unit (s := S32x16384) off S32x256.size inb).emb x)) :
    ∀ y : S32x16384.Idx, (y 1).val < 256 * (n + 1) →
      v.read Val (v.writes Val f [⟨Rect.unit (s := S32x16384) off S32x256.size inb, w⟩]) y = G y := by
  intro y hy
  by_cases hm : y ∈ (Rect.unit (s := S32x16384) off S32x256.size inb).set
  · obtain ⟨x, rfl⟩ := (Rect.unit (s := S32x16384) off S32x256.size inb).exists_idx_of_mem hm
    rw [show (Rect.unit (s := S32x16384) off S32x256.size inb).idx x = (Rect.unit (s := S32x16384) off S32x256.size inb).emb x from rfl,
      View.read_writes_cons_emb]
    exact hw x
  · rw [View.read_writes_apply_of_forall_not_mem v f y _ (by
      intro p hp; rw [List.mem_singleton] at hp; subst hp; exact hm)]
    apply hf
    by_contra hlt
    apply hm
    rw [Rect.mem_set_unit]; subst hoff
    have h0 : (y 0).val < 32 := (y 0).isLt
    intro a
    match a with
    | ⟨0, _⟩ => exact ⟨Nat.zero_le _, (by show (y 0).val < 0 + 32; omega)⟩
    | ⟨1, _⟩ => exact ⟨(by show 256 * n ≤ (y 1).val; omega), (by show (y 1).val < 256 * n + 256; omega)⟩

end Stores

/-! ## The region at the entry contents `V` -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: unfetched, its block
    index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The scratch the kernel carries between points. -/
abbrev scM0 : Memref sig .tc .vmem S32x16384 .f32 := Memref.whole cc0_scratch0

/-- The core's other scoped buffers, which this region does not open. -/
abbrev restS0 (c : Dev nD) : sProp 𝕄 :=
  Pipeline.scopedRestBut (Ix := Unit) (Name := ℕ) (U := UR sig nD τ) (Lvl := ℕ) (Val := Elt F) spec0 c [cc0_scratch0]

theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ restS0 c) :=
  Pipeline.scopedRest_split_of_list spec0 c [cc0_scratch0] (by decide) (by decide)

/-- The invariant the launch hands the region, with the scratch split out as a memref owned at some contents. -/
theorem PhiA0_eq (c : Dev nD) :
    (Pipeline.ΦA spec0 c : sProp 𝕄)
      = iprop(((∃ d, owns (c : Thread nD τ) scM0 fullShare d) ∗ restS0 (F := F) c) ∗ (∃ r, prngReg c r)) := by
  unfold Pipeline.ΦA; rw [scopedRest0_split]; simp only [scM0, owns_whole]; try rfl

/-! ## The gate pre-activations, tile by tile -/

/-- The grid point whose tile holds column `y 1`. -/
def tileOf0 (y : S32x16384.Idx) : Fin cfg0.N := ⟨(y 1).val / 256, by
  have h : (y 1).val < 16384 := (y 1).isLt
  show _ < grid0.N; rw [N_0]; omega⟩

/-- The column's place inside its tile. -/
def inTile0 (y : S32x16384.Idx) : S32x256.Idx :=
  ix2 (⟨(y 0).val, (y 0).isLt⟩ : Fin 32) (⟨(y 1).val % 256, Nat.mod_lt _ (by norm_num)⟩ : Fin 256)

/-- The blocks a point's body reads, at their literal types. -/
abbrev xb0 (c : Dev nD) (t : Fin cfg0.N) : Vec F S32x4096 .f32 := iblk0 V c 0 t
abbrev hb0 (c : Dev nD) (t : Fin cfg0.N) : Vec F S32x4096 .f32 := iblk0 V c 1 t
abbrev cb0 (c : Dev nD) (t : Fin cfg0.N) : Vec F S32x4096 .f32 := iblk0 V c 2 t
abbrev wb0 (c : Dev nD) (t : Fin cfg0.N) : Vec F S256x4096 .f32 := iblk0 V c 3 t
abbrev vb0 (c : Dev nD) (t : Fin cfg0.N) : Vec F S256x4096 .f32 := iblk0 V c 4 t
abbrev b50 (c : Dev nD) (t : Fin cfg0.N) : Vec F S1x256 .f32 := iblk0 V c 5 t
abbrev b60 (c : Dev nD) (t : Fin cfg0.N) : Vec F S1x256 .f32 := iblk0 V c 6 t

/-- Tile `t`: what point `t`'s body stores into the scratch. -/
abbrev tile0 (c : Dev nD) (t : Fin cfg0.N) : Vec F S32x256 .f32 :=
  k0_pay1 (xb0 V c t) (hb0 V c t) (wb0 V c t) (vb0 V c t) (b50 V c t) (b60 V c t)

/-- The whole array of gate pre-activations: column `n` is column `n mod 256` of tile `n / 256`. -/
def gates0 (c : Dev nD) : Vec F S32x16384 .f32 := fun y => tile0 V c (tileOf0 y) (inTile0 y)

/-- An element of tile `t`'s rectangle is in tile `t`, at its own place. -/
theorem tile_emb0 (t : Fin cfg0.N) (off : Fin S32x16384.rank → ℕ) (hoff : off = ![0, 256 * t.val])
    (inb : ∀ a, off a + S32x256.size a ≤ S32x16384.size a) (x : S32x256.Idx) :
    tileOf0 ((Rect.unit (s := S32x16384) off S32x256.size inb).emb x) = t
      ∧ inTile0 ((Rect.unit (s := S32x16384) off S32x256.size inb).emb x) = x := by
  subst hoff
  have h1 : (x 1).val < 256 := (x 1).isLt
  refine ⟨Fin.ext ?_, funext fun a => ?_⟩
  · show (256 * t.val + 1 * (x 1).val) / 256 = t.val
    omega
  · match a with
    | ⟨0, _⟩ => exact Fin.ext (show 0 + 1 * (x 0).val = (x 0).val by omega)
    | ⟨1, _⟩ => exact Fin.ext (show (256 * t.val + 1 * (x 1).val) % 256 = (x 1).val by omega)

theorem gates_emb0 (c : Dev nD) (t : Fin cfg0.N) (off : Fin S32x16384.rank → ℕ) (hoff : off = ![0, 256 * t.val])
    (inb : ∀ a, off a + S32x256.size a ≤ S32x16384.size a) (x : S32x256.Idx) :
    tile0 V c t x = gates0 V c ((Rect.unit (s := S32x16384) off S32x256.size inb).emb x) := by
  obtain ⟨h1, h2⟩ := tile_emb0 t off hoff inb x
  unfold gates0; rw [h1, h2]

/-- The scratch agrees with the gate pre-activations on the columns below `256 n`. -/
def agree0 (c : Dev nD) (n : ℕ) (s : Vec F S32x16384 .f32) : Prop :=
  ∀ y : S32x16384.Idx, (y 1).val < 256 * n → s y = gates0 V c y

/-- The region's invariant before point `n`: the scratch at contents that agree with the gate pre-activations on the
    columns the earlier points stored, the other scoped buffers and the generator register untouched. -/
def PhiS0 (c : Dev nD) (n : ℕ) : sProp 𝕄 :=
  iprop(((∃ s, owns (c : Thread nD τ) scM0 fullShare s ∗ ⌜agree0 V c n s⌝) ∗ restS0 (F := F) c) ∗ (∃ r, prngReg c r))

/-! ## The proof data -/

/-- After the body at any point each input's buffer holds its block; the outputs' buffers, stored only at the last
    point and written back only after it, hold the cell update of the whole gate array and the previous cell state. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => k0_pay3 (gates0 V c) (cb0 V c t)
    | ⟨8, _⟩ => k0_pay2 (gates0 V c) (cb0 V c t)
  Φ t := PhiS0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = k0_pay3 (gates0 V c) (cb0 V c t) := by dsimp only [dat0]
theorem after0_8 (c : Dev nD) (t : Fin cfg0.N) : (dat0 V c).after 8 t = k0_pay2 (gates0 V c) (cb0 V c t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The grid's closed forms -/

/-- The closing branch is taken at the last point only. -/
theorem hcond0 : ∀ t : Fin cfg0.N, k0_cond1 (grid0.coords t) = 1#1 ↔ t.val = 63 :=
  (by decide +kernel : ∀ t : Fin grid0.N, k0_cond1 (grid0.coords t) = 1#1 ↔ t.val = 63)
/-- The grid is one axis: a point's coordinate is its position. -/
theorem coord0 : ∀ t : Fin cfg0.N, ((grid0.coords t) 0).val = t.val :=
  (by decide +kernel : ∀ t : Fin grid0.N, ((grid0.coords t) 0).val = t.val)
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem idleAt0_7 : ∀ t : Fin cfg0.N, ¬ k0_cond1 (grid0.coords t) = 1#1 → cfg0.idle 7 (grid0.coords t) = true := by decide +kernel
theorem idleAt0_8 : ∀ t : Fin cfg0.N, ¬ k0_cond1 (grid0.coords t) = 1#1 → cfg0.idle 8 (grid0.coords t) = true := by decide +kernel
theorem noFlush0_7 : ∀ t : Fin cfg0.N, ¬ k0_cond1 (grid0.coords t) = 1#1 → (cfg0.win 7).flush t = false := by decide +kernel
theorem noFlush0_8 : ∀ t : Fin cfg0.N, ¬ k0_cond1 (grid0.coords t) = 1#1 → (cfg0.win 8).flush t = false := by decide +kernel
theorem liveAt0_7 : ∀ t : Fin cfg0.N, k0_cond1 (grid0.coords t) = 1#1 → cfg0.idle 7 (grid0.coords t) = false := by decide +kernel
theorem liveAt0_8 : ∀ t : Fin cfg0.N, k0_cond1 (grid0.coords t) = 1#1 → cfg0.idle 8 (grid0.coords t) = false := by decide +kernel

/-- The tile's column offset at point `t`. -/
theorem off0_eq (t : Fin cfg0.N) : k0_off1 (grid0.coords t) = ![0, 256 * t.val] := by
  rw [k0_off1_eq, coord0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

/-- The scratch after point `t`'s store agrees with the gate array one tile further. -/
theorem agree_step0 (c : Dev nD) (t : Fin cfg0.N) (s : Vec F S32x16384 .f32) (hs : agree0 V c t.val s) :
    agree0 V c (t.val + 1) ((scM0).view.read (Elt F) ((scM0).view.writes (Elt F) ((Memref.isWhole_whole cc0_scratch0).unread s)
      [⟨Rect.unit (s := S32x16384) (k0_off1 (grid0.coords t)) S32x256.size (k0_off1_inb (grid0.coords t)), tile0 V c t⟩])) :=
  agree_store0 (scM0).view _ (gates0 V c) t.val _ (off0_eq t) _ _
    (fun y hy => by rw [(Memref.isWhole_whole cc0_scratch0).read_unread]; exact hs y hy)
    (fun x => gates_emb0 V c t _ (off0_eq t) _ x)

/-! ### The point's run, every argument named -/

abbrev ms0_0 (t : Fin cfg0.N) : Memref sig .tc .vmem S32x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x4096 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x4096 .f32 := win0_8.stage (cfg0.slots t 8)
abbrev hs0_8 (t : Fin cfg0.N) : (ms0_8 t).IsWhole := hstage0_8 ((cfg0.slots t 8).cast nbuf0_8)
abbrev hsc0 : (scM0).IsWhole := Memref.isWhole_whole cc0_scratch0

/-- The body's run at a point before the last, on the point's staging memrefs, input blocks and the scratch at `s`. -/
abbrev rA0 (c : Dev nD) (t : Fin cfg0.N) (hc : ¬ k0_cond1 (grid0.coords t) = 1#1) (s : Vec F S32x16384 .f32) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 hsc0 hc (xb0 V c t) (hb0 V c t) (wb0 V c t) (vb0 V c t) (b50 V c t) (b60 V c t) s
/-- The body's run at the last point. -/
abbrev rB0 (c : Dev nD) (t : Fin cfg0.N) (hc : k0_cond1 (grid0.coords t) = 1#1) (s : Vec F S32x16384 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 hsc0 hc (xb0 V c t) (hb0 V c t) (cb0 V c t) (wb0 V c t) (vb0 V c t) (b50 V c t) (b60 V c t) s

theorem rA0_LS (c : Dev nD) (t : Fin cfg0.N) (hc : ¬ k0_cond1 (grid0.coords t) = 1#1) (s : Vec F S32x16384 .f32) :
    (rA0 V c t hc s).1 = [⟨Rect.unit (s := S32x16384) (k0_off1 (grid0.coords t)) S32x256.size (k0_off1_inb (grid0.coords t)), tile0 V c t⟩] :=
  LS0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 hsc0 hc (xb0 V c t) (hb0 V c t) (wb0 V c t) (vb0 V c t) (b50 V c t) (b60 V c t) s
theorem rB0_LS (c : Dev nD) (t : Fin cfg0.N) (hc : k0_cond1 (grid0.coords t) = 1#1) (s : Vec F S32x16384 .f32) :
    (rB0 V c t hc s).2.2.1 = [⟨Rect.unit (s := S32x16384) (k0_off1 (grid0.coords t)) S32x256.size (k0_off1_inb (grid0.coords t)), tile0 V c t⟩] :=
  LS0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 hsc0 hc (xb0 V c t) (hb0 V c t) (cb0 V c t) (wb0 V c t) (vb0 V c t) (b50 V c t) (b60 V c t) s
theorem rB0_L8 (c : Dev nD) (t : Fin cfg0.N) (hc : k0_cond1 (grid0.coords t) = 1#1) (s : Vec F S32x16384 .f32) :
    (rB0 V c t hc s).1 = [⟨Rect.unit (s := S32x4096) ![0, 0] S32x4096.size inb_S32x4096_S32x4096_0_0,
      k0_pay3 ((scM0).view.read (Elt F) ((scM0).view.writes (Elt F) (hsc0.unread s) [⟨Rect.unit (s := S32x16384) (k0_off1 (grid0.coords t)) S32x256.size (k0_off1_inb (grid0.coords t)), tile0 V c t⟩])) (cb0 V c t)⟩] :=
  L80_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 hsc0 hc (xb0 V c t) (hb0 V c t) (cb0 V c t) (wb0 V c t) (vb0 V c t) (b50 V c t) (b60 V c t) s
theorem rB0_L9 (c : Dev nD) (t : Fin cfg0.N) (hc : k0_cond1 (grid0.coords t) = 1#1) (s : Vec F S32x16384 .f32) :
    (rB0 V c t hc s).2.1 = [⟨Rect.unit (s := S32x4096) ![0, 0] S32x4096.size inb_S32x4096_S32x4096_0_0,
      k0_pay2 ((scM0).view.read (Elt F) ((scM0).view.writes (Elt F) (hsc0.unread s) [⟨Rect.unit (s := S32x16384) (k0_off1 (grid0.coords t)) S32x256.size (k0_off1_inb (grid0.coords t)), tile0 V c t⟩])) (cb0 V c t)⟩] :=
  L90_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 hsc0 hc (xb0 V c t) (hb0 V c t) (cb0 V c t) (wb0 V c t) (vb0 V c t) (b50 V c t) (b60 V c t) s

/-- The scratch after the point's store agrees with the gate array one tile further. -/
theorem rA0_scr (c : Dev nD) (t : Fin cfg0.N) (hc : ¬ k0_cond1 (grid0.coords t) = 1#1) (s : Vec F S32x16384 .f32) (hs : agree0 V c t.val s) :
    agree0 V c (t.val + 1) ((scM0).view.read (Elt F) ((scM0).view.writes (Elt F) (hsc0.unread s) (rA0 V c t hc s).1)) := by
  rw [rA0_LS V c t hc s]; exact agree_step0 V c t s hs
theorem rB0_scr (c : Dev nD) (t : Fin cfg0.N) (hc : k0_cond1 (grid0.coords t) = 1#1) (s : Vec F S32x16384 .f32) (hs : agree0 V c t.val s) :
    agree0 V c (t.val + 1) ((scM0).view.read (Elt F) ((scM0).view.writes (Elt F) (hsc0.unread s) (rB0 V c t hc s).2.2.1)) := by
  rw [rB0_LS V c t hc s]; exact agree_step0 V c t s hs

/-- After the last point's store the scratch is the whole gate array. -/
theorem full0 (c : Dev nD) (t : Fin cfg0.N) (ht : t.val = 63) (s : Vec F S32x16384 .f32) (hs : agree0 V c t.val s) :
    (scM0).view.read (Elt F) ((scM0).view.writes (Elt F) (hsc0.unread s) [⟨Rect.unit (s := S32x16384) (k0_off1 (grid0.coords t)) S32x256.size (k0_off1_inb (grid0.coords t)), tile0 V c t⟩]) = gates0 V c :=
  funext fun y => agree_step0 V c t s hs y (by have h : (y 1).val < 16384 := (y 1).isLt; omega)

/-- What the last point leaves in the new hidden state's buffer, whatever it held. -/
theorem rB0_out7 (c : Dev nD) (t : Fin cfg0.N) (hc : k0_cond1 (grid0.coords t) = 1#1) (s : Vec F S32x16384 .f32) (hs : agree0 V c t.val s)
    (f : (ms0_7 t).view.ty.Contents (Elt F)) :
    (ms0_7 t).view.read (Elt F) ((ms0_7 t).view.writes (Elt F) f (rB0 V c t hc s).1) = k0_pay3 (gates0 V c) (cb0 V c t) := by
  rw [rB0_L8 V c t hc s, read_store_whole0 _ _ hzz0, full0 V c t ((hcond0 t).mp hc) s hs]
/-- And in the new cell state's. -/
theorem rB0_out8 (c : Dev nD) (t : Fin cfg0.N) (hc : k0_cond1 (grid0.coords t) = 1#1) (s : Vec F S32x16384 .f32) (hs : agree0 V c t.val s)
    (f : (ms0_8 t).view.ty.Contents (Elt F)) :
    (ms0_8 t).view.read (Elt F) ((ms0_8 t).view.writes (Elt F) f (rB0 V c t hc s).2.1) = k0_pay2 (gates0 V c) (cb0 V c t) := by
  rw [rB0_L9 V c t hc s, read_store_whole0 _ _ hzz0, full0 V c t ((hcond0 t).mp hc) s hs]

/-! ### The body at a point -/

set_option maxHeartbeats 1000000 in
/-- At the last point. -/
theorem sound_body0_last (c : Dev nD) (t : Fin cfg0.N) (hc : k0_cond1 (grid0.coords t) = 1#1) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) from rfl, show (dat0 V c).Φ t.castSucc = PhiS0 V c t.val from rfl]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  rw [show (dat0 V c).leavesExact 5 t = owns (c : Thread nD τ) (st0_5 t) fullShare ((dat0 V c).after 5 t) from by
    unfold Dat.leavesExact; rw [liveAt0_5 t], after0_5]
  rw [show (dat0 V c).leavesExact 6 t = owns (c : Thread nD τ) (st0_6 t) fullShare ((dat0 V c).after 6 t) from by
    unfold Dat.leavesExact; rw [liveAt0_6 t], after0_6]
  rw [show (dat0 V c).leavesExact 7 t = owns (c : Thread nD τ) (st0_7 t) fullShare ((dat0 V c).after 7 t) from by
    unfold Dat.leavesExact; rw [liveAt0_7 t hc], after0_7]
  rw [show (dat0 V c).leavesExact 8 t = owns (c : Thread nD τ) (st0_8 t) fullShare ((dat0 V c).after 8 t) from by
    unfold Dat.leavesExact; rw [liveAt0_8 t hc], after0_8]
  unfold PhiS0
  iintro ⟨⟨⟨⟨%s, HS, %hs⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((rB0 V c t hc s).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS]; · iexact HS
  iintro ⟨H0, H1, H2, H3, H4, H5, H6, ⟨%f7, H7⟩, ⟨%f8, H8⟩, HS⟩
  isplitl [HS Hrest Hg]
  · isplitl [HS Hrest]
    · isplitl [HS]
      · iexists ((scM0).view.read (Elt F) ((scM0).view.writes (Elt F) (hsc0.unread s) (rB0 V c t hc s).2.2.1)); isplitl [HS]
        · unfold owns; iexists ((scM0).view.writes (Elt F) (hsc0.unread s) (rB0 V c t hc s).2.2.1); isplitr; · ipureintro; rfl
          iexact HS
        · ipureintro; exact rB0_scr V c t hc s hs
      · iexact Hrest
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact rB0_out7 V c t hc s hs f7
  · unfold owns; iexists _; isplitr
    swap; · iexact H8
    ipureintro; exact rB0_out8 V c t hc s hs f8

set_option maxHeartbeats 1000000 in
/-- At any earlier point. -/
theorem sound_body0_mid (c : Dev nD) (t : Fin cfg0.N) (hc : ¬ k0_cond1 (grid0.coords t) = 1#1) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) from rfl, show (dat0 V c).Φ t.castSucc = PhiS0 V c t.val from rfl]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  rw [show (dat0 V c).leavesExact 5 t = owns (c : Thread nD τ) (st0_5 t) fullShare ((dat0 V c).after 5 t) from by
    unfold Dat.leavesExact; rw [liveAt0_5 t], after0_5]
  rw [show (dat0 V c).leavesExact 6 t = owns (c : Thread nD τ) (st0_6 t) fullShare ((dat0 V c).after 6 t) from by
    unfold Dat.leavesExact; rw [liveAt0_6 t], after0_6]
  rw [Dat.leavesExact_idle (dat0 V c) 7 t (idleAt0_7 t hc) (noFlush0_7 t hc)]
  rw [Dat.leavesExact_idle (dat0 V c) 8 t (idleAt0_8 t hc) (noFlush0_8 t hc)]
  unfold PhiS0
  iintro ⟨⟨⟨⟨%s, HS, %hs⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((rA0 V c t hc s).2 Set.univ _)
  isplitl [H0]; · iexact H0
  isplitl [H1]; · iexact H1
  isplitl [H3]; · iexact H3
  isplitl [H4]; · iexact H4
  isplitl [H5]; · iexact H5
  isplitl [H6]; · iexact H6
  isplitl [HS]; · iexact HS
  iintro ⟨H0, H1, H3, H4, H5, H6, HS⟩
  isplitl [HS Hrest Hg]
  · isplitl [HS Hrest]
    · isplitl [HS]
      · iexists ((scM0).view.read (Elt F) ((scM0).view.writes (Elt F) (hsc0.unread s) (rA0 V c t hc s).1)); isplitl [HS]
        · unfold owns; iexists ((scM0).view.writes (Elt F) (hsc0.unread s) (rA0 V c t hc s).1); isplitr; · ipureintro; rfl
          iexact HS
        · ipureintro; exact rA0_scr V c t hc s hs
      · iexact Hrest
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iexists _; iexact H8

theorem sound_body0 (c : Dev nD) (t : Fin cfg0.N) :
    bodyPre0 V c t ⊢ wp frame (wpE (defs₀ (F := F)) Variants.none c none) Set.univ (bodyAt0 t) (fun _ => bodyPost0 V c t) := by
  by_cases hc : k0_cond1 (grid0.coords t) = 1#1
  · exact sound_body0_last V c t hc
  · exact sound_body0_mid V c t hc

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Entry and exit -/

/-- What the launch hands the region is the invariant before the first point: no column is stored yet. -/
theorem hin0 (c : Dev nD) : (Pipeline.ΦA spec0 c : sProp 𝕄) ⊢ (dat0 V c).Φ 0 := by
  rw [show (dat0 V c).Φ 0 = PhiS0 V c 0 from rfl, PhiA0_eq]; unfold PhiS0
  iintro ⟨⟨⟨%d, HS⟩, Hrest⟩, Hg⟩
  isplitl [HS Hrest]
  · isplitl [HS]
    · iexists d; isplitl [HS]; · iexact HS
      ipureintro; intro y hy; exact absurd hy (by omega)
    · iexact Hrest
  · iexact Hg

/-- After the last point the invariant gives the launch's back: the scratch's contents are forgotten. -/
theorem hout0 (c : Dev nD) : (dat0 V c).Φ (Fin.last cfg0.N) ⊢ (Pipeline.ΦA spec0 c : sProp 𝕄) := by
  rw [show (dat0 V c).Φ (Fin.last cfg0.N) = PhiS0 V c (Fin.last cfg0.N).val from rfl, PhiA0_eq]; unfold PhiS0
  iintro ⟨⟨⟨%s, HS, -⟩, Hrest⟩, Hg⟩
  isplitl [HS Hrest]
  · isplitl [HS]
    · iexists s; iexact HS
    · iexact Hrest
  · iexact Hg

end Cert.KernelIdeal.Body

end
-- ==== Proof.KI.Run1A.lean ====
/-
  Region 1's kernel body at a grid point that is not the last: it loads the resident activations and the point's
  weight and bias tiles, and stores one 32x256 tile of gate pre-activations into the carried scratch at the point's
  column offset. Nothing else is touched.
-/
import proofs.«127548_j17918603559185_1_alg».proof.Proof.Gen.KernelIdeal.Launch
import proofs.«127548_j17918603559185_1_alg».proof.Proof.Gen.KernelIdeal.Skeleton
import proofs.«127548_j17918603559185_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a whole-buffer access, spelt as a function. -/
theorem hzz1 : (![0, 0] : Fin 2 → ℕ) = fun _ => 0 := by
  funext a; match a with | ⟨0, _⟩ => rfl | ⟨1, _⟩ => rfl

set_option maxHeartbeats 4000000 in
/-- The body where the closing branch is not taken: the tile's store is the one piece the scratch gains. -/
noncomputable def kernelRun1_A (c : Dev nD) (i : grid1.Coords) (arg1 : Memref sig .tc .vmem S32x4096 .f32) (harg1 : arg1.IsWhole) (arg2 : Memref sig .tc .vmem S32x4096 .f32) (harg2 : arg2.IsWhole) (arg3 : Memref sig .tc .vmem S32x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S32x16384 .f32) (harg10 : arg10.IsWhole) (hc : ¬ k1_cond1 i = 1#1)
    (x0 x1 : Vec F S32x4096 .f32) (x3 x4 : Vec F S256x4096 .f32) (x5 x6 : Vec F S1x256 .f32) (xs : Vec F S32x16384 .f32) :
    { LS : List (View.Piece (Elt F) S32x16384 .f32) //
      ∀ (E : Set ℕ) (K : PUnit → sProp 𝕄),
        iprop(owns (c : Thread nD τ) arg1 fullShare x0 ∗ owns (c : Thread nD τ) arg2 fullShare x1 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg10 fullShare xs
            ∗ (iprop(owns (c : Thread nD τ) arg1 fullShare x0 ∗ owns (c : Thread nD τ) arg2 fullShare x1 ∗ owns (c : Thread nD τ) arg4 fullShare x3 ∗ owns (c : Thread nD τ) arg5 fullShare x4 ∗ owns (c : Thread nD τ) arg6 fullShare x5 ∗ owns (c : Thread nD τ) arg7 fullShare x6
                ∗ (arg10.view.loc (c : Thread nD τ) ↦[arg10.view.set]{fullShare} arg10.view.writes (Elt F) (harg10.unread xs) LS)) -∗ K ⟨⟩))
          ⊢ wp frame (wpE (defs₀ (F := F)) Variants.none c none) E (cc1__lstm_layer_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc1__lstm_layer_kernel_eq_skeleton]; unfold cc1__lstm_layer_kernel_skel
    unfold owns
    iintro ⟨⟨%f0, %hf0, H0⟩, ⟨%f1, %hf1, H1⟩, ⟨%f3, %hf3, H3⟩, ⟨%f4, %hf4, H4⟩, ⟨%f5, %hf5, H5⟩, ⟨%f6, %hf6, H6⟩, ⟨%fs, %hfs, HS⟩, Hk⟩
    obtain rfl := harg1.eq_unread hf0; obtain rfl := harg2.eq_unread hf1
    obtain rfl := harg4.eq_unread hf3; obtain rfl := harg5.eq_unread hf4; obtain rfl := harg6.eq_unread hf5; obtain rfl := harg7.eq_unread hf6
    obtain rfl := harg10.eq_unread hfs
    sl_exec (disch := exact hc)
    sl_step
    iapply Hk
    isplitl [H0]; · iexists _; isplitr; · ipureintro; exact harg1.read_unread _
                    iexact H0
    isplitl [H1]; · iexists _; isplitr; · ipureintro; exact harg2.read_unread _
                    iexact H1
    isplitl [H3]; · iexists _; isplitr; · ipureintro; exact harg4.read_unread _
                    iexact H3
    isplitl [H4]; · iexists _; isplitr; · ipureintro; exact harg5.read_unread _
                    iexact H4
    isplitl [H5]; · iexists _; isplitr; · ipureintro; exact harg6.read_unread _
                    iexact H5
    isplitl [H6]; · iexists _; isplitr; · ipureintro; exact harg7.read_unread _
                    iexact H6
    iexact HS

/-- The one piece: the tile's payload through the rectangle of 256 columns at the point's offset. -/
theorem LS1_A (c : Dev nD) (i : grid1.Coords) (arg1 : Memref sig .tc .vmem S32x4096 .f32) (harg1 : arg1.IsWhole) (arg2 : Memref sig .tc .vmem S32x4096 .f32) (harg2 : arg2.IsWhole) (arg3 : Memref sig .tc .vmem S32x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S32x16384 .f32) (harg10 : arg10.IsWhole) (hc : ¬ k1_cond1 i = 1#1)
    (x0 x1 : Vec F S32x4096 .f32) (x3 x4 : Vec F S256x4096 .f32) (x5 x6 : Vec F S1x256 .f32) (xs : Vec F S32x16384 .f32) :
    (kernelRun1_A c i arg1 harg1 arg2 harg2 arg3 harg3 arg4 harg4 arg5 harg5 arg6 harg6 arg7 harg7 arg8 harg8 arg9 harg9 arg10 harg10 hc x0 x1 x3 x4 x5 x6 xs).1
      = [⟨Rect.unit (s := S32x16384) (k1_off1 i) S32x256.size (k1_off1_inb i), k1_pay1 x0 x1 x3 x4 x5 x6⟩] := by
  unfold kernelRun1_A; dsimp only; sl_unfold_words
  simp only [View.readAt_eq_ld, harg1.read_unread, harg2.read_unread, harg4.read_unread, harg5.read_unread, harg6.read_unread, harg7.read_unread,
    View.ld_unit_zero (S := S32x4096) hzz1, View.ld_unit_zero (S := S256x4096) hzz1, View.ld_unit_zero (S := S1x256) hzz1]

end Cert.KernelIdeal.Body

end
-- ==== Proof.KI.Run1B.lean ====
/-
  Region 1's kernel body at the last grid point: after the last tile of gate pre-activations is stored, the whole
  scratch is read back, the cell update is computed from its four column quarters and the previous cell state, and the
  new hidden and cell states are stored whole into the two output buffers.
-/
import proofs.«127548_j17918603559185_1_alg».proof.Proof.Gen.KernelIdeal.Launch
import proofs.«127548_j17918603559185_1_alg».proof.Proof.KI.Run1A
import proofs.«127548_j17918603559185_1_alg».proof.Proof.Gen.KernelIdeal.Skeleton
import proofs.«127548_j17918603559185_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body where the closing branch is taken: the scratch gains the last tile; each output gets one whole store. -/
noncomputable def kernelRun1_B (c : Dev nD) (i : grid1.Coords) (arg1 : Memref sig .tc .vmem S32x4096 .f32) (harg1 : arg1.IsWhole) (arg2 : Memref sig .tc .vmem S32x4096 .f32) (harg2 : arg2.IsWhole) (arg3 : Memref sig .tc .vmem S32x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S32x16384 .f32) (harg10 : arg10.IsWhole) (hc : k1_cond1 i = 1#1)
    (x0 x1 x2 : Vec F S32x4096 .f32) (x3 x4 : Vec F S256x4096 .f32) (x5 x6 : Vec F S1x256 .f32) (xs : Vec F S32x16384 .f32) :
    Σ' (L8 : List (View.Piece (Elt F) S32x4096 .f32)) (L9 : List (View.Piece (Elt F) S32x4096 .f32)), { LS : List (View.Piece (Elt F) S32x16384 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ (∃ d, owns (c : Thread nD τ) arg9 fullShare d) ∗ owns (c : Thread nD τ) arg10 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)
                ∗ (arg10.view.loc (c : Thread nD τ) ↦[arg10.view.set]{fullShare} arg10.view.writes (Elt F) (harg10.unread xs) LS)) -∗ K ⟨⟩))
          ⊢ wp frame (wpE (defs₀ (F := F)) Variants.none c none) E (cc1__lstm_layer_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc1__lstm_layer_kernel_eq_skeleton]; unfold cc1__lstm_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%d9, %f9, -, H9⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5; obtain rfl := harg7.eq_unread hf6
    obtain rfl := harg10.eq_unread hfs
    sl_exec (disch := exact hc)
    sl_step
    iapply Hk
    isplitl [H0]; · iexists _; isplitr; · ipureintro; exact harg1.read_unread _
                    iexact H0
    isplitl [H1]; · iexists _; isplitr; · ipureintro; exact harg2.read_unread _
                    iexact H1
    isplitl [H2]; · iexists _; isplitr; · ipureintro; exact harg3.read_unread _
                    iexact H2
    isplitl [H3]; · iexists _; isplitr; · ipureintro; exact harg4.read_unread _
                    iexact H3
    isplitl [H4]; · iexists _; isplitr; · ipureintro; exact harg5.read_unread _
                    iexact H4
    isplitl [H5]; · iexists _; isplitr; · ipureintro; exact harg6.read_unread _
                    iexact H5
    isplitl [H6]; · iexists _; isplitr; · ipureintro; exact harg7.read_unread _
                    iexact H6
    isplitl [H8]; · iexists _; iexact H8
    isplitl [H9]; · iexists _; iexact H9
    iexact HS

/-- The scratch's one piece, as at every other point. -/
theorem LS1_B (c : Dev nD) (i : grid1.Coords) (arg1 : Memref sig .tc .vmem S32x4096 .f32) (harg1 : arg1.IsWhole) (arg2 : Memref sig .tc .vmem S32x4096 .f32) (harg2 : arg2.IsWhole) (arg3 : Memref sig .tc .vmem S32x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S32x16384 .f32) (harg10 : arg10.IsWhole) (hc : k1_cond1 i = 1#1)
    (x0 x1 x2 : Vec F S32x4096 .f32) (x3 x4 : Vec F S256x4096 .f32) (x5 x6 : Vec F S1x256 .f32) (xs : Vec F S32x16384 .f32) :
    (kernelRun1_B c i arg1 harg1 arg2 harg2 arg3 harg3 arg4 harg4 arg5 harg5 arg6 harg6 arg7 harg7 arg8 harg8 arg9 harg9 arg10 harg10 hc x0 x1 x2 x3 x4 x5 x6 xs).2.2.1
      = [⟨Rect.unit (s := S32x16384) (k1_off1 i) S32x256.size (k1_off1_inb i), k1_pay1 x0 x1 x3 x4 x5 x6⟩] := by
  unfold kernelRun1_B; dsimp only; sl_unfold_words
  simp only [View.readAt_eq_ld, harg1.read_unread, harg2.read_unread, harg4.read_unread, harg5.read_unread, harg6.read_unread, harg7.read_unread,
    View.ld_unit_zero (S := S32x4096) hzz1, View.ld_unit_zero (S := S256x4096) hzz1, View.ld_unit_zero (S := S1x256) hzz1]

/-- The new hidden state's one piece: the output gate's logistic times tanh of the new cell state, over the scratch as
    the last store left it and the previous cell state. -/
theorem L81_B (c : Dev nD) (i : grid1.Coords) (arg1 : Memref sig .tc .vmem S32x4096 .f32) (harg1 : arg1.IsWhole) (arg2 : Memref sig .tc .vmem S32x4096 .f32) (harg2 : arg2.IsWhole) (arg3 : Memref sig .tc .vmem S32x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S32x16384 .f32) (harg10 : arg10.IsWhole) (hc : k1_cond1 i = 1#1)
    (x0 x1 x2 : Vec F S32x4096 .f32) (x3 x4 : Vec F S256x4096 .f32) (x5 x6 : Vec F S1x256 .f32) (xs : Vec F S32x16384 .f32) :
    (kernelRun1_B c i arg1 harg1 arg2 harg2 arg3 harg3 arg4 harg4 arg5 harg5 arg6 harg6 arg7 harg7 arg8 harg8 arg9 harg9 arg10 harg10 hc x0 x1 x2 x3 x4 x5 x6 xs).1
      = [⟨Rect.unit (s := S32x4096) ![0, 0] S32x4096.size inb_S32x4096_S32x4096_0_0,
          k1_pay3 (arg10.view.read (Elt F) (arg10.view.writes (Elt F) (harg10.unread xs)
            [⟨Rect.unit (s := S32x16384) (k1_off1 i) S32x256.size (k1_off1_inb i), k1_pay1 x0 x1 x3 x4 x5 x6⟩])) x2⟩] := by
  unfold kernelRun1_B; dsimp only; sl_unfold_words
  simp only [View.readAt_eq_ld, harg1.read_unread, harg2.read_unread, harg3.read_unread, harg4.read_unread, harg5.read_unread, harg6.read_unread, harg7.read_unread,
    View.ld_unit_zero (S := S32x4096) hzz1, View.ld_unit_zero (S := S256x4096) hzz1, View.ld_unit_zero (S := S1x256) hzz1, View.ld_unit_zero (S := S32x16384) hzz1]

/-- The new cell state's one piece. -/
theorem L91_B (c : Dev nD) (i : grid1.Coords) (arg1 : Memref sig .tc .vmem S32x4096 .f32) (harg1 : arg1.IsWhole) (arg2 : Memref sig .tc .vmem S32x4096 .f32) (harg2 : arg2.IsWhole) (arg3 : Memref sig .tc .vmem S32x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S32x16384 .f32) (harg10 : arg10.IsWhole) (hc : k1_cond1 i = 1#1)
    (x0 x1 x2 : Vec F S32x4096 .f32) (x3 x4 : Vec F S256x4096 .f32) (x5 x6 : Vec F S1x256 .f32) (xs : Vec F S32x16384 .f32) :
    (kernelRun1_B c i arg1 harg1 arg2 harg2 arg3 harg3 arg4 harg4 arg5 harg5 arg6 harg6 arg7 harg7 arg8 harg8 arg9 harg9 arg10 harg10 hc x0 x1 x2 x3 x4 x5 x6 xs).2.1
      = [⟨Rect.unit (s := S32x4096) ![0, 0] S32x4096.size inb_S32x4096_S32x4096_0_0,
          k1_pay2 (arg10.view.read (Elt F) (arg10.view.writes (Elt F) (harg10.unread xs)
            [⟨Rect.unit (s := S32x16384) (k1_off1 i) S32x256.size (k1_off1_inb i), k1_pay1 x0 x1 x3 x4 x5 x6⟩])) x2⟩] := by
  unfold kernelRun1_B; dsimp only; sl_unfold_words
  simp only [View.readAt_eq_ld, harg1.read_unread, harg2.read_unread, harg3.read_unread, harg4.read_unread, harg5.read_unread, harg6.read_unread, harg7.read_unread,
    View.ld_unit_zero (S := S32x4096) hzz1, View.ld_unit_zero (S := S256x4096) hzz1, View.ld_unit_zero (S := S1x256) hzz1, View.ld_unit_zero (S := S32x16384) hzz1]

end Cert.KernelIdeal.Body

end
-- ==== Proof.KI.Body1.lean ====
/-
  Region 1 (one LSTM cell as a pipelined kernel over 64 grid points) at the buffer contents `V` it is entered from.
  Point `t` computes the 32x256 tile `t` of the gate pre-activations from the resident activations and the point's
  256 rows of each weight matrix and 256 entries of each bias row, and stores it at columns [256 t, 256 t + 256) of a
  scratch that is carried from point to point; the last point reads the whole scratch back and stores the new hidden
  and cell states, which are written back once, after that point. So the scratch agrees with ONE array, the gate
  pre-activations read tile by tile, on the columns stored so far; after the last point on all of them.
-/
import proofs.«127548_j17918603559185_1_alg».proof.Proof.Gen.KernelIdeal.Launch
import proofs.«127548_j17918603559185_1_alg».proof.Proof.KI.Run1B
import Idealize.ShloMosaic.Lib.ValueIdx
import proofs.«127548_j17918603559185_1_alg».proof.Proof.Gen.KernelIdeal.Skeleton
import proofs.«127548_j17918603559185_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx (ix2)

/-! ## Two facts about stores through one view -/

section Stores

variable {sig' : RefSig} {κ' : Kind} {sp' : Space} {Val : EltTy → Type}

/-- What one store through the whole shape leaves is its payload. -/
theorem read_store_whole1 {S : Shape} {e : EltTy} (v : View sig' κ' sp' S e) (f : v.ty.Contents Val) {off : Fin S.rank → ℕ}
    (h : off = fun _ => 0) (inb : ∀ a, off a + S.size a ≤ S.size a) (w : S.Idx → Val e) :
    v.read Val (v.writes Val f [⟨Rect.unit off S.size inb, w⟩]) = w := by
  subst h; funext y
  have e := View.read_writes_cons_emb v f (Rect.whole S) w [] y
  rw [Rect.emb_whole_apply] at e
  exact e

/-- A buffer that agrees with `G` on the columns below `256 n` agrees with it on the columns below `256 (n + 1)` once
    the tile of `G` at columns [256 n, 256 n + 256) is stored there. -/
theorem agree_store1 (v : View sig' κ' sp' S32x16384 .f32) (f : v.ty.Contents Val) (G : S32x16384.Idx → Val .f32) (n : ℕ)
    (off : Fin S32x16384.rank → ℕ) (hoff : off = ![0, 256 * n]) (inb : ∀ a, off a + S32x256.size a ≤ S32x16384.size a)
    (w : S32x256.Idx → Val .f32)
    (hf : ∀ y : S32x16384.Idx, (y 1).val < 256 * n → v.read Val f y = G y)
    (hw : ∀ x : S32x256.Idx, w x = G ((Rect.unit (s := S32x16384) off S32x256.size inb).emb x)) :
    ∀ y : S32x16384.Idx, (y 1).val < 256 * (n + 1) →
      v.read Val (v.writes Val f [⟨Rect.unit (s := S32x16384) off S32x256.size inb, w⟩]) y = G y := by
  intro y hy
  by_cases hm : y ∈ (Rect.unit (s := S32x16384) off S32x256.size inb).set
  · obtain ⟨x, rfl⟩ := (Rect.unit (s := S32x16384) off S32x256.size inb).exists_idx_of_mem hm
    rw [show (Rect.unit (s := S32x16384) off S32x256.size inb).idx x = (Rect.unit (s := S32x16384) off S32x256.size inb).emb x from rfl,
      View.read_writes_cons_emb]
    exact hw x
  · rw [View.read_writes_apply_of_forall_not_mem v f y _ (by
      intro p hp; rw [List.mem_singleton] at hp; subst hp; exact hm)]
    apply hf
    by_contra hlt
    apply hm
    rw [Rect.mem_set_unit]; subst hoff
    have h0 : (y 0).val < 32 := (y 0).isLt
    intro a
    match a with
    | ⟨0, _⟩ => exact ⟨Nat.zero_le _, (by show (y 0).val < 0 + 32; omega)⟩
    | ⟨1, _⟩ => exact ⟨(by show 256 * n ≤ (y 1).val; omega), (by show (y 1).val < 256 * n + 256; omega)⟩

end Stores

/-! ## The region at the entry contents `V` -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: unfetched, its block
    index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The scratch the kernel carries between points. -/
abbrev scM1 : Memref sig .tc .vmem S32x16384 .f32 := Memref.whole cc1_scratch0

/-- The core's other scoped buffers, which this region does not open. -/
abbrev restS1 (c : Dev nD) : sProp 𝕄 :=
  Pipeline.scopedRestBut (Ix := Unit) (Name := ℕ) (U := UR sig nD τ) (Lvl := ℕ) (Val := Elt F) spec1 c [cc1_scratch0]

theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ restS1 c) :=
  Pipeline.scopedRest_split_of_list spec1 c [cc1_scratch0] (by decide) (by decide)

/-- The invariant the launch hands the region, with the scratch split out as a memref owned at some contents. -/
theorem PhiA1_eq (c : Dev nD) :
    (Pipeline.ΦA spec1 c : sProp 𝕄)
      = iprop(((∃ d, owns (c : Thread nD τ) scM1 fullShare d) ∗ restS1 (F := F) c) ∗ (∃ r, prngReg c r)) := by
  unfold Pipeline.ΦA; rw [scopedRest1_split]; simp only [scM1, owns_whole]; try rfl

/-! ## The gate pre-activations, tile by tile -/

/-- The grid point whose tile holds column `y 1`. -/
def tileOf1 (y : S32x16384.Idx) : Fin cfg1.N := ⟨(y 1).val / 256, by
  have h : (y 1).val < 16384 := (y 1).isLt
  show _ < grid1.N; rw [N_1]; omega⟩

/-- The column's place inside its tile. -/
def inTile1 (y : S32x16384.Idx) : S32x256.Idx :=
  ix2 (⟨(y 0).val, (y 0).isLt⟩ : Fin 32) (⟨(y 1).val % 256, Nat.mod_lt _ (by norm_num)⟩ : Fin 256)

/-- The blocks a point's body reads, at their literal types. -/
abbrev xb1 (c : Dev nD) (t : Fin cfg1.N) : Vec F S32x4096 .f32 := iblk1 V c 0 t
abbrev hb1 (c : Dev nD) (t : Fin cfg1.N) : Vec F S32x4096 .f32 := iblk1 V c 1 t
abbrev cb1 (c : Dev nD) (t : Fin cfg1.N) : Vec F S32x4096 .f32 := iblk1 V c 2 t
abbrev wb1 (c : Dev nD) (t : Fin cfg1.N) : Vec F S256x4096 .f32 := iblk1 V c 3 t
abbrev vb1 (c : Dev nD) (t : Fin cfg1.N) : Vec F S256x4096 .f32 := iblk1 V c 4 t
abbrev b51 (c : Dev nD) (t : Fin cfg1.N) : Vec F S1x256 .f32 := iblk1 V c 5 t
abbrev b61 (c : Dev nD) (t : Fin cfg1.N) : Vec F S1x256 .f32 := iblk1 V c 6 t

/-- Tile `t`: what point `t`'s body stores into the scratch. -/
abbrev tile1 (c : Dev nD) (t : Fin cfg1.N) : Vec F S32x256 .f32 :=
  k1_pay1 (xb1 V c t) (hb1 V c t) (wb1 V c t) (vb1 V c t) (b51 V c t) (b61 V c t)

/-- The whole array of gate pre-activations: column `n` is column `n mod 256` of tile `n / 256`. -/
def gates1 (c : Dev nD) : Vec F S32x16384 .f32 := fun y => tile1 V c (tileOf1 y) (inTile1 y)

/-- An element of tile `t`'s rectangle is in tile `t`, at its own place. -/
theorem tile_emb1 (t : Fin cfg1.N) (off : Fin S32x16384.rank → ℕ) (hoff : off = ![0, 256 * t.val])
    (inb : ∀ a, off a + S32x256.size a ≤ S32x16384.size a) (x : S32x256.Idx) :
    tileOf1 ((Rect.unit (s := S32x16384) off S32x256.size inb).emb x) = t
      ∧ inTile1 ((Rect.unit (s := S32x16384) off S32x256.size inb).emb x) = x := by
  subst hoff
  have h1 : (x 1).val < 256 := (x 1).isLt
  refine ⟨Fin.ext ?_, funext fun a => ?_⟩
  · show (256 * t.val + 1 * (x 1).val) / 256 = t.val
    omega
  · match a with
    | ⟨0, _⟩ => exact Fin.ext (show 0 + 1 * (x 0).val = (x 0).val by omega)
    | ⟨1, _⟩ => exact Fin.ext (show (256 * t.val + 1 * (x 1).val) % 256 = (x 1).val by omega)

theorem gates_emb1 (c : Dev nD) (t : Fin cfg1.N) (off : Fin S32x16384.rank → ℕ) (hoff : off = ![0, 256 * t.val])
    (inb : ∀ a, off a + S32x256.size a ≤ S32x16384.size a) (x : S32x256.Idx) :
    tile1 V c t x = gates1 V c ((Rect.unit (s := S32x16384) off S32x256.size inb).emb x) := by
  obtain ⟨h1, h2⟩ := tile_emb1 t off hoff inb x
  unfold gates1; rw [h1, h2]

/-- The scratch agrees with the gate pre-activations on the columns below `256 n`. -/
def agree1 (c : Dev nD) (n : ℕ) (s : Vec F S32x16384 .f32) : Prop :=
  ∀ y : S32x16384.Idx, (y 1).val < 256 * n → s y = gates1 V c y

/-- The region's invariant before point `n`: the scratch at contents that agree with the gate pre-activations on the
    columns the earlier points stored, the other scoped buffers and the generator register untouched. -/
def PhiS1 (c : Dev nD) (n : ℕ) : sProp 𝕄 :=
  iprop(((∃ s, owns (c : Thread nD τ) scM1 fullShare s ∗ ⌜agree1 V c n s⌝) ∗ restS1 (F := F) c) ∗ (∃ r, prngReg c r))

/-! ## The proof data -/

/-- After the body at any point each input's buffer holds its block; the outputs' buffers, stored only at the last
    point and written back only after it, hold the cell update of the whole gate array and the previous cell state. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => k1_pay3 (gates1 V c) (cb1 V c t)
    | ⟨8, _⟩ => k1_pay2 (gates1 V c) (cb1 V c t)
  Φ t := PhiS1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = k1_pay3 (gates1 V c) (cb1 V c t) := by dsimp only [dat1]
theorem after1_8 (c : Dev nD) (t : Fin cfg1.N) : (dat1 V c).after 8 t = k1_pay2 (gates1 V c) (cb1 V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The grid's closed forms -/

/-- The closing branch is taken at the last point only. -/
theorem hcond1 : ∀ t : Fin cfg1.N, k1_cond1 (grid1.coords t) = 1#1 ↔ t.val = 63 :=
  (by decide +kernel : ∀ t : Fin grid1.N, k1_cond1 (grid1.coords t) = 1#1 ↔ t.val = 63)
/-- The grid is one axis: a point's coordinate is its position. -/
theorem coord1 : ∀ t : Fin cfg1.N, ((grid1.coords t) 0).val = t.val :=
  (by decide +kernel : ∀ t : Fin grid1.N, ((grid1.coords t) 0).val = t.val)
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem idleAt1_7 : ∀ t : Fin cfg1.N, ¬ k1_cond1 (grid1.coords t) = 1#1 → cfg1.idle 7 (grid1.coords t) = true := by decide +kernel
theorem idleAt1_8 : ∀ t : Fin cfg1.N, ¬ k1_cond1 (grid1.coords t) = 1#1 → cfg1.idle 8 (grid1.coords t) = true := by decide +kernel
theorem noFlush1_7 : ∀ t : Fin cfg1.N, ¬ k1_cond1 (grid1.coords t) = 1#1 → (cfg1.win 7).flush t = false := by decide +kernel
theorem noFlush1_8 : ∀ t : Fin cfg1.N, ¬ k1_cond1 (grid1.coords t) = 1#1 → (cfg1.win 8).flush t = false := by decide +kernel
theorem liveAt1_7 : ∀ t : Fin cfg1.N, k1_cond1 (grid1.coords t) = 1#1 → cfg1.idle 7 (grid1.coords t) = false := by decide +kernel
theorem liveAt1_8 : ∀ t : Fin cfg1.N, k1_cond1 (grid1.coords t) = 1#1 → cfg1.idle 8 (grid1.coords t) = false := by decide +kernel

/-- The tile's column offset at point `t`. -/
theorem off1_eq (t : Fin cfg1.N) : k1_off1 (grid1.coords t) = ![0, 256 * t.val] := by
  rw [k1_off1_eq, coord1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

/-- The scratch after point `t`'s store agrees with the gate array one tile further. -/
theorem agree_step1 (c : Dev nD) (t : Fin cfg1.N) (s : Vec F S32x16384 .f32) (hs : agree1 V c t.val s) :
    agree1 V c (t.val + 1) ((scM1).view.read (Elt F) ((scM1).view.writes (Elt F) ((Memref.isWhole_whole cc1_scratch0).unread s)
      [⟨Rect.unit (s := S32x16384) (k1_off1 (grid1.coords t)) S32x256.size (k1_off1_inb (grid1.coords t)), tile1 V c t⟩])) :=
  agree_store1 (scM1).view _ (gates1 V c) t.val _ (off1_eq t) _ _
    (fun y hy => by rw [(Memref.isWhole_whole cc1_scratch0).read_unread]; exact hs y hy)
    (fun x => gates_emb1 V c t _ (off1_eq t) _ x)

/-! ### The point's run, every argument named -/

abbrev ms1_0 (t : Fin cfg1.N) : Memref sig .tc .vmem S32x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x4096 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x4096 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S32x4096 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S32x4096 .f32 := win1_8.stage (cfg1.slots t 8)
abbrev hs1_8 (t : Fin cfg1.N) : (ms1_8 t).IsWhole := hstage1_8 ((cfg1.slots t 8).cast nbuf1_8)
abbrev hsc1 : (scM1).IsWhole := Memref.isWhole_whole cc1_scratch0

/-- The body's run at a point before the last, on the point's staging memrefs, input blocks and the scratch at `s`. -/
abbrev rA1 (c : Dev nD) (t : Fin cfg1.N) (hc : ¬ k1_cond1 (grid1.coords t) = 1#1) (s : Vec F S32x16384 .f32) :=
  kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 hsc1 hc (xb1 V c t) (hb1 V c t) (wb1 V c t) (vb1 V c t) (b51 V c t) (b61 V c t) s
/-- The body's run at the last point. -/
abbrev rB1 (c : Dev nD) (t : Fin cfg1.N) (hc : k1_cond1 (grid1.coords t) = 1#1) (s : Vec F S32x16384 .f32) :=
  kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 hsc1 hc (xb1 V c t) (hb1 V c t) (cb1 V c t) (wb1 V c t) (vb1 V c t) (b51 V c t) (b61 V c t) s

theorem rA1_LS (c : Dev nD) (t : Fin cfg1.N) (hc : ¬ k1_cond1 (grid1.coords t) = 1#1) (s : Vec F S32x16384 .f32) :
    (rA1 V c t hc s).1 = [⟨Rect.unit (s := S32x16384) (k1_off1 (grid1.coords t)) S32x256.size (k1_off1_inb (grid1.coords t)), tile1 V c t⟩] :=
  LS1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 hsc1 hc (xb1 V c t) (hb1 V c t) (wb1 V c t) (vb1 V c t) (b51 V c t) (b61 V c t) s
theorem rB1_LS (c : Dev nD) (t : Fin cfg1.N) (hc : k1_cond1 (grid1.coords t) = 1#1) (s : Vec F S32x16384 .f32) :
    (rB1 V c t hc s).2.2.1 = [⟨Rect.unit (s := S32x16384) (k1_off1 (grid1.coords t)) S32x256.size (k1_off1_inb (grid1.coords t)), tile1 V c t⟩] :=
  LS1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 hsc1 hc (xb1 V c t) (hb1 V c t) (cb1 V c t) (wb1 V c t) (vb1 V c t) (b51 V c t) (b61 V c t) s
theorem rB1_L8 (c : Dev nD) (t : Fin cfg1.N) (hc : k1_cond1 (grid1.coords t) = 1#1) (s : Vec F S32x16384 .f32) :
    (rB1 V c t hc s).1 = [⟨Rect.unit (s := S32x4096) ![0, 0] S32x4096.size inb_S32x4096_S32x4096_0_0,
      k1_pay3 ((scM1).view.read (Elt F) ((scM1).view.writes (Elt F) (hsc1.unread s) [⟨Rect.unit (s := S32x16384) (k1_off1 (grid1.coords t)) S32x256.size (k1_off1_inb (grid1.coords t)), tile1 V c t⟩])) (cb1 V c t)⟩] :=
  L81_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 hsc1 hc (xb1 V c t) (hb1 V c t) (cb1 V c t) (wb1 V c t) (vb1 V c t) (b51 V c t) (b61 V c t) s
theorem rB1_L9 (c : Dev nD) (t : Fin cfg1.N) (hc : k1_cond1 (grid1.coords t) = 1#1) (s : Vec F S32x16384 .f32) :
    (rB1 V c t hc s).2.1 = [⟨Rect.unit (s := S32x4096) ![0, 0] S32x4096.size inb_S32x4096_S32x4096_0_0,
      k1_pay2 ((scM1).view.read (Elt F) ((scM1).view.writes (Elt F) (hsc1.unread s) [⟨Rect.unit (s := S32x16384) (k1_off1 (grid1.coords t)) S32x256.size (k1_off1_inb (grid1.coords t)), tile1 V c t⟩])) (cb1 V c t)⟩] :=
  L91_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 hsc1 hc (xb1 V c t) (hb1 V c t) (cb1 V c t) (wb1 V c t) (vb1 V c t) (b51 V c t) (b61 V c t) s

/-- The scratch after the point's store agrees with the gate array one tile further. -/
theorem rA1_scr (c : Dev nD) (t : Fin cfg1.N) (hc : ¬ k1_cond1 (grid1.coords t) = 1#1) (s : Vec F S32x16384 .f32) (hs : agree1 V c t.val s) :
    agree1 V c (t.val + 1) ((scM1).view.read (Elt F) ((scM1).view.writes (Elt F) (hsc1.unread s) (rA1 V c t hc s).1)) := by
  rw [rA1_LS V c t hc s]; exact agree_step1 V c t s hs
theorem rB1_scr (c : Dev nD) (t : Fin cfg1.N) (hc : k1_cond1 (grid1.coords t) = 1#1) (s : Vec F S32x16384 .f32) (hs : agree1 V c t.val s) :
    agree1 V c (t.val + 1) ((scM1).view.read (Elt F) ((scM1).view.writes (Elt F) (hsc1.unread s) (rB1 V c t hc s).2.2.1)) := by
  rw [rB1_LS V c t hc s]; exact agree_step1 V c t s hs

/-- After the last point's store the scratch is the whole gate array. -/
theorem full1 (c : Dev nD) (t : Fin cfg1.N) (ht : t.val = 63) (s : Vec F S32x16384 .f32) (hs : agree1 V c t.val s) :
    (scM1).view.read (Elt F) ((scM1).view.writes (Elt F) (hsc1.unread s) [⟨Rect.unit (s := S32x16384) (k1_off1 (grid1.coords t)) S32x256.size (k1_off1_inb (grid1.coords t)), tile1 V c t⟩]) = gates1 V c :=
  funext fun y => agree_step1 V c t s hs y (by have h : (y 1).val < 16384 := (y 1).isLt; omega)

/-- What the last point leaves in the new hidden state's buffer, whatever it held. -/
theorem rB1_out7 (c : Dev nD) (t : Fin cfg1.N) (hc : k1_cond1 (grid1.coords t) = 1#1) (s : Vec F S32x16384 .f32) (hs : agree1 V c t.val s)
    (f : (ms1_7 t).view.ty.Contents (Elt F)) :
    (ms1_7 t).view.read (Elt F) ((ms1_7 t).view.writes (Elt F) f (rB1 V c t hc s).1) = k1_pay3 (gates1 V c) (cb1 V c t) := by
  rw [rB1_L8 V c t hc s, read_store_whole1 _ _ hzz1, full1 V c t ((hcond1 t).mp hc) s hs]
/-- And in the new cell state's. -/
theorem rB1_out8 (c : Dev nD) (t : Fin cfg1.N) (hc : k1_cond1 (grid1.coords t) = 1#1) (s : Vec F S32x16384 .f32) (hs : agree1 V c t.val s)
    (f : (ms1_8 t).view.ty.Contents (Elt F)) :
    (ms1_8 t).view.read (Elt F) ((ms1_8 t).view.writes (Elt F) f (rB1 V c t hc s).2.1) = k1_pay2 (gates1 V c) (cb1 V c t) := by
  rw [rB1_L9 V c t hc s, read_store_whole1 _ _ hzz1, full1 V c t ((hcond1 t).mp hc) s hs]

/-! ### The body at a point -/

set_option maxHeartbeats 1000000 in
/-- At the last point. -/
theorem sound_body1_last (c : Dev nD) (t : Fin cfg1.N) (hc : k1_cond1 (grid1.coords t) = 1#1) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) from rfl, show (dat1 V c).Φ t.castSucc = PhiS1 V c t.val from rfl]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  rw [show (dat1 V c).leavesExact 6 t = owns (c : Thread nD τ) (st1_6 t) fullShare ((dat1 V c).after 6 t) from by
    unfold Dat.leavesExact; rw [liveAt1_6 t], after1_6]
  rw [show (dat1 V c).leavesExact 7 t = owns (c : Thread nD τ) (st1_7 t) fullShare ((dat1 V c).after 7 t) from by
    unfold Dat.leavesExact; rw [liveAt1_7 t hc], after1_7]
  rw [show (dat1 V c).leavesExact 8 t = owns (c : Thread nD τ) (st1_8 t) fullShare ((dat1 V c).after 8 t) from by
    unfold Dat.leavesExact; rw [liveAt1_8 t hc], after1_8]
  unfold PhiS1
  iintro ⟨⟨⟨⟨%s, HS, %hs⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((rB1 V c t hc s).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS]; · iexact HS
  iintro ⟨H0, H1, H2, H3, H4, H5, H6, ⟨%f7, H7⟩, ⟨%f8, H8⟩, HS⟩
  isplitl [HS Hrest Hg]
  · isplitl [HS Hrest]
    · isplitl [HS]
      · iexists ((scM1).view.read (Elt F) ((scM1).view.writes (Elt F) (hsc1.unread s) (rB1 V c t hc s).2.2.1)); isplitl [HS]
        · unfold owns; iexists ((scM1).view.writes (Elt F) (hsc1.unread s) (rB1 V c t hc s).2.2.1); isplitr; · ipureintro; rfl
          iexact HS
        · ipureintro; exact rB1_scr V c t hc s hs
      · iexact Hrest
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact rB1_out7 V c t hc s hs f7
  · unfold owns; iexists _; isplitr
    swap; · iexact H8
    ipureintro; exact rB1_out8 V c t hc s hs f8

set_option maxHeartbeats 1000000 in
/-- At any earlier point. -/
theorem sound_body1_mid (c : Dev nD) (t : Fin cfg1.N) (hc : ¬ k1_cond1 (grid1.coords t) = 1#1) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) from rfl, show (dat1 V c).Φ t.castSucc = PhiS1 V c t.val from rfl]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  rw [show (dat1 V c).leavesExact 6 t = owns (c : Thread nD τ) (st1_6 t) fullShare ((dat1 V c).after 6 t) from by
    unfold Dat.leavesExact; rw [liveAt1_6 t], after1_6]
  rw [Dat.leavesExact_idle (dat1 V c) 7 t (idleAt1_7 t hc) (noFlush1_7 t hc)]
  rw [Dat.leavesExact_idle (dat1 V c) 8 t (idleAt1_8 t hc) (noFlush1_8 t hc)]
  unfold PhiS1
  iintro ⟨⟨⟨⟨%s, HS, %hs⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((rA1 V c t hc s).2 Set.univ _)
  isplitl [H0]; · iexact H0
  isplitl [H1]; · iexact H1
  isplitl [H3]; · iexact H3
  isplitl [H4]; · iexact H4
  isplitl [H5]; · iexact H5
  isplitl [H6]; · iexact H6
  isplitl [HS]; · iexact HS
  iintro ⟨H0, H1, H3, H4, H5, H6, HS⟩
  isplitl [HS Hrest Hg]
  · isplitl [HS Hrest]
    · isplitl [HS]
      · iexists ((scM1).view.read (Elt F) ((scM1).view.writes (Elt F) (hsc1.unread s) (rA1 V c t hc s).1)); isplitl [HS]
        · unfold owns; iexists ((scM1).view.writes (Elt F) (hsc1.unread s) (rA1 V c t hc s).1); isplitr; · ipureintro; rfl
          iexact HS
        · ipureintro; exact rA1_scr V c t hc s hs
      · iexact Hrest
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iexists _; iexact H8

theorem sound_body1 (c : Dev nD) (t : Fin cfg1.N) :
    bodyPre1 V c t ⊢ wp frame (wpE (defs₀ (F := F)) Variants.none c none) Set.univ (bodyAt1 t) (fun _ => bodyPost1 V c t) := by
  by_cases hc : k1_cond1 (grid1.coords t) = 1#1
  · exact sound_body1_last V c t hc
  · exact sound_body1_mid V c t hc

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Entry and exit -/

/-- What the launch hands the region is the invariant before the first point: no column is stored yet. -/
theorem hin1 (c : Dev nD) : (Pipeline.ΦA spec1 c : sProp 𝕄) ⊢ (dat1 V c).Φ 0 := by
  rw [show (dat1 V c).Φ 0 = PhiS1 V c 0 from rfl, PhiA1_eq]; unfold PhiS1
  iintro ⟨⟨⟨%d, HS⟩, Hrest⟩, Hg⟩
  isplitl [HS Hrest]
  · isplitl [HS]
    · iexists d; isplitl [HS]; · iexact HS
      ipureintro; intro y hy; exact absurd hy (by omega)
    · iexact Hrest
  · iexact Hg

/-- After the last point the invariant gives the launch's back: the scratch's contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val from rfl, PhiA1_eq]; unfold PhiS1
  iintro ⟨⟨⟨%s, HS, -⟩, Hrest⟩, Hg⟩
  isplitl [HS Hrest]
  · isplitl [HS]
    · iexists s; iexact HS
    · iexact Hrest
  · iexact Hg

end Cert.KernelIdeal.Body

end
-- ==== Proof.KI.Whole.lean ====
/-
  The whole run of @main: host operations that slice the per-layer arguments, the first cell's region, the same for
  the second layer, the second cell's region (its input the first's new hidden state), and the host operations that
  stack the four results. The buffer contents at every boundary are a fold from the launch memory; every weakly
  fair execution terminates with every unscoped buffer at the last boundary's contents.
-/
import proofs.«127548_j17918603559185_1_alg».proof.Proof.Gen.KernelIdeal.Launch
import proofs.«127548_j17918603559185_1_alg».proof.Proof.Gen.KernelIdeal.Regions
import proofs.«127548_j17918603559185_1_alg».proof.Proof.KI.Body0
import proofs.«127548_j17918603559185_1_alg».proof.Proof.KI.Body1
import proofs.«127548_j17918603559185_1_alg».proof.Proof.Gen.KernelIdeal.Skeleton
import proofs.«127548_j17918603559185_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the first stretch of host operations (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second stretch (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the last stretch: the end. -/
abbrev W5 : Dev nD → Valuation τ sig (Elt F) := fun c => StableHlo.after hostOps2 (W4 m c)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (r := main_arg0) (by decide)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (r := main_arg1) (by decide)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (r := main_arg2) (by decide)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (r := main_arg3) (by decide)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl
theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (r := main_arg4) (by decide)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl
theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_writes_sub hostOps2 _ hostOps2_writes (r := main_arg5) (by decide)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl
theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_writes_sub hostOps2 _ hostOps2_writes (r := main_arg6) (by decide)
    _ = W3 m c (Proc.devRef .tc main_arg6) := W4_of_ne m c main_arg6 (by decide)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered with every unscoped buffer at the contents before it, left with the
    region's arrays at what its write-backs leave and every other buffer as entered. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m) c
    unfold Pipeline.ΦA at h
    rw [show (pdats m 0 c).Φ 0 = (dat0 (V1 m) c).Φ 0 from rfl]
    iintro ⟨Hp, -, Hr⟩
    iapply h
    isplitl [Hr]; · iexact Hr
    iexact Hp
  hout c := by
    rw [Pipeline.ownSems0_none]
    have h := hout0 (V1 m) c
    unfold Pipeline.ΦA at h
    rw [show (pdats m 0 c).Φ (Fin.last _) = (dat0 (V1 m) c).Φ (Fin.last cfg0.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with the
    region's arrays at what its write-backs leave and every other buffer as entered. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V3 m) c
    unfold Pipeline.ΦA at h
    rw [show (pdats m 1 c).Φ 0 = (dat1 (V3 m) c).Φ 0 from rfl]
    iintro ⟨Hp, -, Hr⟩
    iapply h
    isplitl [Hr]; · iexact Hr
    iexact Hp
  hout c := by
    rw [Pipeline.ownSems0_none]
    have h := hout1 (V3 m) c
    unfold Pipeline.ΦA at h
    rw [show (pdats m 1 c).Φ (Fin.last _) = (dat1 (V3 m) c).Φ (Fin.last cfg1.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- Every weakly fair execution of @main from memory `m` with zero counters terminates, nothing faulting, with every
    unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
    (h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c)⟩) (run_all m ρ)

end Cert.KernelIdeal.Body

end
-- ==== Proof.RefSpec.lean ====
/-
  The reference's result, named layer by layer. One LSTM cell: the gate pre-activations
  `x·W_ihᵀ + b_ih + h·W_hhᵀ + b_hh` over f32[32, 16384]; the four gates are its column quarters (input, forget,
  cell, output); `c' = σ(f)·c + σ(i)·tanh(g)`, `h' = σ(o)·tanh(c')`, with `σ(z) = 1 / (1 + e^(-z))` spelt out as the
  reference spells it. Two cells are stacked (the second's input is the first's `h'`), and the result stacks
  `[[h'₁, h'₂], [c'₁, c'₂]]`.
-/
import proofs.«127548_j17918603559185_1_alg».proof.Proof.Gen.ReferenceIdeal
import Idealize.ShloMosaic.PureOps.Ideal

noncomputable section

namespace Cert.ReferenceIdeal.RefValue

open Cert.ReferenceIdeal Cert.ReferenceIdeal.Gen Idealize.ShloMosaic Idealize.ShloMosaic.TcCoe

variable {F : FTy → Type} [FloatOps F]

/-- The array of ones. -/
def ones : Vec F S32x4096 .f32 := broadcastInDim S32x4096 ![] bcast_S_S32x4096 (constant S_ .f32 0x3F800000#32)

/-- The logistic function as the reference spells it: `1 / (1 + e^(-z))`. -/
def sigm (z : Vec F S32x4096 .f32) : Vec F S32x4096 .f32 := Host.divf ones (addf ones (Host.exp (Host.negf z)))

/-- A bias row along every batch row. -/
def biasRows (b : Vec F S16384 .f32) : Vec F S32x16384 .f32 :=
  broadcastInDim S32x16384 ![0, 1] bcast_S1x16384_S32x16384_0_1 (broadcastInDim S1x16384 ![1] bcast_S16384_S1x16384_1 b)

/-- `a · Wᵀ`: the batch rows against the rows of a weight matrix. -/
def proj (a : Vec F S32x4096 .f32) (w : Vec F S16384x4096 .f32) : Vec F S32x16384 .f32 :=
  Host.dotGeneral dot_S32x4096_S4096x16384_S32x16384_1_0_0_1_n_n none a (transpose S4096x16384 [1, 0] w transposes_S16384x4096_S4096x16384_1_0)

/-- The gate pre-activations `((x·W_ihᵀ + b_ih) + h·W_hhᵀ) + b_hh`. -/
def gates (x h : Vec F S32x4096 .f32) (wih whh : Vec F S16384x4096 .f32) (bi bh : Vec F S16384 .f32) : Vec F S32x16384 .f32 :=
  addf (addf (addf (proj x wih) (biasRows bi)) (proj h whh)) (biasRows bh)

/-- The four gates: column quarters of the pre-activations. -/
def gateI (g : Vec F S32x16384 .f32) : Vec F S32x4096 .f32 := extractStridedSlice S32x4096 ![0, 0] g slices_S32x16384_S32x4096_0_0
def gateF (g : Vec F S32x16384 .f32) : Vec F S32x4096 .f32 := extractStridedSlice S32x4096 ![0, 4096] g slices_S32x16384_S32x4096_0_4096
def gateG (g : Vec F S32x16384 .f32) : Vec F S32x4096 .f32 := extractStridedSlice S32x4096 ![0, 8192] g slices_S32x16384_S32x4096_0_8192
def gateO (g : Vec F S32x16384 .f32) : Vec F S32x4096 .f32 := extractStridedSlice S32x4096 ![0, 12288] g slices_S32x16384_S32x4096_0_12288

/-- The new cell state `σ(f)·c + σ(i)·tanh(g)`. -/
def cellC (g : Vec F S32x16384 .f32) (c : Vec F S32x4096 .f32) : Vec F S32x4096 .f32 :=
  addf (mulf (sigm (gateF g)) c) (mulf (sigm (gateI g)) (Host.tanh (gateG g)))

/-- The new hidden state `σ(o)·tanh(c')`. -/
def cellH (g : Vec F S32x16384 .f32) (c : Vec F S32x4096 .f32) : Vec F S32x4096 .f32 :=
  mulf (sigm (gateO g)) (Host.tanh (cellC g c))

/-- Layer `l`'s slice of a per-layer argument, as an array of its own. -/
def hc0 (a : Vec F S2x32x4096 .f32) : Vec F S32x4096 .f32 :=
  shapeCast S32x4096 (extractStridedSlice S1x32x4096 ![0, 0, 0] a slices_S2x32x4096_S1x32x4096_0_0_0) shapeCasts_S1x32x4096_S32x4096
def hc1 (a : Vec F S2x32x4096 .f32) : Vec F S32x4096 .f32 :=
  shapeCast S32x4096 (extractStridedSlice S1x32x4096 ![1, 0, 0] a slices_S2x32x4096_S1x32x4096_1_0_0) shapeCasts_S1x32x4096_S32x4096
def w0 (a : Vec F S2x16384x4096 .f32) : Vec F S16384x4096 .f32 :=
  shapeCast S16384x4096 (extractStridedSlice S1x16384x4096 ![0, 0, 0] a slices_S2x16384x4096_S1x16384x4096_0_0_0) shapeCasts_S1x16384x4096_S16384x4096
def w1 (a : Vec F S2x16384x4096 .f32) : Vec F S16384x4096 .f32 :=
  shapeCast S16384x4096 (extractStridedSlice S1x16384x4096 ![1, 0, 0] a slices_S2x16384x4096_S1x16384x4096_1_0_0) shapeCasts_S1x16384x4096_S16384x4096
def b0 (a : Vec F S2x16384 .f32) : Vec F S16384 .f32 :=
  shapeCast S16384 (extractStridedSlice S1x16384 ![0, 0] a slices_S2x16384_S1x16384_0_0) shapeCasts_S1x16384_S16384
def b1 (a : Vec F S2x16384 .f32) : Vec F S16384 .f32 :=
  shapeCast S16384 (extractStridedSlice S1x16384 ![1, 0] a slices_S2x16384_S1x16384_1_0) shapeCasts_S1x16384_S16384

/-- Two arrays stacked along a new leading axis. -/
def pair (a b : Vec F S32x4096 .f32) : Vec F S2x32x4096 .f32 :=
  concatenate S2x32x4096 0 [⟨S1x32x4096, broadcastInDim S1x32x4096 ![1, 2] bcast_S32x4096_S1x32x4096_1_2 a⟩,
    ⟨S1x32x4096, broadcastInDim S1x32x4096 ![1, 2] bcast_S32x4096_S1x32x4096_1_2 b⟩] concatenates_S1x32x4096_S1x32x4096_S2x32x4096_d0

/-- The result `[[h'₁, h'₂], [c'₁, c'₂]]`. -/
def stack (h1 h2 c1 c2 : Vec F S32x4096 .f32) : Vec F S2x2x32x4096 .f32 :=
  concatenate S2x2x32x4096 0 [⟨S1x2x32x4096, broadcastInDim S1x2x32x4096 ![1, 2, 3] bcast_S2x32x4096_S1x2x32x4096_1_2_3 (pair h1 h2)⟩,
    ⟨S1x2x32x4096, broadcastInDim S1x2x32x4096 ![1, 2, 3] bcast_S2x32x4096_S1x2x32x4096_1_2_3 (pair c1 c2)⟩] concatenates_S1x2x32x4096_S1x2x32x4096_S2x2x32x4096_d0

/-- The first cell's gate pre-activations, new hidden and new cell state, from the arguments. -/
def g1 (x : Vec F S32x4096 .f32) (ph : Vec F S2x32x4096 .f32) (wih whh : Vec F S2x16384x4096 .f32) (bi bh : Vec F S2x16384 .f32) : Vec F S32x16384 .f32 :=
  gates x (hc0 ph) (w0 wih) (w0 whh) (b0 bi) (b0 bh)
def h1 (x : Vec F S32x4096 .f32) (ph pc : Vec F S2x32x4096 .f32) (wih whh : Vec F S2x16384x4096 .f32) (bi bh : Vec F S2x16384 .f32) : Vec F S32x4096 .f32 :=
  cellH (g1 x ph wih whh bi bh) (hc0 pc)
def c1 (x : Vec F S32x4096 .f32) (ph pc : Vec F S2x32x4096 .f32) (wih whh : Vec F S2x16384x4096 .f32) (bi bh : Vec F S2x16384 .f32) : Vec F S32x4096 .f32 :=
  cellC (g1 x ph wih whh bi bh) (hc0 pc)
/-- The second cell's, its input the first's hidden state. -/
def g2 (x : Vec F S32x4096 .f32) (ph pc : Vec F S2x32x4096 .f32) (wih whh : Vec F S2x16384x4096 .f32) (bi bh : Vec F S2x16384 .f32) : Vec F S32x16384 .f32 :=
  gates (h1 x ph pc wih whh bi bh) (hc1 ph) (w1 wih) (w1 whh) (b1 bi) (b1 bh)
def h2 (x : Vec F S32x4096 .f32) (ph pc : Vec F S2x32x4096 .f32) (wih whh : Vec F S2x16384x4096 .f32) (bi bh : Vec F S2x16384 .f32) : Vec F S32x4096 .f32 :=
  cellH (g2 x ph pc wih whh bi bh) (hc1 pc)
def c2 (x : Vec F S32x4096 .f32) (ph pc : Vec F S2x32x4096 .f32) (wih whh : Vec F S2x16384x4096 .f32) (bi bh : Vec F S2x16384 .f32) : Vec F S32x4096 .f32 :=
  cellC (g2 x ph pc wih whh bi bh) (hc1 pc)

/-- The whole result as one function of the seven arguments. -/
def result (x : Vec F S32x4096 .f32) (ph pc : Vec F S2x32x4096 .f32) (wih whh : Vec F S2x16384x4096 .f32) (bi bh : Vec F S2x16384 .f32) : Vec F S2x2x32x4096 .f32 :=
  stack (h1 x ph pc wih whh bi bh) (h2 x ph pc wih whh bi bh) (c1 x ph pc wih whh bi bh) (c2 x ph pc wih whh bi bh)

end Cert.ReferenceIdeal.RefValue

end
-- ==== Proof.GatesAlg.lean ====
/-
  One tile of a layer's gate pre-activations, as the kernel computes it, is the reference's, entry by entry, at the
  exact instance (extended reals, every operation exact).

  Tile `t` of the kernel (of 64) holds the 256 rows `[256 t, 256 t + 256)` of each weight matrix and the same 256
  entries of each bias. With `n = 256 t + j`, both programs compute, at row `r` and column `n`,
  `Σₖ x[r,k]·W_ih[n,k]`, `Σₖ h[r,k]·W_hh[n,k]`, `b_ih[n]` and `b_hh[n]` and add them up: the kernel as
  `((xW + hW) + b_ih) + b_hh`, the reference as `((xW + b_ih) + hW) + b_hh`. Addition of extended reals is
  commutative and associative, so the two agree with no finiteness assumed.
  On the way: rounding an operand to bf16 is the identity at the exact instance; the kernel's block product into a zero
  accumulator contracts the last axis of both operands, so at `(r, j)` it is the sum over `k` of `a[r,k]·w[j,k]`; the
  reference's product of `a` against the transposed weight matrix is the same sum, the transpose read at `(k, n)`
  being the matrix at `(n, k)`; a bias row broadcast along the batch rows reads the bias at the column.
-/
import proofs.«127548_j17918603559185_1_alg».proof.Proof.RefSpec
import proofs.«127548_j17918603559185_1_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Mathlib.Algebra.Group.Basic
import Mathlib.Algebra.BigOperators.Group.Finset.Defs
import Mathlib.Algebra.BigOperators.Group.Finset.Basic

noncomputable section

namespace Cert.KernelIdeal.Alg

open Idealize.ShloMosaic Idealize.ShloMosaic.TcCoe Idealize.ShloMosaic.ValueIdx
open scoped BigOperators

/-! ## The kernel's block product at an entry

The dimension numbers contract axis 1 of both operands; the left operand's axis 0 is the result's axis 0 and the right
operand's axis 0 the result's axis 1. One lemma per operand axis, for any contraction index. -/

theorem lhs_tile_0 (i : S32x256.Idx) (q : dot_S32x4096_S256x4096_S32x256_1_1_0_0_n_n.contr.Idx) :
    (dot_S32x4096_S256x4096_S32x256_1_1_0_0_n_n.lhsIdx i q 0).val = (i 0).val := by
  unfold DotDims.lhsIdx
  rw [dif_neg (show ¬(0 : Fin S32x4096.rank) ∈ dot_S32x4096_S256x4096_S32x256_1_1_0_0_n_n.lhsBatch by decide),
    dif_pos (show (0 : Fin S32x4096.rank) ∈ dot_S32x4096_S256x4096_S32x256_1_1_0_0_n_n.lhsNonContracting by decide)]
  rfl

theorem lhs_tile_1 (i : S32x256.Idx) (q : dot_S32x4096_S256x4096_S32x256_1_1_0_0_n_n.contr.Idx) :
    (dot_S32x4096_S256x4096_S32x256_1_1_0_0_n_n.lhsIdx i q 1).val = (q ⟨0, by decide⟩).val :=
  dot_S32x4096_S256x4096_S32x256_1_1_0_0_n_n.lhsIdx_val_of_single rfl i q

theorem rhs_tile_0 (i : S32x256.Idx) (q : dot_S32x4096_S256x4096_S32x256_1_1_0_0_n_n.contr.Idx) :
    (dot_S32x4096_S256x4096_S32x256_1_1_0_0_n_n.rhsIdx i q 0).val = (i 1).val := by
  unfold DotDims.rhsIdx
  rw [dif_neg (show ¬(0 : Fin S256x4096.rank) ∈ dot_S32x4096_S256x4096_S32x256_1_1_0_0_n_n.rhsBatch by decide),
    dif_pos (show (0 : Fin S256x4096.rank) ∈ dot_S32x4096_S256x4096_S32x256_1_1_0_0_n_n.rhsNonContracting by decide)]
  rfl

theorem rhs_tile_1 (i : S32x256.Idx) (q : dot_S32x4096_S256x4096_S32x256_1_1_0_0_n_n.contr.Idx) :
    (dot_S32x4096_S256x4096_S32x256_1_1_0_0_n_n.rhsIdx i q 1).val = (q ⟨0, by decide⟩).val :=
  dot_S32x4096_S256x4096_S32x256_1_1_0_0_n_n.rhsIdx_val_of_single rfl i q

/-- The block product into a zero accumulator, at `(r, j)`: the sum over `k` of `a[r,k]·w[j,k]`. -/
theorem matmul_tile_apply (a : FVec Ideal S32x4096 .bf16) (w : FVec Ideal S256x4096 .bf16) (r : Fin 32) (j : Fin 256) :
    matmul dot_S32x4096_S256x4096_S32x256_1_1_0_0_n_n none a w (constant (F := Ideal) S32x256 .f32 0x00000000#32) (ix2 r j)
      = ∑ k : Fin 4096, a (ix2 r k) * w (ix2 j k) := by
  simp only [matmul]
  rw [Ideal.matmul_constant_zero_apply,
    ← Equiv.sum_comp (contrEquiv1 dot_S32x4096_S256x4096_S32x256_1_1_0_0_n_n 4096 rfl rfl).symm]
  refine Finset.sum_congr rfl fun k _ => ?_
  have hk := contrEquiv1_symm_val dot_S32x4096_S256x4096_S32x256_1_1_0_0_n_n 4096 rfl rfl k
  have el : dot_S32x4096_S256x4096_S32x256_1_1_0_0_n_n.lhsIdx (ix2 r j)
      ((contrEquiv1 dot_S32x4096_S256x4096_S32x256_1_1_0_0_n_n 4096 rfl rfl).symm k) = ix2 r k := funext fun ax => Fin.ext (by
    match ax with
    | ⟨0, _⟩ => exact lhs_tile_0 _ _
    | ⟨1, _⟩ => exact (lhs_tile_1 _ _).trans hk)
  have er : dot_S32x4096_S256x4096_S32x256_1_1_0_0_n_n.rhsIdx (ix2 r j)
      ((contrEquiv1 dot_S32x4096_S256x4096_S32x256_1_1_0_0_n_n 4096 rfl rfl).symm k) = ix2 j k := funext fun ax => Fin.ext (by
    match ax with
    | ⟨0, _⟩ => exact rhs_tile_0 _ _
    | ⟨1, _⟩ => exact (rhs_tile_1 _ _).trans hk)
  rw [el, er]

/-! ## The reference's product at an entry

The dimension numbers contract the left operand's axis 1 with the right operand's axis 0; the right operand is the
transposed weight matrix. -/

theorem lhs_proj_0 (i : Cert.ReferenceIdeal.S32x16384.Idx) (q : Cert.ReferenceIdeal.dot_S32x4096_S4096x16384_S32x16384_1_0_0_1_n_n.contr.Idx) :
    (Cert.ReferenceIdeal.dot_S32x4096_S4096x16384_S32x16384_1_0_0_1_n_n.lhsIdx i q 0).val = (i 0).val := by
  unfold DotDims.lhsIdx
  rw [dif_neg (show ¬(0 : Fin Cert.ReferenceIdeal.S32x4096.rank) ∈ Cert.ReferenceIdeal.dot_S32x4096_S4096x16384_S32x16384_1_0_0_1_n_n.lhsBatch by decide),
    dif_pos (show (0 : Fin Cert.ReferenceIdeal.S32x4096.rank) ∈ Cert.ReferenceIdeal.dot_S32x4096_S4096x16384_S32x16384_1_0_0_1_n_n.lhsNonContracting by decide)]
  rfl

theorem lhs_proj_1 (i : Cert.ReferenceIdeal.S32x16384.Idx) (q : Cert.ReferenceIdeal.dot_S32x4096_S4096x16384_S32x16384_1_0_0_1_n_n.contr.Idx) :
    (Cert.ReferenceIdeal.dot_S32x4096_S4096x16384_S32x16384_1_0_0_1_n_n.lhsIdx i q 1).val = (q ⟨0, by decide⟩).val :=
  Cert.ReferenceIdeal.dot_S32x4096_S4096x16384_S32x16384_1_0_0_1_n_n.lhsIdx_val_of_single rfl i q

theorem rhs_proj_0 (i : Cert.ReferenceIdeal.S32x16384.Idx) (q : Cert.ReferenceIdeal.dot_S32x4096_S4096x16384_S32x16384_1_0_0_1_n_n.contr.Idx) :
    (Cert.ReferenceIdeal.dot_S32x4096_S4096x16384_S32x16384_1_0_0_1_n_n.rhsIdx i q 0).val = (q ⟨0, by decide⟩).val :=
  Cert.ReferenceIdeal.dot_S32x4096_S4096x16384_S32x16384_1_0_0_1_n_n.rhsIdx_val_of_single rfl i q

theorem rhs_proj_1 (i : Cert.ReferenceIdeal.S32x16384.Idx) (q : Cert.ReferenceIdeal.dot_S32x4096_S4096x16384_S32x16384_1_0_0_1_n_n.contr.Idx) :
    (Cert.ReferenceIdeal.dot_S32x4096_S4096x16384_S32x16384_1_0_0_1_n_n.rhsIdx i q 1).val = (i 1).val := by
  unfold DotDims.rhsIdx
  rw [dif_neg (show ¬(1 : Fin Cert.ReferenceIdeal.S4096x16384.rank) ∈ Cert.ReferenceIdeal.dot_S32x4096_S4096x16384_S32x16384_1_0_0_1_n_n.rhsBatch by decide),
    dif_pos (show (1 : Fin Cert.ReferenceIdeal.S4096x16384.rank) ∈ Cert.ReferenceIdeal.dot_S32x4096_S4096x16384_S32x16384_1_0_0_1_n_n.rhsNonContracting by decide)]
  rfl

/-- `a · Wᵀ` at `(r, n)`: the sum over `k` of `a[r,k]·W[n,k]`. -/
theorem proj_apply (a : Vec Ideal S32x4096 .f32) (w : Vec Ideal S16384x4096 .f32) (r : Fin 32) (n : Fin 16384) :
    Cert.ReferenceIdeal.RefValue.proj (F := Ideal) a w (ix2 r n) = ∑ k : Fin 4096, a (ix2 r k) * w (ix2 n k) := by
  unfold Cert.ReferenceIdeal.RefValue.proj
  simp only [Host.dotGeneral]
  rw [Ideal.dotGeneral_apply,
    ← Equiv.sum_comp (contrEquiv1 Cert.ReferenceIdeal.dot_S32x4096_S4096x16384_S32x16384_1_0_0_1_n_n 4096 rfl rfl).symm]
  refine Finset.sum_congr rfl fun k _ => ?_
  have hk := contrEquiv1_symm_val Cert.ReferenceIdeal.dot_S32x4096_S4096x16384_S32x16384_1_0_0_1_n_n 4096 rfl rfl k
  have el : Cert.ReferenceIdeal.dot_S32x4096_S4096x16384_S32x16384_1_0_0_1_n_n.lhsIdx (ix2 r n)
      ((contrEquiv1 Cert.ReferenceIdeal.dot_S32x4096_S4096x16384_S32x16384_1_0_0_1_n_n 4096 rfl rfl).symm k) = ix2 r k := funext fun ax => Fin.ext (by
    match ax with
    | ⟨0, _⟩ => exact lhs_proj_0 _ _
    | ⟨1, _⟩ => exact (lhs_proj_1 _ _).trans hk)
  have er : Cert.ReferenceIdeal.dot_S32x4096_S4096x16384_S32x16384_1_0_0_1_n_n.rhsIdx (ix2 r n)
      ((contrEquiv1 Cert.ReferenceIdeal.dot_S32x4096_S4096x16384_S32x16384_1_0_0_1_n_n 4096 rfl rfl).symm k) = ix2 k n := funext fun ax => Fin.ext (by
    match ax with
    | ⟨0, _⟩ => exact (rhs_proj_0 _ _).trans hk
    | ⟨1, _⟩ => exact rhs_proj_1 _ _)
  rw [el, er, transpose_ix2_apply]

/-- A bias row along every batch row, at `(r, n)`: the bias at `n`. -/
theorem biasRows_apply (b : Vec Ideal S16384 .f32) (r : Fin 32) (n : Fin 16384) :
    Cert.ReferenceIdeal.RefValue.biasRows (F := Ideal) b (ix2 r n) = b (ix1 n) := by
  unfold Cert.ReferenceIdeal.RefValue.biasRows
  refine (broadcastInDim_apply _ _ _ (ix2 r n) (ix2 (0 : Fin 1) n) fun ax => ?_).trans
    (broadcastInDim_apply _ _ _ (ix2 (0 : Fin 1) n) (ix1 n) fun ax => ?_)
  · match ax with
    | ⟨0, _⟩ => rfl
    | ⟨1, _⟩ => rfl
  · match ax with
    | ⟨0, _⟩ => rfl

/-- The reference's pre-activations at `(r, n)`. -/
theorem gates_apply (x h : Vec Ideal S32x4096 .f32) (wih whh : Vec Ideal S16384x4096 .f32) (bi bh : Vec Ideal S16384 .f32)
    (r : Fin 32) (n : Fin 16384) :
    Cert.ReferenceIdeal.RefValue.gates (F := Ideal) x h wih whh bi bh (ix2 r n)
      = (((∑ k : Fin 4096, x (ix2 r k) * wih (ix2 n k)) + bi (ix1 n))
          + ∑ k : Fin 4096, h (ix2 r k) * whh (ix2 n k)) + bh (ix1 n) := by
  unfold Cert.ReferenceIdeal.RefValue.gates
  rw [addf_apply, addf_apply, addf_apply, proj_apply, proj_apply, biasRows_apply, biasRows_apply]

/-! ## The kernels' tiles at an entry -/

/-- Layer 1's tile at `(r, j)`, over the blocks the tile holds. -/
theorem pay1_0_apply (x h : Vec Ideal S32x4096 .f32) (wb vb : Vec Ideal S256x4096 .f32) (b5 b6 : Vec Ideal S1x256 .f32)
    (r : Fin 32) (j : Fin 256) :
    Cert.KernelIdeal.Gen.k0_pay1 (F := Ideal) x h wb vb b5 b6 (ix2 r j)
      = (((∑ k : Fin 4096, x (ix2 r k) * wb (ix2 j k)) + ∑ k : Fin 4096, h (ix2 r k) * vb (ix2 j k))
          + b5 (ix2 (0 : Fin 1) j)) + b6 (ix2 (0 : Fin 1) j) := by
  unfold Cert.KernelIdeal.Gen.k0_pay1
  simp only [shapeCast_self]
  rw [addf_apply, addf_apply, addf_apply, matmul_tile_apply, matmul_tile_apply, broadcastTo_1b_ab_apply,
    broadcastTo_1b_ab_apply]
  rfl

/-- Layer 2's tile at `(r, j)`. -/
theorem pay1_1_apply (x h : Vec Ideal S32x4096 .f32) (wb vb : Vec Ideal S256x4096 .f32) (b5 b6 : Vec Ideal S1x256 .f32)
    (r : Fin 32) (j : Fin 256) :
    Cert.KernelIdeal.Gen.k1_pay1 (F := Ideal) x h wb vb b5 b6 (ix2 r j)
      = (((∑ k : Fin 4096, x (ix2 r k) * wb (ix2 j k)) + ∑ k : Fin 4096, h (ix2 r k) * vb (ix2 j k))
          + b5 (ix2 (0 : Fin 1) j)) + b6 (ix2 (0 : Fin 1) j) := by
  unfold Cert.KernelIdeal.Gen.k1_pay1
  simp only [shapeCast_self]
  rw [addf_apply, addf_apply, addf_apply, matmul_tile_apply, matmul_tile_apply, broadcastTo_1b_ab_apply,
    broadcastTo_1b_ab_apply]
  rfl

/-! ## A tile is the reference's columns `[256 t, 256 t + 256)` -/

/-- Layer 1. -/
theorem pay1_0 (x h : Vec Ideal S32x4096 .f32) (wih whh : Vec Ideal S16384x4096 .f32) (bi bh : Vec Ideal S16384 .f32) (t : Fin 64)
    (wb vb : Vec Ideal S256x4096 .f32) (b5 b6 : Vec Ideal S1x256 .f32)
    (hw : ∀ (j : Fin 256) (k : Fin 4096), wb (ix2 j k) = wih (ix2 ⟨256 * t.val + j.val, by omega⟩ k))
    (hv : ∀ (j : Fin 256) (k : Fin 4096), vb (ix2 j k) = whh (ix2 ⟨256 * t.val + j.val, by omega⟩ k))
    (h5 : ∀ j : Fin 256, b5 (ix2 (0 : Fin 1) j) = bi (ix1 ⟨256 * t.val + j.val, by omega⟩))
    (h6 : ∀ j : Fin 256, b6 (ix2 (0 : Fin 1) j) = bh (ix1 ⟨256 * t.val + j.val, by omega⟩))
    (r : Fin 32) (j : Fin 256) :
    Cert.KernelIdeal.Gen.k0_pay1 (F := Ideal) x h wb vb b5 b6 (ix2 r j)
      = Cert.ReferenceIdeal.RefValue.gates (F := Ideal) x h wih whh bi bh (ix2 r ⟨256 * t.val + j.val, by omega⟩) := by
  rw [pay1_0_apply, gates_apply]
  simp only [hw, hv, h5, h6]
  rw [add_right_comm (∑ k : Fin 4096, x (ix2 r k) * wih (ix2 ⟨256 * t.val + j.val, by omega⟩ k))]

/-- Layer 2. -/
theorem pay1_1 (x h : Vec Ideal S32x4096 .f32) (wih whh : Vec Ideal S16384x4096 .f32) (bi bh : Vec Ideal S16384 .f32) (t : Fin 64)
    (wb vb : Vec Ideal S256x4096 .f32) (b5 b6 : Vec Ideal S1x256 .f32)
    (hw : ∀ (j : Fin 256) (k : Fin 4096), wb (ix2 j k) = wih (ix2 ⟨256 * t.val + j.val, by omega⟩ k))
    (hv : ∀ (j : Fin 256) (k : Fin 4096), vb (ix2 j k) = whh (ix2 ⟨256 * t.val + j.val, by omega⟩ k))
    (h5 : ∀ j : Fin 256, b5 (ix2 (0 : Fin 1) j) = bi (ix1 ⟨256 * t.val + j.val, by omega⟩))
    (h6 : ∀ j : Fin 256, b6 (ix2 (0 : Fin 1) j) = bh (ix1 ⟨256 * t.val + j.val, by omega⟩))
    (r : Fin 32) (j : Fin 256) :
    Cert.KernelIdeal.Gen.k1_pay1 (F := Ideal) x h wb vb b5 b6 (ix2 r j)
      = Cert.ReferenceIdeal.RefValue.gates (F := Ideal) x h wih whh bi bh (ix2 r ⟨256 * t.val + j.val, by omega⟩) := by
  rw [pay1_1_apply, gates_apply]
  simp only [hw, hv, h5, h6]
  rw [add_right_comm (∑ k : Fin 4096, x (ix2 r k) * wih (ix2 ⟨256 * t.val + j.val, by omega⟩ k))]

end Cert.KernelIdeal.Alg

end
-- ==== Proof.CellAlg.lean ====
/-
  The cell update of each layer's kernel is the reference's, as whole arrays, at the exact instance (extended
  reals, every operation exact).

  The kernel computes `c' = σ(f)·c + σ(i)·tanh(g)` and `h' = σ(o)·tanh(c')` with the logistic function `σ` as one
  operation; the reference spells `σ(z) = 1 / (1 + e^(-z))` with a quotient of arrays against the array of ones. At the
  exact instance the logistic operation IS `1 / (1 + e^(-z))` by definition, the word `0x3F800000` is the extended real
  one, the host's quotient, exponential, negation and hyperbolic tangent are the kernel's, and the four gates are the
  same column quarters of the pre-activations on both sides (the two programs' slices differ only in the evidence that
  the quarter lies inside the array). So, entry by entry, both sides are one expression of the extended reals.
  The two layers' kernels have the same cell update, so each statement is proved twice, once per kernel.
-/
import proofs.«127548_j17918603559185_1_alg».proof.Proof.RefSpec
import proofs.«127548_j17918603559185_1_alg».proof.Proof.Gen.KernelIdeal.Skeleton
import Idealize.ShloMosaic.PureOps.Ideal
import Idealize.ShloMosaic.Lib.IdealHost
import Idealize.ShloMosaic.Lib.Pipeline.Value

noncomputable section

namespace Cert.KernelIdeal.Alg

open Idealize.ShloMosaic Idealize.ShloMosaic.TcCoe

/-- Layer 1's new cell state: `σ(f)·c + σ(i)·tanh(g)` on both sides. -/
theorem pay2_0 (g : Vec Ideal S32x16384 .f32) (c : Vec Ideal S32x4096 .f32) :
    Cert.KernelIdeal.Gen.k0_pay2 (F := Ideal) g c = Cert.ReferenceIdeal.RefValue.cellC (F := Ideal) g c := by
  funext i
  simp only [Cert.KernelIdeal.Gen.k0_pay2, Cert.ReferenceIdeal.RefValue.cellC, Cert.ReferenceIdeal.RefValue.sigm,
    Cert.ReferenceIdeal.RefValue.ones, Cert.ReferenceIdeal.RefValue.gateI, Cert.ReferenceIdeal.RefValue.gateF,
    Cert.ReferenceIdeal.RefValue.gateG, addf, mulf, logistic, tanh, Host.tanh, Host.divf, Host.exp, Host.negf,
    broadcastInDim, constant, shapeCast_self, Ideal.logistic_def, Ideal.logistic, Ideal.tanh_def,
    Ideal.hostUnary_tanh_def, Ideal.hostDivf_def, Ideal.hostUnary_exp_def, Ideal.exp_def, Ideal.hostNegf_def,
    Ideal.negf_def, Ideal.addf_def, Ideal.mulf_def, Ideal.ofBits_def, Ideal.ofBits_one_f32]

/-- Layer 1's new hidden state: `σ(o)·tanh(c')` on both sides, `c'` the new cell state above. -/
theorem pay3_0 (g : Vec Ideal S32x16384 .f32) (c : Vec Ideal S32x4096 .f32) :
    Cert.KernelIdeal.Gen.k0_pay3 (F := Ideal) g c = Cert.ReferenceIdeal.RefValue.cellH (F := Ideal) g c := by
  funext i
  simp only [Cert.KernelIdeal.Gen.k0_pay3, pay2_0, Cert.ReferenceIdeal.RefValue.cellH, Cert.ReferenceIdeal.RefValue.sigm,
    Cert.ReferenceIdeal.RefValue.ones, Cert.ReferenceIdeal.RefValue.gateO, addf, mulf, logistic, tanh, Host.tanh,
    Host.divf, Host.exp, Host.negf, broadcastInDim, constant, Ideal.logistic_def, Ideal.logistic, Ideal.tanh_def,
    Ideal.hostUnary_tanh_def, Ideal.hostDivf_def, Ideal.hostUnary_exp_def, Ideal.exp_def, Ideal.hostNegf_def,
    Ideal.negf_def, Ideal.addf_def, Ideal.mulf_def, Ideal.ofBits_def, Ideal.ofBits_one_f32]

/-- Layer 2's new cell state. -/
theorem pay2_1 (g : Vec Ideal S32x16384 .f32) (c : Vec Ideal S32x4096 .f32) :
    Cert.KernelIdeal.Gen.k1_pay2 (F := Ideal) g c = Cert.ReferenceIdeal.RefValue.cellC (F := Ideal) g c := by
  funext i
  simp only [Cert.KernelIdeal.Gen.k1_pay2, Cert.ReferenceIdeal.RefValue.cellC, Cert.ReferenceIdeal.RefValue.sigm,
    Cert.ReferenceIdeal.RefValue.ones, Cert.ReferenceIdeal.RefValue.gateI, Cert.ReferenceIdeal.RefValue.gateF,
    Cert.ReferenceIdeal.RefValue.gateG, addf, mulf, logistic, tanh, Host.tanh, Host.divf, Host.exp, Host.negf,
    broadcastInDim, constant, shapeCast_self, Ideal.logistic_def, Ideal.logistic, Ideal.tanh_def,
    Ideal.hostUnary_tanh_def, Ideal.hostDivf_def, Ideal.hostUnary_exp_def, Ideal.exp_def, Ideal.hostNegf_def,
    Ideal.negf_def, Ideal.addf_def, Ideal.mulf_def, Ideal.ofBits_def, Ideal.ofBits_one_f32]

/-- Layer 2's new hidden state. -/
theorem pay3_1 (g : Vec Ideal S32x16384 .f32) (c : Vec Ideal S32x4096 .f32) :
    Cert.KernelIdeal.Gen.k1_pay3 (F := Ideal) g c = Cert.ReferenceIdeal.RefValue.cellH (F := Ideal) g c := by
  funext i
  simp only [Cert.KernelIdeal.Gen.k1_pay3, pay2_1, Cert.ReferenceIdeal.RefValue.cellH, Cert.ReferenceIdeal.RefValue.sigm,
    Cert.ReferenceIdeal.RefValue.ones, Cert.ReferenceIdeal.RefValue.gateO, addf, mulf, logistic, tanh, Host.tanh,
    Host.divf, Host.exp, Host.negf, broadcastInDim, constant, Ideal.logistic_def, Ideal.logistic, Ideal.tanh_def,
    Ideal.hostUnary_tanh_def, Ideal.hostDivf_def, Ideal.hostUnary_exp_def, Ideal.exp_def, Ideal.hostNegf_def,
    Ideal.negf_def, Ideal.addf_def, Ideal.mulf_def, Ideal.ofBits_def, Ideal.ofBits_one_f32]

end Cert.KernelIdeal.Alg

end
-- ==== Proof.KI.Val0.lean ====
/-
  Region 0's value, read off its run at the entry contents `V`.

  The two outputs. Each output window's block is the whole array and is written back once, after the last point; what
  that write-back writes is what the last point's body left, the cell update of the whole gate array and the previous
  cell state; the previous cell state's block, read with block index `(0, 0)`, is the whole array. So after the region
  the new hidden state's array holds `σ(o)·tanh(c')` and the new cell state's `c' = σ(f)·c + σ(i)·tanh(g)` of the gate
  array and the entry contents of the previous cell state's array. This holds at every float instance.

  The gate array. Column `n` of the gate array is column `n mod 256` of tile `n / 256`; tile `t` is computed from the
  whole input and previous hidden state (block index `(0, 0)`), rows `[256 t, 256 t + 256)` of each weight matrix (block
  index `(t, 0)`: an element of a block sits in the array at block index × block size + its place in the block, on each
  axis) and entries `[256 t, 256 t + 256)` of each bias row (block index `(0, t)`). At the exact instance a tile is the
  reference's pre-activations at those columns, so the whole gate array is the reference's, and the two outputs are the
  reference's cell output and new cell state.
-/
import proofs.«127548_j17918603559185_1_alg».proof.Proof.KI.Body0
import proofs.«127548_j17918603559185_1_alg».proof.Proof.GatesAlg
import proofs.«127548_j17918603559185_1_alg».proof.Proof.CellAlg
import Idealize.ShloMosaic.Lib.Pipeline.Value
import Idealize.ShloMosaic.Lib.ValueIdx
import Idealize.ShloMosaic.Lib.ValueLayout

set_option maxRecDepth 16384

noncomputable section

namespace Cert.KernelIdeal.Body

open Idealize.ShloMosaic Idealize.ShloMosaic.TcCoe
open Idealize.SL.Sem
open Idealize.ShloMosaic.Pipeline (Dat Cfg Window)
open Cert.KernelIdeal Cert.KernelIdeal.Gen
open Idealize.ShloMosaic.ValueIdx

section AnyInstance

variable {F : FTy → Type} [FloatOps F]

variable (V : (c : Dev nD) → (b : Ref sig .tc) → Buf (Elt F) ((c : Thread nD τ).loc b))

/-! ## The block index of each window, decided once over the grid -/

theorem idx0_2 : ∀ t : Fin cfg0.N, (fun a => win0_2.index t a * S32x4096.size a) = fun _ => 0 :=
  (by decide +kernel : ∀ t : Fin grid0.N, (fun a => win0_2.index t a * S32x4096.size a) = fun _ => 0)

/-- The previous cell state's block is the whole array at every point. -/
theorem cb0_eq (c : Dev nD) (t : Fin cfg0.N) : cb0 V c t = V c (Pipeline.arrRef spec0 2) := by
  show iblk0 V c 2 t = _
  unfold iblk0
  exact Memref.read_access_unit_zero (Elt F) (Pipeline.arrRef spec0 2) (idx0_2 t) (fun a => by rw [congrFun (idx0_2 t) a]; simp) _

theorem idx0_7 : ∀ t : Fin cfg0.N, (fun a => win0_7.index t a * S32x4096.size a) = fun _ => 0 :=
  (by decide +kernel : ∀ t : Fin grid0.N, (fun a => win0_7.index t a * S32x4096.size a) = fun _ => 0)
theorem idx0_8 : ∀ t : Fin cfg0.N, (fun a => win0_8.index t a * S32x4096.size a) = fun _ => 0 :=
  (by decide +kernel : ∀ t : Fin grid0.N, (fun a => win0_8.index t a * S32x4096.size a) = fun _ => 0)

/-! ## The two outputs after the region

Each output's block is the whole array, written back once, after the last point; so the array ends at what that
write-back writes: the cell update of the whole gate array and the previous cell state. -/

/-- What a write-back of the new hidden state writes is the whole array's new contents, read through the block. -/
theorem flushed0_7 (c : Dev nD) (t : Fin cfg0.N) (hf : (cfg0.win 7).flush t = true) :
    (dat0 V c).flushed 7 t
      = ((cfg0.win 7).blk t).view.read (Elt F) (k0_pay3 (gates0 V c) (V c (Pipeline.arrRef spec0 2))) := by
  show (cfg0.win 7).cut (grid0.coords t) ((dat0 V c).after 7 t) = _
  rw [after0_7, cb0_eq]
  exact (Memref.read_access_unit_zero (Elt F) (Pipeline.arrRef spec0 7) (idx0_7 t)
    (fun a => by rw [congrFun (idx0_7 t) a]; simp) _).symm

theorem flushed0_8 (c : Dev nD) (t : Fin cfg0.N) (hf : (cfg0.win 8).flush t = true) :
    (dat0 V c).flushed 8 t
      = ((cfg0.win 8).blk t).view.read (Elt F) (k0_pay2 (gates0 V c) (V c (Pipeline.arrRef spec0 2))) := by
  show (cfg0.win 8).cut (grid0.coords t) ((dat0 V c).after 8 t) = _
  rw [after0_8, cb0_eq]
  exact (Memref.read_access_unit_zero (Elt F) (Pipeline.arrRef spec0 8) (idx0_8 t)
    (fun a => by rw [congrFun (idx0_8 t) a]; simp) _).symm

/-- The last point's block covers the new hidden state's array. -/
theorem cover0_7 (i : S32x4096.Idx) :
    ∃ t : Fin cfg0.N, (cfg0.win 7).flush t = true ∧ i ∈ ((cfg0.win 7).blk t).view.set := by
  have hN : (63 : ℕ) < cfg0.N := by rw [show cfg0.N = 64 from N_0]; omega
  refine ⟨⟨63, hN⟩, (flush0_7 _).mpr rfl, ?_⟩
  show i ∈ ((View.whole (Pipeline.arrRef spec0 7)).slice (win0_7.rect ⟨63, hN⟩)).set
  rw [View.set_slice_whole]
  exact View.mem_set_unit_zero (idx0_7 ⟨63, hN⟩) _ i

theorem cover0_8 (i : S32x4096.Idx) :
    ∃ t : Fin cfg0.N, (cfg0.win 8).flush t = true ∧ i ∈ ((cfg0.win 8).blk t).view.set := by
  have hN : (63 : ℕ) < cfg0.N := by rw [show cfg0.N = 64 from N_0]; omega
  refine ⟨⟨63, hN⟩, (flush0_8 _).mpr rfl, ?_⟩
  show i ∈ ((View.whole (Pipeline.arrRef spec0 8)).slice (win0_8.rect ⟨63, hN⟩)).set
  rw [View.set_slice_whole]
  exact View.mem_set_unit_zero (idx0_8 ⟨63, hN⟩) _ i

/-- The new hidden state's array after the region. -/
theorem out7_0 (c : Dev nD) :
    (dat0 V c).arrAt 7 cfg0.N = k0_pay3 (gates0 V c) (V c (Pipeline.arrRef spec0 2)) :=
  (dat0 V c).arrAt_eq_of_cover 7 _ (flushed0_7 V c) cover0_7

/-- The new cell state's array after the region. -/
theorem out8_0 (c : Dev nD) :
    (dat0 V c).arrAt 8 cfg0.N = k0_pay2 (gates0 V c) (V c (Pipeline.arrRef spec0 2)) :=
  (dat0 V c).arrAt_eq_of_cover 8 _ (flushed0_8 V c) cover0_8

/-! ## The input blocks as parts of their arrays -/

theorem idx0_0 : ∀ t : Fin cfg0.N, (fun a => win0_0.index t a * S32x4096.size a) = fun _ => 0 :=
  (by decide +kernel : ∀ t : Fin grid0.N, (fun a => win0_0.index t a * S32x4096.size a) = fun _ => 0)
theorem idx0_1 : ∀ t : Fin cfg0.N, (fun a => win0_1.index t a * S32x4096.size a) = fun _ => 0 :=
  (by decide +kernel : ∀ t : Fin grid0.N, (fun a => win0_1.index t a * S32x4096.size a) = fun _ => 0)
/-- The weight windows' block index at point `t` is `(t, 0)`; -/
theorem idx0_3 : ∀ t : Fin cfg0.N, win0_3.index t 0 = t.val ∧ win0_3.index t 1 = 0 :=
  (by decide +kernel : ∀ t : Fin grid0.N, win0_3.index t 0 = t.val ∧ win0_3.index t 1 = 0)
theorem idx0_4 : ∀ t : Fin cfg0.N, win0_4.index t 0 = t.val ∧ win0_4.index t 1 = 0 :=
  (by decide +kernel : ∀ t : Fin grid0.N, win0_4.index t 0 = t.val ∧ win0_4.index t 1 = 0)
/-- the bias windows', `(0, t)`. -/
theorem idx0_5 : ∀ t : Fin cfg0.N, win0_5.index t 0 = 0 ∧ win0_5.index t 1 = t.val :=
  (by decide +kernel : ∀ t : Fin grid0.N, win0_5.index t 0 = 0 ∧ win0_5.index t 1 = t.val)
theorem idx0_6 : ∀ t : Fin cfg0.N, win0_6.index t 0 = 0 ∧ win0_6.index t 1 = t.val :=
  (by decide +kernel : ∀ t : Fin grid0.N, win0_6.index t 0 = 0 ∧ win0_6.index t 1 = t.val)

/-- The input's block is the whole array at every point. -/
theorem xb0_eq (c : Dev nD) (t : Fin cfg0.N) : xb0 V c t = V c (Pipeline.arrRef spec0 0) := by
  show iblk0 V c 0 t = _
  unfold iblk0
  exact Memref.read_access_unit_zero (Elt F) (Pipeline.arrRef spec0 0) (idx0_0 t) (fun a => by rw [congrFun (idx0_0 t) a]; simp) _
/-- The previous hidden state's block is the whole array at every point. -/
theorem hb0_eq (c : Dev nD) (t : Fin cfg0.N) : hb0 V c t = V c (Pipeline.arrRef spec0 1) := by
  show iblk0 V c 1 t = _
  unfold iblk0
  exact Memref.read_access_unit_zero (Elt F) (Pipeline.arrRef spec0 1) (idx0_1 t) (fun a => by rw [congrFun (idx0_1 t) a]; simp) _

/-- Row `j` of point `t`'s block of the input weights is row `256 t + j` of the matrix. -/
theorem wb0_apply (c : Dev nD) (t : Fin cfg0.N) (j : Fin 256) (k : Fin 4096) (n : Fin 16384) (hn : n.val = 256 * t.val + j.val) :
    wb0 V c t (ix2 j k) = (V c (Pipeline.arrRef spec0 3) : S16384x4096.Idx → Elt F .f32) (ix2 n k) := by
  show iblk0 V c 3 t (ix2 j k) = _
  unfold iblk0
  rw [View.read_apply]
  show V c (Pipeline.arrRef spec0 3) _ = V c (Pipeline.arrRef spec0 3) _
  congr 1
  funext a
  apply Fin.ext
  match a with
  | ⟨0, _⟩ => show win0_3.index t 0 * 256 + 1 * j.val = n.val; rw [(idx0_3 t).1, hn]; omega
  | ⟨1, _⟩ => show win0_3.index t 1 * 4096 + 1 * k.val = k.val; rw [(idx0_3 t).2]; omega
/-- The same for the recurrent weights. -/
theorem vb0_apply (c : Dev nD) (t : Fin cfg0.N) (j : Fin 256) (k : Fin 4096) (n : Fin 16384) (hn : n.val = 256 * t.val + j.val) :
    vb0 V c t (ix2 j k) = (V c (Pipeline.arrRef spec0 4) : S16384x4096.Idx → Elt F .f32) (ix2 n k) := by
  show iblk0 V c 4 t (ix2 j k) = _
  unfold iblk0
  rw [View.read_apply]
  show V c (Pipeline.arrRef spec0 4) _ = V c (Pipeline.arrRef spec0 4) _
  congr 1
  funext a
  apply Fin.ext
  match a with
  | ⟨0, _⟩ => show win0_4.index t 0 * 256 + 1 * j.val = n.val; rw [(idx0_4 t).1, hn]; omega
  | ⟨1, _⟩ => show win0_4.index t 1 * 4096 + 1 * k.val = k.val; rw [(idx0_4 t).2]; omega
/-- Entry `j` of point `t`'s block of a bias row is entry `256 t + j` of the row. -/
theorem b50_apply (c : Dev nD) (t : Fin cfg0.N) (j : Fin 256) (n : Fin 16384) (hn : n.val = 256 * t.val + j.val) :
    b50 V c t (ix2 (0 : Fin 1) j) = (V c (Pipeline.arrRef spec0 5) : S1x16384.Idx → Elt F .f32) (ix2 (0 : Fin 1) n) := by
  show iblk0 V c 5 t (ix2 (0 : Fin 1) j) = _
  unfold iblk0
  rw [View.read_apply]
  show V c (Pipeline.arrRef spec0 5) _ = V c (Pipeline.arrRef spec0 5) _
  congr 1
  funext a
  apply Fin.ext
  match a with
  | ⟨0, _⟩ => show win0_5.index t 0 * 1 + 1 * 0 = 0; rw [(idx0_5 t).1]
  | ⟨1, _⟩ => show win0_5.index t 1 * 256 + 1 * j.val = n.val; rw [(idx0_5 t).2, hn]; omega
theorem b60_apply (c : Dev nD) (t : Fin cfg0.N) (j : Fin 256) (n : Fin 16384) (hn : n.val = 256 * t.val + j.val) :
    b60 V c t (ix2 (0 : Fin 1) j) = (V c (Pipeline.arrRef spec0 6) : S1x16384.Idx → Elt F .f32) (ix2 (0 : Fin 1) n) := by
  show iblk0 V c 6 t (ix2 (0 : Fin 1) j) = _
  unfold iblk0
  rw [View.read_apply]
  show V c (Pipeline.arrRef spec0 6) _ = V c (Pipeline.arrRef spec0 6) _
  congr 1
  funext a
  apply Fin.ext
  match a with
  | ⟨0, _⟩ => show win0_6.index t 0 * 1 + 1 * 0 = 0; rw [(idx0_6 t).1]
  | ⟨1, _⟩ => show win0_6.index t 1 * 256 + 1 * j.val = n.val; rw [(idx0_6 t).2, hn]; omega

end AnyInstance

/-! ## The gate array is the reference's, and with it the two outputs -/

section AtIdeal

variable (V : (c : Dev nD) → (b : Ref sig .tc) → Buf (Elt Ideal) ((c : Thread nD τ).loc b))

/-- The whole gate array, tile by tile, is the reference's pre-activations of the region's arrays: column `n` lies in
    tile `n / 256` at place `n mod 256`, and that tile's blocks are rows (entries) `256 (n / 256) + j` of the weight
    matrices (bias rows). The bias arrays are the reference's biases as one-row matrices. -/
theorem gates0_eq (c : Dev nD) (x h : Vec Ideal S32x4096 .f32) (wih whh : Vec Ideal S16384x4096 .f32) (bi bh : Vec Ideal S16384 .f32)
    (hx : V c (Pipeline.arrRef spec0 0) = x) (hh : V c (Pipeline.arrRef spec0 1) = h)
    (hwih : V c (Pipeline.arrRef spec0 3) = wih) (hwhh : V c (Pipeline.arrRef spec0 4) = whh)
    (hbi : V c (Pipeline.arrRef spec0 5) = shapeCast S1x16384 bi shapeCasts_S16384_S1x16384)
    (hbh : V c (Pipeline.arrRef spec0 6) = shapeCast S1x16384 bh shapeCasts_S16384_S1x16384) :
    gates0 (F := Ideal) V c = Cert.ReferenceIdeal.RefValue.gates (F := Ideal) x h wih whh bi bh := by
  funext y
  have hy0 : (y 0).val < 32 := (y 0).isLt
  have hy1 : (y 1).val < 16384 := (y 1).isLt
  obtain ⟨tt, htt⟩ : ∃ tt : Fin 64, tt.val = (y 1).val / 256 := ⟨⟨(y 1).val / 256, by omega⟩, rfl⟩
  obtain ⟨r, hr⟩ : ∃ r : Fin 32, r = (⟨(y 0).val, (y 0).isLt⟩ : Fin 32) := ⟨_, rfl⟩
  obtain ⟨j, hj⟩ : ∃ j : Fin 256, j = (⟨(y 1).val % 256, Nat.mod_lt _ (by norm_num)⟩ : Fin 256) := ⟨_, rfl⟩
  have hjv : j.val = (y 1).val % 256 := by rw [hj]
  have hT : (tileOf0 y).val = tt.val := by rw [htt]; rfl
  have ey : ix2 r (⟨256 * tt.val + j.val, by omega⟩ : Fin 16384) = y := funext fun a => by
    match a with
    | ⟨0, _⟩ => rw [hr]; rfl
    | ⟨1, _⟩ => exact Fin.ext (by show 256 * tt.val + j.val = (y 1).val; omega)
  have hw : ∀ (j : Fin 256) (k : Fin 4096), wb0 V c (tileOf0 y) (ix2 j k) = wih (ix2 ⟨256 * tt.val + j.val, by omega⟩ k) := fun j k => by
    rw [wb0_apply V c (tileOf0 y) j k ⟨256 * tt.val + j.val, by omega⟩ (by rw [hT]), hwih]
  have hv : ∀ (j : Fin 256) (k : Fin 4096), vb0 V c (tileOf0 y) (ix2 j k) = whh (ix2 ⟨256 * tt.val + j.val, by omega⟩ k) := fun j k => by
    rw [vb0_apply V c (tileOf0 y) j k ⟨256 * tt.val + j.val, by omega⟩ (by rw [hT]), hwhh]
  have h5 : ∀ j : Fin 256, b50 V c (tileOf0 y) (ix2 (0 : Fin 1) j) = bi (ix1 ⟨256 * tt.val + j.val, by omega⟩) := fun j => by
    rw [b50_apply V c (tileOf0 y) j ⟨256 * tt.val + j.val, by omega⟩ (by rw [hT]), hbi, shapeCast_a_1a_apply]
  have h6 : ∀ j : Fin 256, b60 V c (tileOf0 y) (ix2 (0 : Fin 1) j) = bh (ix1 ⟨256 * tt.val + j.val, by omega⟩) := fun j => by
    rw [b60_apply V c (tileOf0 y) j ⟨256 * tt.val + j.val, by omega⟩ (by rw [hT]), hbh, shapeCast_a_1a_apply]
  show k0_pay1 (xb0 V c (tileOf0 y)) (hb0 V c (tileOf0 y)) (wb0 V c (tileOf0 y)) (vb0 V c (tileOf0 y)) (b50 V c (tileOf0 y))
    (b60 V c (tileOf0 y)) (inTile0 y) = _
  rw [xb0_eq, hb0_eq, hx, hh, show inTile0 y = ix2 r j from by rw [hr, hj]; rfl]
  exact (Cert.KernelIdeal.Alg.pay1_0 x h wih whh bi bh tt _ _ _ _ hw hv h5 h6 r j).trans (congrArg _ ey)

/-- The new hidden state's array after the region is the reference's cell output of the region's arrays. -/
theorem h_0 (c : Dev nD) (x h cp : Vec Ideal S32x4096 .f32) (wih whh : Vec Ideal S16384x4096 .f32) (bi bh : Vec Ideal S16384 .f32)
    (hx : V c (Pipeline.arrRef spec0 0) = x) (hh : V c (Pipeline.arrRef spec0 1) = h) (hcp : V c (Pipeline.arrRef spec0 2) = cp)
    (hwih : V c (Pipeline.arrRef spec0 3) = wih) (hwhh : V c (Pipeline.arrRef spec0 4) = whh)
    (hbi : V c (Pipeline.arrRef spec0 5) = shapeCast S1x16384 bi shapeCasts_S16384_S1x16384)
    (hbh : V c (Pipeline.arrRef spec0 6) = shapeCast S1x16384 bh shapeCasts_S16384_S1x16384) :
    (dat0 V c).arrAt 7 cfg0.N = Cert.ReferenceIdeal.RefValue.cellH (F := Ideal) (Cert.ReferenceIdeal.RefValue.gates (F := Ideal) x h wih whh bi bh) cp := by
  rw [out7_0, gates0_eq V c x h wih whh bi bh hx hh hwih hwhh hbi hbh, hcp]
  exact Cert.KernelIdeal.Alg.pay3_0 _ _

/-- The new cell state's array after the region is the reference's new cell state. -/
theorem c_0 (c : Dev nD) (x h cp : Vec Ideal S32x4096 .f32) (wih whh : Vec Ideal S16384x4096 .f32) (bi bh : Vec Ideal S16384 .f32)
    (hx : V c (Pipeline.arrRef spec0 0) = x) (hh : V c (Pipeline.arrRef spec0 1) = h) (hcp : V c (Pipeline.arrRef spec0 2) = cp)
    (hwih : V c (Pipeline.arrRef spec0 3) = wih) (hwhh : V c (Pipeline.arrRef spec0 4) = whh)
    (hbi : V c (Pipeline.arrRef spec0 5) = shapeCast S1x16384 bi shapeCasts_S16384_S1x16384)
    (hbh : V c (Pipeline.arrRef spec0 6) = shapeCast S1x16384 bh shapeCasts_S16384_S1x16384) :
    (dat0 V c).arrAt 8 cfg0.N = Cert.ReferenceIdeal.RefValue.cellC (F := Ideal) (Cert.ReferenceIdeal.RefValue.gates (F := Ideal) x h wih whh bi bh) cp := by
  rw [out8_0, gates0_eq V c x h wih whh bi bh hx hh hwih hwhh hbi hbh, hcp]
  exact Cert.KernelIdeal.Alg.pay2_0 _ _

end AtIdeal

end Cert.KernelIdeal.Body

end
-- ==== Proof.KI.Val1.lean ====
/-
  Region 1's value, read off its run at the entry contents `V`.

  The two outputs. Each output window's block is the whole array and is written back once, after the last point; what
  that write-back writes is what the last point's body left, the cell update of the whole gate array and the previous
  cell state; the previous cell state's block, read with block index `(0, 0)`, is the whole array. So after the region
  the new hidden state's array holds `σ(o)·tanh(c')` and the new cell state's `c' = σ(f)·c + σ(i)·tanh(g)` of the gate
  array and the entry contents of the previous cell state's array. This holds at every float instance.

  The gate array. Column `n` of the gate array is column `n mod 256` of tile `n / 256`; tile `t` is computed from the
  whole input and previous hidden state (block index `(0, 0)`), rows `[256 t, 256 t + 256)` of each weight matrix (block
  index `(t, 0)`: an element of a block sits in the array at block index × block size + its place in the block, on each
  axis) and entries `[256 t, 256 t + 256)` of each bias row (block index `(0, t)`). At the exact instance a tile is the
  reference's pre-activations at those columns, so the whole gate array is the reference's, and the two outputs are the
  reference's cell output and new cell state.
-/
import proofs.«127548_j17918603559185_1_alg».proof.Proof.KI.Body1
import proofs.«127548_j17918603559185_1_alg».proof.Proof.GatesAlg
import proofs.«127548_j17918603559185_1_alg».proof.Proof.CellAlg
import Idealize.ShloMosaic.Lib.Pipeline.Value
import Idealize.ShloMosaic.Lib.ValueIdx
import Idealize.ShloMosaic.Lib.ValueLayout

set_option maxRecDepth 16384

noncomputable section

namespace Cert.KernelIdeal.Body

open Idealize.ShloMosaic Idealize.ShloMosaic.TcCoe
open Idealize.SL.Sem
open Idealize.ShloMosaic.Pipeline (Dat Cfg Window)
open Cert.KernelIdeal Cert.KernelIdeal.Gen
open Idealize.ShloMosaic.ValueIdx

section AnyInstance

variable {F : FTy → Type} [FloatOps F]

variable (V : (c : Dev nD) → (b : Ref sig .tc) → Buf (Elt F) ((c : Thread nD τ).loc b))

/-! ## The block index of each window, decided once over the grid -/

theorem idx1_2 : ∀ t : Fin cfg1.N, (fun a => win1_2.index t a * S32x4096.size a) = fun _ => 0 :=
  (by decide +kernel : ∀ t : Fin grid1.N, (fun a => win1_2.index t a * S32x4096.size a) = fun _ => 0)

/-- The previous cell state's block is the whole array at every point. -/
theorem cb1_eq (c : Dev nD) (t : Fin cfg1.N) : cb1 V c t = V c (Pipeline.arrRef spec1 2) := by
  show iblk1 V c 2 t = _
  unfold iblk1
  exact Memref.read_access_unit_zero (Elt F) (Pipeline.arrRef spec1 2) (idx1_2 t) (fun a => by rw [congrFun (idx1_2 t) a]; simp) _

theorem idx1_7 : ∀ t : Fin cfg1.N, (fun a => win1_7.index t a * S32x4096.size a) = fun _ => 0 :=
  (by decide +kernel : ∀ t : Fin grid1.N, (fun a => win1_7.index t a * S32x4096.size a) = fun _ => 0)
theorem idx1_8 : ∀ t : Fin cfg1.N, (fun a => win1_8.index t a * S32x4096.size a) = fun _ => 0 :=
  (by decide +kernel : ∀ t : Fin grid1.N, (fun a => win1_8.index t a * S32x4096.size a) = fun _ => 0)

/-! ## The two outputs after the region

Each output's block is the whole array, written back once, after the last point; so the array ends at what that
write-back writes: the cell update of the whole gate array and the previous cell state. -/

/-- What a write-back of the new hidden state writes is the whole array's new contents, read through the block. -/
theorem flushed1_7 (c : Dev nD) (t : Fin cfg1.N) (hf : (cfg1.win 7).flush t = true) :
    (dat1 V c).flushed 7 t
      = ((cfg1.win 7).blk t).view.read (Elt F) (k1_pay3 (gates1 V c) (V c (Pipeline.arrRef spec1 2))) := by
  show (cfg1.win 7).cut (grid1.coords t) ((dat1 V c).after 7 t) = _
  rw [after1_7, cb1_eq]
  exact (Memref.read_access_unit_zero (Elt F) (Pipeline.arrRef spec1 7) (idx1_7 t)
    (fun a => by rw [congrFun (idx1_7 t) a]; simp) _).symm

theorem flushed1_8 (c : Dev nD) (t : Fin cfg1.N) (hf : (cfg1.win 8).flush t = true) :
    (dat1 V c).flushed 8 t
      = ((cfg1.win 8).blk t).view.read (Elt F) (k1_pay2 (gates1 V c) (V c (Pipeline.arrRef spec1 2))) := by
  show (cfg1.win 8).cut (grid1.coords t) ((dat1 V c).after 8 t) = _
  rw [after1_8, cb1_eq]
  exact (Memref.read_access_unit_zero (Elt F) (Pipeline.arrRef spec1 8) (idx1_8 t)
    (fun a => by rw [congrFun (idx1_8 t) a]; simp) _).symm

/-- The last point's block covers the new hidden state's array. -/
theorem cover1_7 (i : S32x4096.Idx) :
    ∃ t : Fin cfg1.N, (cfg1.win 7).flush t = true ∧ i ∈ ((cfg1.win 7).blk t).view.set := by
  have hN : (63 : ℕ) < cfg1.N := by rw [show cfg1.N = 64 from N_1]; omega
  refine ⟨⟨63, hN⟩, (flush1_7 _).mpr rfl, ?_⟩
  show i ∈ ((View.whole (Pipeline.arrRef spec1 7)).slice (win1_7.rect ⟨63, hN⟩)).set
  rw [View.set_slice_whole]
  exact View.mem_set_unit_zero (idx1_7 ⟨63, hN⟩) _ i

theorem cover1_8 (i : S32x4096.Idx) :
    ∃ t : Fin cfg1.N, (cfg1.win 8).flush t = true ∧ i ∈ ((cfg1.win 8).blk t).view.set := by
  have hN : (63 : ℕ) < cfg1.N := by rw [show cfg1.N = 64 from N_1]; omega
  refine ⟨⟨63, hN⟩, (flush1_8 _).mpr rfl, ?_⟩
  show i ∈ ((View.whole (Pipeline.arrRef spec1 8)).slice (win1_8.rect ⟨63, hN⟩)).set
  rw [View.set_slice_whole]
  exact View.mem_set_unit_zero (idx1_8 ⟨63, hN⟩) _ i

/-- The new hidden state's array after the region. -/
theorem out7_1 (c : Dev nD) :
    (dat1 V c).arrAt 7 cfg1.N = k1_pay3 (gates1 V c) (V c (Pipeline.arrRef spec1 2)) :=
  (dat1 V c).arrAt_eq_of_cover 7 _ (flushed1_7 V c) cover1_7

/-- The new cell state's array after the region. -/
theorem out8_1 (c : Dev nD) :
    (dat1 V c).arrAt 8 cfg1.N = k1_pay2 (gates1 V c) (V c (Pipeline.arrRef spec1 2)) :=
  (dat1 V c).arrAt_eq_of_cover 8 _ (flushed1_8 V c) cover1_8

/-! ## The input blocks as parts of their arrays -/

theorem idx1_0 : ∀ t : Fin cfg1.N, (fun a => win1_0.index t a * S32x4096.size a) = fun _ => 0 :=
  (by decide +kernel : ∀ t : Fin grid1.N, (fun a => win1_0.index t a * S32x4096.size a) = fun _ => 0)
theorem idx1_1 : ∀ t : Fin cfg1.N, (fun a => win1_1.index t a * S32x4096.size a) = fun _ => 0 :=
  (by decide +kernel : ∀ t : Fin grid1.N, (fun a => win1_1.index t a * S32x4096.size a) = fun _ => 0)
/-- The weight windows' block index at point `t` is `(t, 0)`; -/
theorem idx1_3 : ∀ t : Fin cfg1.N, win1_3.index t 0 = t.val ∧ win1_3.index t 1 = 0 :=
  (by decide +kernel : ∀ t : Fin grid1.N, win1_3.index t 0 = t.val ∧ win1_3.index t 1 = 0)
theorem idx1_4 : ∀ t : Fin cfg1.N, win1_4.index t 0 = t.val ∧ win1_4.index t 1 = 0 :=
  (by decide +kernel : ∀ t : Fin grid1.N, win1_4.index t 0 = t.val ∧ win1_4.index t 1 = 0)
/-- the bias windows', `(0, t)`. -/
theorem idx1_5 : ∀ t : Fin cfg1.N, win1_5.index t 0 = 0 ∧ win1_5.index t 1 = t.val :=
  (by decide +kernel : ∀ t : Fin grid1.N, win1_5.index t 0 = 0 ∧ win1_5.index t 1 = t.val)
theorem idx1_6 : ∀ t : Fin cfg1.N, win1_6.index t 0 = 0 ∧ win1_6.index t 1 = t.val :=
  (by decide +kernel : ∀ t : Fin grid1.N, win1_6.index t 0 = 0 ∧ win1_6.index t 1 = t.val)

/-- The input's block is the whole array at every point. -/
theorem xb1_eq (c : Dev nD) (t : Fin cfg1.N) : xb1 V c t = V c (Pipeline.arrRef spec1 0) := by
  show iblk1 V c 0 t = _
  unfold iblk1
  exact Memref.read_access_unit_zero (Elt F) (Pipeline.arrRef spec1 0) (idx1_0 t) (fun a => by rw [congrFun (idx1_0 t) a]; simp) _
/-- The previous hidden state's block is the whole array at every point. -/
theorem hb1_eq (c : Dev nD) (t : Fin cfg1.N) : hb1 V c t = V c (Pipeline.arrRef spec1 1) := by
  show iblk1 V c 1 t = _
  unfold iblk1
  exact Memref.read_access_unit_zero (Elt F) (Pipeline.arrRef spec1 1) (idx1_1 t) (fun a => by rw [congrFun (idx1_1 t) a]; simp) _

/-- Row `j` of point `t`'s block of the input weights is row `256 t + j` of the matrix. -/
theorem wb1_apply (c : Dev nD) (t : Fin cfg1.N) (j : Fin 256) (k : Fin 4096) (n : Fin 16384) (hn : n.val = 256 * t.val + j.val) :
    wb1 V c t (ix2 j k) = (V c (Pipeline.arrRef spec1 3) : S16384x4096.Idx → Elt F .f32) (ix2 n k) := by
  show iblk1 V c 3 t (ix2 j k) = _
  unfold iblk1
  rw [View.read_apply]
  show V c (Pipeline.arrRef spec1 3) _ = V c (Pipeline.arrRef spec1 3) _
  congr 1
  funext a
  apply Fin.ext
  match a with
  | ⟨0, _⟩ => show win1_3.index t 0 * 256 + 1 * j.val = n.val; rw [(idx1_3 t).1, hn]; omega
  | ⟨1, _⟩ => show win1_3.index t 1 * 4096 + 1 * k.val = k.val; rw [(idx1_3 t).2]; omega
/-- The same for the recurrent weights. -/
theorem vb1_apply (c : Dev nD) (t : Fin cfg1.N) (j : Fin 256) (k : Fin 4096) (n : Fin 16384) (hn : n.val = 256 * t.val + j.val) :
    vb1 V c t (ix2 j k) = (V c (Pipeline.arrRef spec1 4) : S16384x4096.Idx → Elt F .f32) (ix2 n k) := by
  show iblk1 V c 4 t (ix2 j k) = _
  unfold iblk1
  rw [View.read_apply]
  show V c (Pipeline.arrRef spec1 4) _ = V c (Pipeline.arrRef spec1 4) _
  congr 1
  funext a
  apply Fin.ext
  match a with
  | ⟨0, _⟩ => show win1_4.index t 0 * 256 + 1 * j.val = n.val; rw [(idx1_4 t).1, hn]; omega
  | ⟨1, _⟩ => show win1_4.index t 1 * 4096 + 1 * k.val = k.val; rw [(idx1_4 t).2]; omega
/-- Entry `j` of point `t`'s block of a bias row is entry `256 t + j` of the row. -/
theorem b51_apply (c : Dev nD) (t : Fin cfg1.N) (j : Fin 256) (n : Fin 16384) (hn : n.val = 256 * t.val + j.val) :
    b51 V c t (ix2 (0 : Fin 1) j) = (V c (Pipeline.arrRef spec1 5) : S1x16384.Idx → Elt F .f32) (ix2 (0 : Fin 1) n) := by
  show iblk1 V c 5 t (ix2 (0 : Fin 1) j) = _
  unfold iblk1
  rw [View.read_apply]
  show V c (Pipeline.arrRef spec1 5) _ = V c (Pipeline.arrRef spec1 5) _
  congr 1
  funext a
  apply Fin.ext
  match a with
  | ⟨0, _⟩ => show win1_5.index t 0 * 1 + 1 * 0 = 0; rw [(idx1_5 t).1]
  | ⟨1, _⟩ => show win1_5.index t 1 * 256 + 1 * j.val = n.val; rw [(idx1_5 t).2, hn]; omega
theorem b61_apply (c : Dev nD) (t : Fin cfg1.N) (j : Fin 256) (n : Fin 16384) (hn : n.val = 256 * t.val + j.val) :
    b61 V c t (ix2 (0 : Fin 1) j) = (V c (Pipeline.arrRef spec1 6) : S1x16384.Idx → Elt F .f32) (ix2 (0 : Fin 1) n) := by
  show iblk1 V c 6 t (ix2 (0 : Fin 1) j) = _
  unfold iblk1
  rw [View.read_apply]
  show V c (Pipeline.arrRef spec1 6) _ = V c (Pipeline.arrRef spec1 6) _
  congr 1
  funext a
  apply Fin.ext
  match a with
  | ⟨0, _⟩ => show win1_6.index t 0 * 1 + 1 * 0 = 0; rw [(idx1_6 t).1]
  | ⟨1, _⟩ => show win1_6.index t 1 * 256 + 1 * j.val = n.val; rw [(idx1_6 t).2, hn]; omega

end AnyInstance

/-! ## The gate array is the reference's, and with it the two outputs -/

section AtIdeal

variable (V : (c : Dev nD) → (b : Ref sig .tc) → Buf (Elt Ideal) ((c : Thread nD τ).loc b))

/-- The whole gate array, tile by tile, is the reference's pre-activations of the region's arrays: column `n` lies in
    tile `n / 256` at place `n mod 256`, and that tile's blocks are rows (entries) `256 (n / 256) + j` of the weight
    matrices (bias rows). The bias arrays are the reference's biases as one-row matrices. -/
theorem gates1_eq (c : Dev nD) (x h : Vec Ideal S32x4096 .f32) (wih whh : Vec Ideal S16384x4096 .f32) (bi bh : Vec Ideal S16384 .f32)
    (hx : V c (Pipeline.arrRef spec1 0) = x) (hh : V c (Pipeline.arrRef spec1 1) = h)
    (hwih : V c (Pipeline.arrRef spec1 3) = wih) (hwhh : V c (Pipeline.arrRef spec1 4) = whh)
    (hbi : V c (Pipeline.arrRef spec1 5) = shapeCast S1x16384 bi shapeCasts_S16384_S1x16384)
    (hbh : V c (Pipeline.arrRef spec1 6) = shapeCast S1x16384 bh shapeCasts_S16384_S1x16384) :
    gates1 (F := Ideal) V c = Cert.ReferenceIdeal.RefValue.gates (F := Ideal) x h wih whh bi bh := by
  funext y
  have hy0 : (y 0).val < 32 := (y 0).isLt
  have hy1 : (y 1).val < 16384 := (y 1).isLt
  obtain ⟨tt, htt⟩ : ∃ tt : Fin 64, tt.val = (y 1).val / 256 := ⟨⟨(y 1).val / 256, by omega⟩, rfl⟩
  obtain ⟨r, hr⟩ : ∃ r : Fin 32, r = (⟨(y 0).val, (y 0).isLt⟩ : Fin 32) := ⟨_, rfl⟩
  obtain ⟨j, hj⟩ : ∃ j : Fin 256, j = (⟨(y 1).val % 256, Nat.mod_lt _ (by norm_num)⟩ : Fin 256) := ⟨_, rfl⟩
  have hjv : j.val = (y 1).val % 256 := by rw [hj]
  have hT : (tileOf1 y).val = tt.val := by rw [htt]; rfl
  have ey : ix2 r (⟨256 * tt.val + j.val, by omega⟩ : Fin 16384) = y := funext fun a => by
    match a with
    | ⟨0, _⟩ => rw [hr]; rfl
    | ⟨1, _⟩ => exact Fin.ext (by show 256 * tt.val + j.val = (y 1).val; omega)
  have hw : ∀ (j : Fin 256) (k : Fin 4096), wb1 V c (tileOf1 y) (ix2 j k) = wih (ix2 ⟨256 * tt.val + j.val, by omega⟩ k) := fun j k => by
    rw [wb1_apply V c (tileOf1 y) j k ⟨256 * tt.val + j.val, by omega⟩ (by rw [hT]), hwih]
  have hv : ∀ (j : Fin 256) (k : Fin 4096), vb1 V c (tileOf1 y) (ix2 j k) = whh (ix2 ⟨256 * tt.val + j.val, by omega⟩ k) := fun j k => by
    rw [vb1_apply V c (tileOf1 y) j k ⟨256 * tt.val + j.val, by omega⟩ (by rw [hT]), hwhh]
  have h5 : ∀ j : Fin 256, b51 V c (tileOf1 y) (ix2 (0 : Fin 1) j) = bi (ix1 ⟨256 * tt.val + j.val, by omega⟩) := fun j => by
    rw [b51_apply V c (tileOf1 y) j ⟨256 * tt.val + j.val, by omega⟩ (by rw [hT]), hbi, shapeCast_a_1a_apply]
  have h6 : ∀ j : Fin 256, b61 V c (tileOf1 y) (ix2 (0 : Fin 1) j) = bh (ix1 ⟨256 * tt.val + j.val, by omega⟩) := fun j => by
    rw [b61_apply V c (tileOf1 y) j ⟨256 * tt.val + j.val, by omega⟩ (by rw [hT]), hbh, shapeCast_a_1a_apply]
  show k1_pay1 (xb1 V c (tileOf1 y)) (hb1 V c (tileOf1 y)) (wb1 V c (tileOf1 y)) (vb1 V c (tileOf1 y)) (b51 V c (tileOf1 y))
    (b61 V c (tileOf1 y)) (inTile1 y) = _
  rw [xb1_eq, hb1_eq, hx, hh, show inTile1 y = ix2 r j from by rw [hr, hj]; rfl]
  exact (Cert.KernelIdeal.Alg.pay1_1 x h wih whh bi bh tt _ _ _ _ hw hv h5 h6 r j).trans (congrArg _ ey)

/-- The new hidden state's array after the region is the reference's cell output of the region's arrays. -/
theorem h_1 (c : Dev nD) (x h cp : Vec Ideal S32x4096 .f32) (wih whh : Vec Ideal S16384x4096 .f32) (bi bh : Vec Ideal S16384 .f32)
    (hx : V c (Pipeline.arrRef spec1 0) = x) (hh : V c (Pipeline.arrRef spec1 1) = h) (hcp : V c (Pipeline.arrRef spec1 2) = cp)
    (hwih : V c (Pipeline.arrRef spec1 3) = wih) (hwhh : V c (Pipeline.arrRef spec1 4) = whh)
    (hbi : V c (Pipeline.arrRef spec1 5) = shapeCast S1x16384 bi shapeCasts_S16384_S1x16384)
    (hbh : V c (Pipeline.arrRef spec1 6) = shapeCast S1x16384 bh shapeCasts_S16384_S1x16384) :
    (dat1 V c).arrAt 7 cfg1.N = Cert.ReferenceIdeal.RefValue.cellH (F := Ideal) (Cert.ReferenceIdeal.RefValue.gates (F := Ideal) x h wih whh bi bh) cp := by
  rw [out7_1, gates1_eq V c x h wih whh bi bh hx hh hwih hwhh hbi hbh, hcp]
  exact Cert.KernelIdeal.Alg.pay3_1 _ _

/-- The new cell state's array after the region is the reference's new cell state. -/
theorem c_1 (c : Dev nD) (x h cp : Vec Ideal S32x4096 .f32) (wih whh : Vec Ideal S16384x4096 .f32) (bi bh : Vec Ideal S16384 .f32)
    (hx : V c (Pipeline.arrRef spec1 0) = x) (hh : V c (Pipeline.arrRef spec1 1) = h) (hcp : V c (Pipeline.arrRef spec1 2) = cp)
    (hwih : V c (Pipeline.arrRef spec1 3) = wih) (hwhh : V c (Pipeline.arrRef spec1 4) = whh)
    (hbi : V c (Pipeline.arrRef spec1 5) = shapeCast S1x16384 bi shapeCasts_S16384_S1x16384)
    (hbh : V c (Pipeline.arrRef spec1 6) = shapeCast S1x16384 bh shapeCasts_S16384_S1x16384) :
    (dat1 V c).arrAt 8 cfg1.N = Cert.ReferenceIdeal.RefValue.cellC (F := Ideal) (Cert.ReferenceIdeal.RefValue.gates (F := Ideal) x h wih whh bi bh) cp := by
  rw [out8_1, gates1_eq V c x h wih whh bi bh hx hh hwih hwhh hbi hbh, hcp]
  exact Cert.KernelIdeal.Alg.pay2_1 _ _

end AtIdeal

end Cert.KernelIdeal.Body

end
-- ==== Proof.KValue.lean ====
/-
  The kernel program's result is the layered function of its arguments. Each region leaves in its two output arrays
  the cell update of its whole gate array and its previous cell state; the gate array, tile by tile, is the
  reference's gate pre-activations of the region's entry contents; the entry contents are the per-layer slices of the
  arguments (the second region's input the first's new hidden state); and the closing host operations stack the four
  arrays as the reference does.
-/
import proofs.«127548_j17918603559185_1_alg».proof.Proof.KI.Whole
import proofs.«127548_j17918603559185_1_alg».proof.Proof.KI.Val0
import proofs.«127548_j17918603559185_1_alg».proof.Proof.KI.Val1
import proofs.«127548_j17918603559185_1_alg».proof.Proof.CellAlg
import proofs.«127548_j17918603559185_1_alg».proof.Proof.GatesAlg
import proofs.«127548_j17918603559185_1_alg».proof.Proof.RefSpec
import Idealize.ShloMosaic.Lib.StableHlo.Run

set_option maxRecDepth 16384

noncomputable section

namespace Cert.KernelIdeal.Body

open Idealize.ShloMosaic Idealize.ShloMosaic.TcCoe Idealize.SL.Sem
open Cert.KernelIdeal Cert.KernelIdeal.Gen
open Cert.ReferenceIdeal.RefValue (hc0 hc1 w0 w1 b0 b1 gates cellC cellH stack result)

variable (m : (ℓ : Loc nD τ sig) → Buf (Elt Ideal) ℓ) (c : Dev nD)

/-- The seven arguments as launched. -/
abbrev A0 : Buf (Elt Ideal) ((c.tc : Thread nD τ).loc main_arg0) := m ((c.tc : Thread nD τ).loc main_arg0)
abbrev A1 : Buf (Elt Ideal) ((c.tc : Thread nD τ).loc main_arg1) := m ((c.tc : Thread nD τ).loc main_arg1)
abbrev A2 : Buf (Elt Ideal) ((c.tc : Thread nD τ).loc main_arg2) := m ((c.tc : Thread nD τ).loc main_arg2)
abbrev A3 : Buf (Elt Ideal) ((c.tc : Thread nD τ).loc main_arg3) := m ((c.tc : Thread nD τ).loc main_arg3)
abbrev A4 : Buf (Elt Ideal) ((c.tc : Thread nD τ).loc main_arg4) := m ((c.tc : Thread nD τ).loc main_arg4)
abbrev A5 : Buf (Elt Ideal) ((c.tc : Thread nD τ).loc main_arg5) := m ((c.tc : Thread nD τ).loc main_arg5)
abbrev A6 : Buf (Elt Ideal) ((c.tc : Thread nD τ).loc main_arg6) := m ((c.tc : Thread nD τ).loc main_arg6)

/-! ## The first region's entry contents: the first layer's slices -/

theorem V1_x : V1 (F := Ideal) m c main_arg0 = (A0 m c) :=
  StableHlo.after_of_writes_sub hostOps0 _ hostOps0_writes (r := main_arg0) (by decide)
theorem V1_h : V1 (F := Ideal) m c main_v1 = hc0 (F := Ideal) (A1 m c) := by
  show StableHlo.after hostOps0 (W0 m c) (Proc.devRef .tc main_v1) = _; after_results; rfl
theorem V1_c : V1 (F := Ideal) m c main_v3 = hc0 (F := Ideal) (A2 m c) := by
  show StableHlo.after hostOps0 (W0 m c) (Proc.devRef .tc main_v3) = _; after_results; rfl
theorem V1_wih : V1 (F := Ideal) m c main_v5 = w0 (F := Ideal) (A3 m c) := by
  show StableHlo.after hostOps0 (W0 m c) (Proc.devRef .tc main_v5) = _; after_results; rfl
theorem V1_whh : V1 (F := Ideal) m c main_v7 = w0 (F := Ideal) (A4 m c) := by
  show StableHlo.after hostOps0 (W0 m c) (Proc.devRef .tc main_v7) = _; after_results; rfl
theorem V1_bi : V1 (F := Ideal) m c main_v12 = shapeCast S1x16384 (b0 (F := Ideal) (A5 m c)) shapeCasts_S16384_S1x16384 := by
  show StableHlo.after hostOps0 (W0 m c) (Proc.devRef .tc main_v12) = _; after_results; rfl
theorem V1_bh : V1 (F := Ideal) m c main_v13 = shapeCast S1x16384 (b0 (F := Ideal) (A6 m c)) shapeCasts_S16384_S1x16384 := by
  show StableHlo.after hostOps0 (W0 m c) (Proc.devRef .tc main_v13) = _; after_results; rfl

/-- The first region's gate array is the first cell's gate pre-activations. -/
theorem gates_first : gates0 (F := Ideal) (V1 m) c = Cert.ReferenceIdeal.RefValue.g1 (F := Ideal) (A0 m c) (A1 m c) (A3 m c) (A4 m c) (A5 m c) (A6 m c) :=
  gates0_eq (V1 m) c _ _ _ _ _ _ (V1_x m c) (V1_h m c) (V1_wih m c) (V1_whh m c) (V1_bi m c) (V1_bh m c)

/-- The first region leaves the first cell's new hidden state … -/
theorem W2_h : W2 (F := Ideal) m c (Proc.devRef .tc main_v14_0) = Cert.ReferenceIdeal.RefValue.h1 (F := Ideal) (A0 m c) (A1 m c) (A2 m c) (A3 m c) (A4 m c) (A5 m c) (A6 m c) := by
  refine (W2_arr m c 7).trans ((out7_0 (V1 m) c).trans ?_)
  rw [gates_first m c, show V1 (F := Ideal) m c (Pipeline.arrRef spec0 2) = hc0 (F := Ideal) (A2 m c) from V1_c m c, Cert.KernelIdeal.Alg.pay3_0]
  rfl
/-- … and its new cell state. -/
theorem W2_c : W2 (F := Ideal) m c (Proc.devRef .tc main_v14_1) = Cert.ReferenceIdeal.RefValue.c1 (F := Ideal) (A0 m c) (A1 m c) (A2 m c) (A3 m c) (A4 m c) (A5 m c) (A6 m c) := by
  refine (W2_arr m c 8).trans ((out8_0 (V1 m) c).trans ?_)
  rw [gates_first m c, show V1 (F := Ideal) m c (Pipeline.arrRef spec0 2) = hc0 (F := Ideal) (A2 m c) from V1_c m c, Cert.KernelIdeal.Alg.pay2_0]
  rfl

/-! ## The arguments pass the first region unchanged -/

theorem W2_arg (k : Ref sig .tc) (hk0 : k ∉ hostOps0_W) (hk : ∀ w, Pipeline.arrRef spec0 w ≠ k) :
    W2 (F := Ideal) m c (Proc.devRef .tc k) = m ((c.tc : Thread nD τ).loc k) :=
  (W2_of_ne m c k hk).trans (StableHlo.after_of_writes_sub hostOps0 _ hostOps0_writes (r := k) hk0)

/-! ## The second region's entry contents: the second layer's slices, and the first cell's new hidden state -/

theorem V3_x : V3 (F := Ideal) m c main_v14_0 = Cert.ReferenceIdeal.RefValue.h1 (F := Ideal) (A0 m c) (A1 m c) (A2 m c) (A3 m c) (A4 m c) (A5 m c) (A6 m c) :=
  (StableHlo.after_of_writes_sub hostOps1 _ hostOps1_writes (r := main_v14_0) (by decide)).trans (W2_h m c)
theorem V3_h : V3 (F := Ideal) m c main_v16 = hc1 (F := Ideal) (A1 m c) := by
  show StableHlo.after hostOps1 (W2 m c) (Proc.devRef .tc main_v16) = _; after_results
  rw [W2_arg m c main_arg1 (by decide) (by decide)]; rfl
theorem V3_c : V3 (F := Ideal) m c main_v18 = hc1 (F := Ideal) (A2 m c) := by
  show StableHlo.after hostOps1 (W2 m c) (Proc.devRef .tc main_v18) = _; after_results
  rw [W2_arg m c main_arg2 (by decide) (by decide)]; rfl
theorem V3_wih : V3 (F := Ideal) m c main_v20 = w1 (F := Ideal) (A3 m c) := by
  show StableHlo.after hostOps1 (W2 m c) (Proc.devRef .tc main_v20) = _; after_results
  rw [W2_arg m c main_arg3 (by decide) (by decide)]; rfl
theorem V3_whh : V3 (F := Ideal) m c main_v22 = w1 (F := Ideal) (A4 m c) := by
  show StableHlo.after hostOps1 (W2 m c) (Proc.devRef .tc main_v22) = _; after_results
  rw [W2_arg m c main_arg4 (by decide) (by decide)]; rfl
theorem V3_bi : V3 (F := Ideal) m c main_v27 = shapeCast S1x16384 (b1 (F := Ideal) (A5 m c)) shapeCasts_S16384_S1x16384 := by
  show StableHlo.after hostOps1 (W2 m c) (Proc.devRef .tc main_v27) = _; after_results
  rw [W2_arg m c main_arg5 (by decide) (by decide)]; rfl
theorem V3_bh : V3 (F := Ideal) m c main_v28 = shapeCast S1x16384 (b1 (F := Ideal) (A6 m c)) shapeCasts_S16384_S1x16384 := by
  show StableHlo.after hostOps1 (W2 m c) (Proc.devRef .tc main_v28) = _; after_results
  rw [W2_arg m c main_arg6 (by decide) (by decide)]; rfl

/-- The second region's gate array is the second cell's gate pre-activations. -/
theorem gates_second : gates1 (F := Ideal) (V3 m) c = Cert.ReferenceIdeal.RefValue.g2 (F := Ideal) (A0 m c) (A1 m c) (A2 m c) (A3 m c) (A4 m c) (A5 m c) (A6 m c) :=
  gates1_eq (V3 m) c _ _ _ _ _ _ (V3_x m c) (V3_h m c) (V3_wih m c) (V3_whh m c) (V3_bi m c) (V3_bh m c)

theorem W4_h2 : W4 (F := Ideal) m c (Proc.devRef .tc main_v29_0) = Cert.ReferenceIdeal.RefValue.h2 (F := Ideal) (A0 m c) (A1 m c) (A2 m c) (A3 m c) (A4 m c) (A5 m c) (A6 m c) := by
  refine (W4_arr m c 7).trans ((out7_1 (V3 m) c).trans ?_)
  rw [gates_second m c, show V3 (F := Ideal) m c (Pipeline.arrRef spec1 2) = hc1 (F := Ideal) (A2 m c) from V3_c m c, Cert.KernelIdeal.Alg.pay3_1]
  rfl
theorem W4_c2 : W4 (F := Ideal) m c (Proc.devRef .tc main_v29_1) = Cert.ReferenceIdeal.RefValue.c2 (F := Ideal) (A0 m c) (A1 m c) (A2 m c) (A3 m c) (A4 m c) (A5 m c) (A6 m c) := by
  refine (W4_arr m c 8).trans ((out8_1 (V3 m) c).trans ?_)
  rw [gates_second m c, show V3 (F := Ideal) m c (Pipeline.arrRef spec1 2) = hc1 (F := Ideal) (A2 m c) from V3_c m c, Cert.KernelIdeal.Alg.pay2_1]
  rfl
/-- The first cell's new hidden state is the second region's input: it passes the region unchanged. -/
theorem W4_h1 : W4 (F := Ideal) m c (Proc.devRef .tc main_v14_0) = Cert.ReferenceIdeal.RefValue.h1 (F := Ideal) (A0 m c) (A1 m c) (A2 m c) (A3 m c) (A4 m c) (A5 m c) (A6 m c) :=
  (W4_arr m c 0).trans (((dat1 (V3 m) c).arrAt_in 0 rfl _).trans ((A_eq1 (V3 m) c 0).trans (V3_x m c)))
/-- The first cell's new cell state is no array of the second region. -/
theorem W4_c1 : W4 (F := Ideal) m c (Proc.devRef .tc main_v14_1) = Cert.ReferenceIdeal.RefValue.c1 (F := Ideal) (A0 m c) (A1 m c) (A2 m c) (A3 m c) (A4 m c) (A5 m c) (A6 m c) :=
  (W4_of_ne m c main_v14_1 (by decide)).trans
    ((StableHlo.after_of_writes_sub hostOps1 _ hostOps1_writes (r := main_v14_1) (by decide)).trans (W2_c m c))

/-! ## The stacking -/

/-- The program's result is the reference's layered function of the arguments. -/
theorem result_eq : W5 (F := Ideal) m c (Proc.devRef .tc main_v38) = result (F := Ideal) (A0 m c) (A1 m c) (A2 m c) (A3 m c) (A4 m c) (A5 m c) (A6 m c) := by
  show StableHlo.after hostOps2 (W4 m c) (Proc.devRef .tc main_v38) = _
  after_results
  rw [W4_h1 m c, W4_h2 m c, W4_c1 m c, W4_c2 m c]
  rfl

end Cert.KernelIdeal.Body

end
-- ==== Proof.RefRun.lean ====
/-
  The reference's run ends with its result at `RefValue.result` of the argument arrays: the generated composed
  term is that function's definition unfolded.
-/
import proofs.«127548_j17918603559185_1_alg».proof.Proof.RefSpec
import proofs.«127548_j17918603559185_1_alg».proof.Proof.Gen.ReferenceIdeal.Run

noncomputable section

namespace Cert.ReferenceIdeal.RefValue

open Cert.ReferenceIdeal Cert.ReferenceIdeal.Gen Cert.ReferenceIdeal.Value Idealize.ShloMosaic Idealize.ShloMosaic.TcCoe Idealize.SL.Sem

variable {F : FTy → Type} [FloatOps F]

set_option maxRecDepth 65536 in
set_option maxHeartbeats 4000000 in
/-- The run's composed term is the layered function of the arguments. -/
theorem res_eq (m : (ℓ : Loc nD τ sig) → Buf (Elt F) ℓ) (c : Dev nD) :
    res_main_v110 (F := F) m c
      = result (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6)) := by
  unfold res_main_v110 result stack pair h1 h2 c1 c2 g1 g2 cellH cellC gates gateI gateF gateG gateO proj biasRows sigm ones hc0 hc1 w0 w1 b0 b1
  rfl

end Cert.ReferenceIdeal.RefValue

end
-- ==== Proof.lean ====
/-
  Two stacked LSTM cells, each one pipelined kernel over 64 tiles of the 16384 gate columns, against the jnp reference.
  At the ideal instance both sides compute, per cell, the gate pre-activations `x·W_ihᵀ + h·W_hhᵀ + b_ih + b_hh` (the kernel
  adds the two products first and tile by tile, the reference adds the biases in between: one sum in the commutative
  monoid of the extended reals), the logistic of the input, forget and output quarters (the kernel's one operation is
  by definition the reference's `1 / (1 + e^(-z))`), tanh of the cell quarter, `c' = σ(f)·c + σ(i)·tanh(g)` and
  `h' = σ(o)·tanh(c')`; the second cell's input is the first's `h'`, and the result stacks `[[h'₁, h'₂], [c'₁, c'₂]]`.
  The frames: each kernel program's run is the run of its five segments (host slices, cell, host slices, cell, host
  stacking), which names every buffer at the end; the reference's run is its host operations composed. The ideal pass
  rewrote nothing, so the kernel's idealization is its own text read at the ideal instance.
-/
import proofs.«127548_j17918603559185_1_alg».proof.Defs
import proofs.«127548_j17918603559185_1_alg».proof.Proof.Gen.Kernel
import proofs.«127548_j17918603559185_1_alg».proof.Proof.Gen.KernelIdeal
import proofs.«127548_j17918603559185_1_alg».proof.Proof.Gen.ReferenceIdeal
import proofs.«127548_j17918603559185_1_alg».proof.Proof.Gen.Pre_finite_inputs
import proofs.«127548_j17918603559185_1_alg».proof.Proof.Gen.ReferenceIdeal.Run
import proofs.«127548_j17918603559185_1_alg».proof.Proof.K.Whole
import proofs.«127548_j17918603559185_1_alg».proof.Proof.KI.Whole
import proofs.«127548_j17918603559185_1_alg».proof.Proof.KValue
import proofs.«127548_j17918603559185_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Body.frame (F := Bits) m ρ

/-- So does its reading at the ideal instance. -/
theorem frame_ki : Cert.frame_KernelIdeal := fun m ρ _ => Cert.KernelIdeal.Body.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the layered function of the arguments. -/
theorem algebraic : Cert.algebraic_KernelIdeal_ReferenceIdeal := by
  intro m ρ m' ρ' _ hagree
  refine ⟨fun c => Cert.ReferenceIdeal.RefValue.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun _ h c => ⟨?_, ?_, ?_, ?_, ?_, ?_, ?_, ?_⟩) (Cert.KernelIdeal.Body.run_all (F := Ideal) m ρ)
    · exact (h c _ (Cert.KernelIdeal.Body.mem_uc Cert.KernelIdeal.main_v38 (by decide))).trans (Cert.KernelIdeal.Body.result_eq m c)
    · exact (h c _ (Cert.KernelIdeal.Body.mem_uc Cert.KernelIdeal.main_arg0 (by decide))).trans (Cert.KernelIdeal.Body.W5_main_arg0 m c)
    · exact (h c _ (Cert.KernelIdeal.Body.mem_uc Cert.KernelIdeal.main_arg1 (by decide))).trans (Cert.KernelIdeal.Body.W5_main_arg1 m c)
    · exact (h c _ (Cert.KernelIdeal.Body.mem_uc Cert.KernelIdeal.main_arg2 (by decide))).trans (Cert.KernelIdeal.Body.W5_main_arg2 m c)
    · exact (h c _ (Cert.KernelIdeal.Body.mem_uc Cert.KernelIdeal.main_arg3 (by decide))).trans (Cert.KernelIdeal.Body.W5_main_arg3 m c)
    · exact (h c _ (Cert.KernelIdeal.Body.mem_uc Cert.KernelIdeal.main_arg4 (by decide))).trans (Cert.KernelIdeal.Body.W5_main_arg4 m c)
    · exact (h c _ (Cert.KernelIdeal.Body.mem_uc Cert.KernelIdeal.main_arg5 (by decide))).trans (Cert.KernelIdeal.Body.W5_main_arg5 m c)
    · exact (h c _ (Cert.KernelIdeal.Body.mem_uc Cert.KernelIdeal.main_arg6 (by decide))).trans (Cert.KernelIdeal.Body.W5_main_arg6 m c)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq, (hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
